-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x64 : Shape := ⟨2, ![16384, 64]⟩
abbrev S2048 : Shape := ⟨1, ![2048]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg3 : IVec S2048 32) (main_v12 : IVec S_ 1) (main_v15 : IVec S_ 1) : IVec S_ 1 :=
  let main_v16 : IVec S_ 1 := andi main_v12 main_v15
  let main_c_6 : IVec S_ 32 := constantI S_ 32 0#32
  let main_v17 : IVec S2048 32 := broadcastInDim S2048 ![] bcast_S_S2048 main_c_6
  let main_v18 : IVec S2048 1 := cmpi .sge main_arg3 main_v17
  let main_c_7 : IVec S_ 1 := constantI S_ 1 1#1
  let main_v19 : IVec S_ 1 := (fun x v => Host.reduce IntOp.andi x v reducesTo_S2048_S_d0 h_S_) main_v18 main_c_7
  let main_v20 : IVec S_ 1 := andi main_v16 main_v19
  let main_c_8 : IVec S_ 32 := constantI S_ 32 4096#32
  let main_v21 : IVec S2048 32 := broadcastInDim S2048 ![] bcast_S_S2048 main_c_8
  let main_v22 : IVec S2048 1 := cmpi .slt main_arg3 main_v21
  let main_c_9 : IVec S_ 1 := constantI S_ 1 1#1
  let main_v23 : IVec S_ 1 := (fun x v => Host.reduce IntOp.andi x v reducesTo_S2048_S_d0 h_S_) main_v22 main_c_9
  let main_v24 : IVec S_ 1 := andi main_v20 main_v23
  main_v24

def fn {F : FTy → Type} [FloatOps F] (main_arg0 : FVec F S16384x4096 .f32) (main_arg1 : FVec F S16384x64 .f32) (main_arg2 : IVec S2048 32) (main_arg3 : IVec S2048 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg2 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  let main_c_4 : IVec S_ 32 := constantI S_ 32 16384#32
  let main_v13 : IVec S2048 32 := broadcastInDim S2048 ![] bcast_S_S2048 main_c_4
  let main_v14 : IVec S2048 1 := cmpi .slt main_arg2 main_v13
  let main_c_5 : IVec S_ 1 := constantI S_ 1 1#1
  let main_v15 : IVec S_ 1 := (fun x v => Host.reduce IntOp.andi x v reducesTo_S2048_S_d0 h_S_) main_v14 main_c_5
  fn_part1 (F := F) main_arg3 main_v12 main_v15
-- ==== Kernel.lean ====
abbrev S16384x4096 : Shape := ⟨2, ![16384, 4096]⟩
abbrev S16384x64 : Shape := ⟨2, ![16384, 64]⟩
abbrev S2048 : Shape := ⟨1, ![2048]⟩
abbrev S_ : Shape := ⟨0, ![]⟩
abbrev S2048x1 : Shape := ⟨2, ![2048, 1]⟩
abbrev S2048x64 : Shape := ⟨2, ![2048, 64]⟩
abbrev S1x2048 : Shape := ⟨2, ![1, 2048]⟩
abbrev S1 : Shape := ⟨1, ![1]⟩
abbrev S1x1 : Shape := ⟨2, ![1, 1]⟩
abbrev S16384x2048 : Shape := ⟨2, ![16384, 2048]⟩
abbrev S32x1x2048 : Shape := ⟨3, ![32, 1, 2048]⟩
abbrev S512x4096 : Shape := ⟨2, ![512, 4096]⟩
abbrev S512x2048 : Shape := ⟨2, ![512, 2048]⟩
abbrev S512x64 : Shape := ⟨2, ![512, 64]⟩
abbrev S1x1x2048 : Shape := ⟨3, ![1, 1, 2048]⟩
abbrev S512x1 : Shape := ⟨2, ![512, 1]⟩
abbrev S512x512 : Shape := ⟨2, ![512, 512]⟩
abbrev S512 : Shape := ⟨1, ![512]⟩

abbrev nBuf : Space → Nat
  | .hbm => 67
  | .vmem => 15
  | .smem => 0
  | _ => 0

abbrev bufTy : (tb : Table) → Fin (tcTables nBuf tb) → BufTy
  | .hbm, ⟨0, _⟩ => ⟨S16384x4096, .f32⟩
  | .hbm, ⟨1, _⟩ => ⟨S16384x64, .f32⟩
  | .hbm, ⟨2, _⟩ => ⟨S2048, .i32⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S2048x64, .f32⟩
  | .hbm, ⟨13, _⟩ => ⟨S2048x64, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S1x2048, .f32⟩
  | .hbm, ⟨18, _⟩ => ⟨S1x2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S1, .i32⟩
  | .hbm, ⟨28, _⟩ => ⟨S_, .i32⟩
  | .hbm, ⟨29, _⟩ => ⟨S2048x1, .i32⟩
  | .hbm, ⟨30, _⟩ => ⟨S2048x1, .i1⟩
  | .hbm, ⟨31, _⟩ => ⟨S1x1, .i32⟩
  | .hbm, ⟨32, _⟩ => ⟨S2048x1, .i32⟩
  | .hbm, ⟨33, _⟩ => ⟨S2048x1, .i1⟩
  | .hbm, ⟨34, _⟩ => ⟨S2048x1, .i1⟩
  | .hbm, ⟨35, _⟩ => ⟨S_, .i1⟩
  | .hbm, ⟨36, _⟩ => ⟨S2048, .i1⟩
  | .hbm, ⟨37, _⟩ => ⟨S16384x2048, .f32⟩
  | .hbm, ⟨38, _⟩ => ⟨S16384x2048, .i1⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S32x1x2048, .f32⟩
  | .hbm, ⟨43, _⟩ => ⟨S32x1x2048, .f32⟩
  | .hbm, ⟨44, _⟩ => ⟨S32x1x2048, .f32⟩
  | .hbm, ⟨45, _⟩ => ⟨S_, .f32⟩
  | .hbm, ⟨46, _⟩ => ⟨S1x2048, .f32⟩
  | .hbm, ⟨47, _⟩ => ⟨S2048, .f32⟩
  | .hbm, ⟨48, _⟩ => ⟨S_, .f32⟩
  | .hbm, ⟨49, _⟩ => ⟨S1x2048, .f32⟩
  | .hbm, ⟨50, _⟩ => ⟨S2048, .f32⟩
  | .hbm, ⟨51, _⟩ => ⟨S_, .f32⟩
  | .hbm, ⟨52, _⟩ => ⟨S1x2048, .f32⟩
  | .hbm, ⟨53, _⟩ => ⟨S2048, .f32⟩
  | .hbm, ⟨54, _⟩ => ⟨S_, .f32⟩
  | .hbm, ⟨55, _⟩ => ⟨S2048, .f32⟩
  | .hbm, ⟨56, _⟩ => ⟨S2048, .i1⟩
  | .hbm, ⟨57, _⟩ => ⟨S_, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S2048, .i1⟩
  | .hbm, ⟨64, _⟩ => ⟨S2048, .f32⟩
  | .hbm, ⟨65, _⟩ => ⟨S2048, .f32⟩
  | .hbm, ⟨66, _⟩ => ⟨S2048, .f32⟩
  | .local _ .vmem, ⟨0, _⟩ => ⟨S512x4096, .f32⟩
  | .local _ .vmem, ⟨1, _⟩ => ⟨S512x4096, .f32⟩
  | .local _ .vmem, ⟨2, _⟩ => ⟨S512x2048, .f32⟩
  | .local _ .vmem, ⟨3, _⟩ => ⟨S512x2048, .f32⟩
  | .local _ .vmem, ⟨4, _⟩ => ⟨S512x64, .f32⟩
  | .local _ .vmem, ⟨5, _⟩ => ⟨S512x64, .f32⟩
  | .local _ .vmem, ⟨6, _⟩ => ⟨S2048x64, .f32⟩
  | .local _ .vmem, ⟨7, _⟩ => ⟨S1x2048, .f32⟩
  | .local _ .vmem, ⟨8, _⟩ => ⟨S1x2048, .i32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v12 : Ref sig .tc := ⟨.hbm, 41, rfl⟩
abbrev main_v13_0 : Ref sig .tc := ⟨.hbm, 42, rfl⟩
abbrev main_v13_1 : Ref sig .tc := ⟨.hbm, 43, rfl⟩
abbrev main_v13_2 : Ref sig .tc := ⟨.hbm, 44, rfl⟩
abbrev main_cst_1 : Ref sig .tc := ⟨.hbm, 45, rfl⟩
abbrev main_v14 : Ref sig .tc := ⟨.hbm, 46, rfl⟩
abbrev main_v15 : Ref sig .tc := ⟨.hbm, 47, rfl⟩
abbrev main_cst_2 : Ref sig .tc := ⟨.hbm, 48, rfl⟩
abbrev main_v16 : Ref sig .tc := ⟨.hbm, 49, rfl⟩
abbrev main_v17 : Ref sig .tc := ⟨.hbm, 50, rfl⟩
abbrev main_cst_3 : Ref sig .tc := ⟨.hbm, 51, rfl⟩
abbrev main_v18 : Ref sig .tc := ⟨.hbm, 52, rfl⟩
abbrev main_v19 : Ref sig .tc := ⟨.hbm, 53, rfl⟩
abbrev main_cst_4 : Ref sig .tc := ⟨.hbm, 54, rfl⟩
abbrev main_v20 : Ref sig .tc := ⟨.hbm, 55, rfl⟩
abbrev main_v21 : Ref sig .tc := ⟨.hbm, 56, rfl⟩
abbrev main_cst_5 : Ref sig .tc := ⟨.hbm, 57, rfl⟩
abbrev main_call1_v0 : Ref sig .tc := ⟨.hbm, 58, rfl⟩
abbrev main_call1_v1 : Ref sig .tc := ⟨.hbm, 59, rfl⟩
abbrev main_v22 : Ref sig .tc := ⟨.hbm, 60, rfl⟩
abbrev main_cst_6 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  reducesTo_S2048x64_S2048_d1 : S2048x64.ReducesTo [1] S2048
  h_S_ : 0 < S_.numel
  bcast_S2048_S1x2048_1 : S2048.BroadcastsInDim S1x2048 (![1] : Fin 1 → Fin S1x2048.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S16384x2048_1 : S2048.BroadcastsInDim S16384x2048 (![1] : Fin 1 → Fin S16384x2048.rank)
  bcast_S_S16384x2048 : S_.BroadcastsInDim S16384x2048 (![] : Fin 0 → Fin S16384x2048.rank)
  inb_S512x4096_S512x512_0_0 : ∀ a, (![0, 0] : Fin 2 → Nat) a + S512x512.size a ≤ S512x4096.size a
  h_S512x512 : 0 < S512x512.numel
  natLt_1_32 : 1 < 32
  reduces_S512x512_S512 : S512x512.Reduces [1] S512
  shapeCasts_S512_S512x1 : S512.ShapeCasts S512x1
  inb_S512x4096_S512x512_0_512 : ∀ a, (![0, 512] : Fin 2 → Nat) a + S512x512.size a ≤ S512x4096.size a
  inb_S512x4096_S512x512_0_1024 : ∀ a, (![0, 1024] : Fin 2 → Nat) a + S512x512.size a ≤ S512x4096.size a
  inb_S512x4096_S512x512_0_1536 : ∀ a, (![0, 1536] : Fin 2 → Nat) a + S512x512.size a ≤ S512x4096.size a
  inb_S512x4096_S512x512_0_2048 : ∀ a, (![0, 2048] : Fin 2 → Nat) a + S512x512.size a ≤ S512x4096.size a
  inb_S512x4096_S512x512_0_2560 : ∀ a, (![0, 2560] : Fin 2 → Nat) a + S512x512.size a ≤ S512x4096.size a
  inb_S512x4096_S512x512_0_3072 : ∀ a, (![0, 3072] : Fin 2 → Nat) a + S512x512.size a ≤ S512x4096.size a
  inb_S512x4096_S512x512_0_3584 : ∀ a, (![0, 3584] : Fin 2 → Nat) a + S512x512.size a ≤ S512x4096.size a
  inb_S512x64_S512x64_0_0 : ∀ a, (![0, 0] : Fin 2 → Nat) a + S512x64.size a ≤ S512x64.size a
  h_S512x64 : 0 < S512x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  reduces_S512x64_S512 : S512x64.Reduces [1] S512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  broadcasts_S512x1_S512x2048 : S512x1.Broadcasts S512x2048
  iota_S512x1_d0_w32 : S512x1.Iotas .tc 32 [0]
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S2048 : S512x2048.Reduces [0] S2048
  shapeCasts_S2048_S1x2048 : S2048.ShapeCasts S1x2048
  shapeCasts_S512x1_S512x1 : S512x1.ShapeCasts S512x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  reducesTo_S32x1x2048_S1x2048_d0 : S32x1x2048.ReducesTo [0] S1x2048
  shapeCasts_S1x2048_S2048 : S1x2048.ShapeCasts S2048
  gather_S16384x64_S2048x1_S2048x64_1_0_n_n_0_1_164_wf : GatherDims.WF S16384x64 S2048x1 S2048x64 [1] [0] [] [0] [] 1 ![1, 64]
  gather_S16384x4096_S2048x1_S16384x2048_0_1_n_n_1_1_163841_wf : GatherDims.WF S16384x4096 S2048x1 S16384x2048 [0] [1] [] [1] [] 1 ![16384, 1]
  dot_S512x64_S2048x64_S512x2048_1_1_0_0_n_n_wf : DotDims.WF S512x64 S2048x64 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S16384x64.size a
  hwx0_2 : ∀ i : grid0.Coords, EltTy.bits .f32 = 32 ∨ (Rect.block (s := S16384x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .i32 = 32 ∨ (Rect.block (s := S1x2048) S1x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S32x1x2048.size a
  hwx0_6 : ∀ i : grid0.Coords, EltTy.bits .f32 = 32 ∨ (Rect.block (s := S32x1x2048) S1x1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S32x1x2048.size a
  hwx0_7 : ∀ i : grid0.Coords, EltTy.bits .f32 = 32 ∨ (Rect.block (s := S32x1x2048) S1x1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2048.size a ≤ S32x1x2048.size a
  hwx0_8 : ∀ i : grid0.Coords, EltTy.bits .f32 = 32 ∨ (Rect.block (s := S32x1x2048) S1x1x2048.size (cc0_transform_8 i) (hinb0_8 i)).WholeWords (EltTy.packing .f32)

variable [Facts₀]

def gather_S16384x64_S2048x1_S2048x64_1_0_n_n_0_1_164 : GatherDims S16384x64 S2048x1 S2048x64 where
  offsetDims := [1]
  collapsedSliceDims := [0]
  operandBatchingDims := []
  startIndicesBatchingDims := []
  startIndexMap := [0]
  indexVectorDim := 1
  sliceSizes := ![1, 64]
  wf := gather_S16384x64_S2048x1_S2048x64_1_0_n_n_0_1_164_wf
def gather_S16384x4096_S2048x1_S16384x2048_0_1_n_n_1_1_163841 : GatherDims S16384x4096 S2048x1 S16384x2048 where
  offsetDims := [0]
  collapsedSliceDims := [1]
  operandBatchingDims := []
  startIndicesBatchingDims := []
  startIndexMap := [1]
  indexVectorDim := 1
  sliceSizes := ![16384, 1]
  wf := gather_S16384x4096_S2048x1_S16384x2048_0_1_n_n_1_1_163841_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S1x1x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S1x1x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_2) S1x1x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384x64 : Shape := ⟨2, ![16384, 64]⟩
abbrev S2048 : Shape := ⟨1, ![2048]⟩
abbrev S_ : Shape := ⟨0, ![]⟩
abbrev S16384 : Shape := ⟨1, ![16384]⟩
abbrev S2048x1 : Shape := ⟨2, ![2048, 1]⟩
abbrev S2048x64 : Shape := ⟨2, ![2048, 64]⟩
abbrev S2048x16384 : Shape := ⟨2, ![2048, 16384]⟩
abbrev S1x16384 : Shape := ⟨2, ![1, 16384]⟩
abbrev S16384x2048 : Shape := ⟨2, ![16384, 2048]⟩

abbrev nBuf : Space → Nat
  | .hbm => 112
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x64, .f32⟩
  | .hbm, ⟨2, _⟩ => ⟨S2048, .i32⟩
  | .hbm, ⟨3, _⟩ => ⟨S2048, .i32⟩
  | .hbm, ⟨4, _⟩ => ⟨S16384x4096, .i1⟩
  | .hbm, ⟨5, _⟩ => ⟨S16384x4096, .i1⟩
  | .hbm, ⟨6, _⟩ => ⟨S_, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .i32⟩
  | .hbm, ⟨11, _⟩ => ⟨S_, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .f32⟩
  | .hbm, ⟨17, _⟩ => ⟨S16384, .f32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S2048x64, .f32⟩
  | .hbm, ⟨36, _⟩ => ⟨S2048x16384, .f32⟩
  | .hbm, ⟨37, _⟩ => ⟨S2048x64, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1, .f32⟩
  | .hbm, ⟨42, _⟩ => ⟨S16384x64, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S1x16384, .f32⟩
  | .hbm, ⟨47, _⟩ => ⟨S2048x16384, .f32⟩
  | .hbm, ⟨48, _⟩ => ⟨S2048x16384, .f32⟩
  | .hbm, ⟨49, _⟩ => ⟨S2048x16384, .f32⟩
  | .hbm, ⟨50, _⟩ => ⟨S_, .f32⟩
  | .hbm, ⟨51, _⟩ => ⟨S2048x16384, .f32⟩
  | .hbm, ⟨52, _⟩ => ⟨S2048x16384, .f32⟩
  | .hbm, ⟨53, _⟩ => ⟨S2048x16384, .f32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048x1, .i32⟩
  | .hbm, ⟨62, _⟩ => ⟨S16384x2048, .f32⟩
  | .hbm, ⟨63, _⟩ => ⟨S2048x16384, .f32⟩
  | .hbm, ⟨64, _⟩ => ⟨S2048x16384, .i1⟩
  | .hbm, ⟨65, _⟩ => ⟨S2048x16384, .i1⟩
  | .hbm, ⟨66, _⟩ => ⟨S16384, .i32⟩
  | .hbm, ⟨67, _⟩ => ⟨S1x16384, .i32⟩
  | .hbm, ⟨68, _⟩ => ⟨S2048x1, .i32⟩
  | .hbm, ⟨69, _⟩ => ⟨S2048x16384, .i32⟩
  | .hbm, ⟨70, _⟩ => ⟨S2048x16384, .i32⟩
  | .hbm, ⟨71, _⟩ => ⟨S2048x16384, .i1⟩
  | .hbm, ⟨72, _⟩ => ⟨S2048x16384, .i1⟩
  | .hbm, ⟨73, _⟩ => ⟨S1x16384, .f32⟩
  | .hbm, ⟨74, _⟩ => ⟨S2048x16384, .f32⟩
  | .hbm, ⟨75, _⟩ => ⟨S2048x16384, .f32⟩
  | .hbm, ⟨76, _⟩ => ⟨S_, .f32⟩
  | .hbm, ⟨77, _⟩ => ⟨S_, .f32⟩
  | .hbm, ⟨78, _⟩ => ⟨S2048x16384, .f32⟩
  | .hbm, ⟨79, _⟩ => ⟨S2048x16384, .f32⟩
  | .hbm, ⟨80, _⟩ => ⟨S_, .f32⟩
  | .hbm, ⟨81, _⟩ => ⟨S_, .f32⟩
  | .hbm, ⟨82, _⟩ => ⟨S2048x16384, .f32⟩
  | .hbm, ⟨83, _⟩ => ⟨S2048x16384, .f32⟩
  | .hbm, ⟨84, _⟩ => ⟨S2048x16384, .f32⟩
  | .hbm, ⟨85, _⟩ => ⟨S_, .f32⟩
  | .hbm, ⟨86, _⟩ => ⟨S2048, .f32⟩
  | .hbm, ⟨87, _⟩ => ⟨S2048x16384, .f32⟩
  | .hbm, ⟨88, _⟩ => ⟨S_, .f32⟩
  | .hbm, ⟨89, _⟩ => ⟨S2048, .f32⟩
  | .hbm, ⟨90, _⟩ => ⟨S_, .f32⟩
  | .hbm, ⟨91, _⟩ => ⟨S2048, .f32⟩
  | .hbm, ⟨92, _⟩ => ⟨S2048, .i1⟩
  | .hbm, ⟨93, _⟩ => ⟨S_, .f32⟩
  | .hbm, ⟨94, _⟩ => ⟨S_, .f32⟩
  | .hbm, ⟨95, _⟩ => ⟨S2048, .f32⟩
  | .hbm, ⟨96, _⟩ => ⟨S2048, .f32⟩
  | .hbm, ⟨97, _⟩ => ⟨S_, .i32⟩
  | .hbm, ⟨98, _⟩ => ⟨S2048, .i32⟩
  | .hbm, ⟨99, _⟩ => ⟨S2048, .i1⟩
  | .hbm, ⟨100, _⟩ => ⟨S_, .i32⟩
  | .hbm, ⟨101, _⟩ => ⟨S2048, .i32⟩
  | .hbm, ⟨102, _⟩ => ⟨S2048, .i32⟩
  | .hbm, ⟨103, _⟩ => ⟨S2048, .i32⟩
  | .hbm, ⟨104, _⟩ => ⟨S2048x1, .i32⟩
  | .hbm, ⟨105, _⟩ => ⟨S2048, .f32⟩
  | .hbm, ⟨106, _⟩ => ⟨S_, .f32⟩
  | .hbm, ⟨107, _⟩ => ⟨S2048, .f32⟩
  | .hbm, ⟨108, _⟩ => ⟨S2048, .i1⟩
  | .hbm, ⟨109, _⟩ => ⟨S2048, .f32⟩
  | .hbm, ⟨110, _⟩ => ⟨S2048, .f32⟩
  | .hbm, ⟨111, _⟩ => ⟨S2048, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call2_v0 : Ref sig .tc := ⟨.hbm, 37, rfl⟩
abbrev main_call2_cst : Ref sig .tc := ⟨.hbm, 38, rfl⟩
abbrev main_call2_v1 : Ref sig .tc := ⟨.hbm, 39, rfl⟩
abbrev main_call2_v2 : Ref sig .tc := ⟨.hbm, 40, rfl⟩
abbrev main_v21 : Ref sig .tc := ⟨.hbm, 41, rfl⟩
abbrev main_call3_v0 : Ref sig .tc := ⟨.hbm, 42, rfl⟩
abbrev main_call3_cst : Ref sig .tc := ⟨.hbm, 43, rfl⟩
abbrev main_call3_v1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_call4_v0 : Ref sig .tc := ⟨.hbm, 77, rfl⟩
abbrev main_call4_v1 : Ref sig .tc := ⟨.hbm, 78, rfl⟩
abbrev main_v50 : Ref sig .tc := ⟨.hbm, 79, rfl⟩
abbrev main_cst_10 : Ref sig .tc := ⟨.hbm, 80, rfl⟩
abbrev main_call5_v0 : Ref sig .tc := ⟨.hbm, 81, rfl⟩
abbrev main_call5_v1 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_call6_v0 : Ref sig .tc := ⟨.hbm, 94, rfl⟩
abbrev main_call6_v1 : Ref sig .tc := ⟨.hbm, 95, rfl⟩
abbrev main_v58 : Ref sig .tc := ⟨.hbm, 96, rfl⟩
abbrev main_c_15 : Ref sig .tc := ⟨.hbm, 97, rfl⟩
abbrev main_v59 : Ref sig .tc := ⟨.hbm, 98, rfl⟩
abbrev main_v60 : Ref sig .tc := ⟨.hbm, 99, rfl⟩
abbrev main_c_16 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_17 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  natLt_1_32 : 1 < 32
  reducesTo_S16384x4096_S16384_d1 : S16384x4096.ReducesTo [1] S16384
  h_S_ : 0 < S_.numel
  bcast_S_S16384 : S_.BroadcastsInDim S16384 (![] : Fin 0 → Fin S16384.rank)
  bcast_S_S2048 : S_.BroadcastsInDim S2048 (![] : Fin 0 → Fin S2048.rank)
  bcast_S2048_S2048x1_0 : S2048.BroadcastsInDim S2048x1 (![0] : Fin 1 → Fin S2048x1.rank)
  reducesTo_S2048x64_S2048_d1 : S2048x64.ReducesTo [1] S2048
  reducesTo_S16384x64_S16384_d1 : S16384x64.ReducesTo [1] S16384
  bcast_S16384_S1x16384_1 : S16384.BroadcastsInDim S1x16384 (![1] : Fin 1 → Fin S1x16384.rank)
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  bcast_S_S2048x16384 : S_.BroadcastsInDim S2048x16384 (![] : Fin 0 → Fin S2048x16384.rank)
  transposes_S16384x2048_S2048x16384_1_0 : S16384x2048.Transposes [1, 0] S2048x16384
  reducesTo_S2048x16384_S2048_d1 : S2048x16384.ReducesTo [1] S2048
  gather_S16384x64_S2048x1_S2048x64_1_0_n_n_0_1_164_wf : GatherDims.WF S16384x64 S2048x1 S2048x64 [1] [0] [] [0] [] 1 ![1, 64]
  dot_S2048x64_S16384x64_S2048x16384_1_1_0_0_n_n_wf : DotDims.WF S2048x64 S16384x64 S2048x16384 [1] [1] [0] [0] [] []
  gather_S16384x4096_S2048x1_S16384x2048_0_1_n_n_1_1_163841_wf : GatherDims.WF S16384x4096 S2048x1 S16384x2048 [0] [1] [] [1] [] 1 ![16384, 1]
  gather_S16384_S2048x1_S2048_n_0_n_n_0_1_1_wf : GatherDims.WF S16384 S2048x1 S2048 [] [0] [] [0] [] 1 ![1]

variable [Facts₀]

def gather_S16384x64_S2048x1_S2048x64_1_0_n_n_0_1_164 : GatherDims S16384x64 S2048x1 S2048x64 where
  offsetDims := [1]
  collapsedSliceDims := [0]
  operandBatchingDims := []
  startIndicesBatchingDims := []
  startIndexMap := [0]
  indexVectorDim := 1
  sliceSizes := ![1, 64]
  wf := gather_S16384x64_S2048x1_S2048x64_1_0_n_n_0_1_164_wf
def dot_S2048x64_S16384x64_S2048x16384_1_1_0_0_n_n : DotDims S2048x64 S16384x64 S2048x16384 where
  lhsContracting := [1]
  rhsContracting := [1]
  lhsNonContracting := [0]
  rhsNonContracting := [0]
  lhsBatch := []
  rhsBatch := []
  wf := dot_S2048x64_S16384x64_S2048x16384_1_1_0_0_n_n_wf
def gather_S16384x4096_S2048x1_S16384x2048_0_1_n_n_1_1_163841 : GatherDims S16384x4096 S2048x1 S16384x2048 where
  offsetDims := [0]
  collapsedSliceDims := [1]
  operandBatchingDims := []
  startIndicesBatchingDims := []
  startIndexMap := [1]
  indexVectorDim := 1
  sliceSizes := ![16384, 1]
  wf := gather_S16384x4096_S2048x1_S16384x2048_0_1_n_n_1_1_163841_wf
def gather_S16384_S2048x1_S2048_n_0_n_n_0_1_1 : GatherDims S16384 S2048x1 S2048 where
  offsetDims := []
  collapsedSliceDims := [0]
  operandBatchingDims := []
  startIndicesBatchingDims := []
  startIndexMap := [0]
  indexVectorDim := 1
  sliceSizes := ![1]
  wf := gather_S16384_S2048x1_S2048_n_0_n_n_0_1_1_wf

class Facts : Prop extends Facts₀ where

variable [Facts]
-- ==== Proof.KBlocks.lean ====
/-
  How the kernel's windows read their arrays. The grid has 32 points; at point t the first three windows (the ratings,
  the ratings at the queries' items, the embeddings) stage rows 512·t … 512·t + 511 of their arrays, all columns; the other
  three inputs (the query embeddings, the query norms, the queries' user words) are staged whole at every point. So entry
  (r, k) of a row tile at point t is entry (512·t + r, k) of the array, and a whole block is the array.
-/
import proofs.«412138_j37194416783750_3_alg».proof.Proof.FrameKI
import Idealize.ShloMosaic.Lib.Pipeline.Value
import Idealize.ShloMosaic.Lib.ValueIdx
import Idealize.ShloMosaic.PureOps.Ideal

noncomputable section

namespace Cert.CFK

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ) (c : Dev nD)

/-- The printed index maps over the 32 grid points: a row tile's block index is (t, 0); a whole block's is (0, 0); each
    output's block is (t, 0, 0); and the grid coordinate the body reads is t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0
    ∧ ((grid0.coords t) 0).val = t.val :=
  (by decide +kernel : ∀ t : Fin grid0.N, _)

/-- Row r of the tile at point t is user 512·t + r. -/
abbrev rowOf (t : Fin cfg0.N) (r : Fin 512) : Fin 16384 :=
  ⟨512 * t.val + r.val, by have := t.isLt; have : cfg0.N = 32 := N_0; omega⟩

theorem blk0_apply (t : Fin cfg0.N) (r : Fin 512) (k : Fin 4096) :
    iblk m c 0 t (ix2 r k) = V m c main_arg0 (ix2 (rowOf t r) k) := by
  unfold iblk
  rw [View.read_apply]
  show V m c main_arg0 (((cfg0.win 0).blk t).view.emb (ix2 r k)) = V m c main_arg0 (ix2 (rowOf t r) k)
  congr 1
  funext a; apply Fin.ext
  obtain ⟨e0, e1, -⟩ := idx_facts t
  match a with
  | ⟨0, _⟩ => show win0_0.index t (0 : Fin 2) * 512 + 1 * r.val = 512 * t.val + r.val; omega
  | ⟨1, _⟩ => show win0_0.index t (1 : Fin 2) * 4096 + 1 * k.val = k.val; omega

theorem blk1_apply (t : Fin cfg0.N) (r : Fin 512) (b : Fin 2048) :
    iblk m c 1 t (ix2 r b) = V m c main_v12 (ix2 (rowOf t r) b) := by
  unfold iblk
  rw [View.read_apply]
  show V m c main_v12 (((cfg0.win 1).blk t).view.emb (ix2 r b)) = V m c main_v12 (ix2 (rowOf t r) b)
  congr 1
  funext a; apply Fin.ext
  obtain ⟨-, -, e0, e1, -⟩ := idx_facts t
  match a with
  | ⟨0, _⟩ => show win0_1.index t (0 : Fin 2) * 512 + 1 * r.val = 512 * t.val + r.val; omega
  | ⟨1, _⟩ => show win0_1.index t (1 : Fin 2) * 2048 + 1 * b.val = b.val; omega

theorem blk2_apply (t : Fin cfg0.N) (r : Fin 512) (d : Fin 64) :
    iblk m c 2 t (ix2 r d) = V m c main_arg1 (ix2 (rowOf t r) d) := by
  unfold iblk
  rw [View.read_apply]
  show V m c main_arg1 (((cfg0.win 2).blk t).view.emb (ix2 r d)) = V m c main_arg1 (ix2 (rowOf t r) d)
  congr 1
  funext a; apply Fin.ext
  obtain ⟨-, -, -, -, e0, e1, -⟩ := idx_facts t
  match a with
  | ⟨0, _⟩ => show win0_2.index t (0 : Fin 2) * 512 + 1 * r.val = 512 * t.val + r.val; omega
  | ⟨1, _⟩ => show win0_2.index t (1 : Fin 2) * 64 + 1 * d.val = d.val; omega

theorem blk3_apply (t : Fin cfg0.N) (b : Fin 2048) (d : Fin 64) :
    iblk m c 3 t (ix2 b d) = V m c main_v6 (ix2 b d) := by
  unfold iblk
  rw [View.read_apply]
  show V m c main_v6 (((cfg0.win 3).blk t).view.emb (ix2 b d)) = V m c main_v6 (ix2 b d)
  congr 1
  funext a; apply Fin.ext
  obtain ⟨-, -, -, -, -, -, e0, e1, -⟩ := idx_facts t
  match a with
  | ⟨0, _⟩ => show win0_3.index t (0 : Fin 2) * 2048 + 1 * b.val = b.val; omega
  | ⟨1, _⟩ => show win0_3.index t (1 : Fin 2) * 64 + 1 * d.val = d.val; omega

theorem blk4_apply (t : Fin cfg0.N) (b : Fin 2048) :
    iblk m c 4 t (ix2 0 b) = V m c main_v10 (ix2 0 b) := by
  unfold iblk
  rw [View.read_apply]
  show V m c main_v10 (((cfg0.win 4).blk t).view.emb (ix2 0 b)) = V m c main_v10 (ix2 0 b)
  congr 1
  funext a; apply Fin.ext
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 2048 + 1 * b.val = b.val; omega

theorem blk5_apply (t : Fin cfg0.N) (b : Fin 2048) :
    iblk m c 5 t (ix2 0 b) = V m c main_v11 (ix2 0 b) := by
  unfold iblk
  rw [View.read_apply]
  show V m c main_v11 (((cfg0.win 5).blk t).view.emb (ix2 0 b)) = V m c main_v11 (ix2 0 b)
  congr 1
  funext a; apply Fin.ext
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 2048 + 1 * b.val = b.val; omega

end Cert.CFK

end
-- ==== Proof.KAvg.lean ====
/-
  The per-row average of a tile of ratings, read off the kernel body's payload terms at the ideal
  values (floats as extended reals, every operation exact).

  The tile is [512, 4096]; the body reads it in eight [512, 512] chunks (columns 512·c … 512·c + 511).
  For each chunk it adds to a COUNT column the lane sum of the "valid" mask widened to f32, and to a
  TOTAL column the lane sum of the chunk with the invalid entries replaced by zero; the result column
  is  total / max count 1  where the count is positive, and 0 elsewhere.

  On the extended reals no value differs from itself, so the mask "x = x" is all ones: every
  term of a count's lane sum is 1, each chunk adds 512 to the count, and the count is 8 · 512 = 4096 at
  every row. The masked chunk is the chunk. Hence at row r the result is

      (∑ over the 4096 columns k of the tile at (r, k)) / 4096.

  avg_chunks  states this over the eight chunks as separate blocks (eight sums of 512 terms);
  avg_tile    states it over the tile, the chunks being its loads through the eight unit-stride
              rectangles at column offsets 0, 512, …, 3584 (one sum of 4096 terms: the 4096 columns
              are the pairs (chunk, lane), and the sum over pairs is the sum of the eight lane sums).
-/
import proofs.«412138_j37194416783750_3_alg».proof.Proof.Gen.KernelIdeal.Skeleton
import Idealize.ShloMosaic.Lib.ValueIdx
import Idealize.ShloMosaic.Lib.Pipeline.Value
import Idealize.ShloMosaic.Lib.Pipeline.FrameBody
import Idealize.ShloMosaic.PureOps.Ideal.Laws
import Idealize.ShloMosaic.PureOps.IdealRules
import Mathlib.Algebra.BigOperators.Fin
import Mathlib.Data.EReal.Basic
import Mathlib.Logic.Equiv.Fin.Basic

noncomputable section

open scoped BigOperators

namespace Cert.CFK

open Idealize.ShloMosaic Idealize.ShloMosaic.ValueIdx Cert.KernelIdeal Cert.KernelIdeal.Gen

/-! ## The pieces of one chunk's contribution -/

/-- No extended real differs from itself, so the mask "not (x ≠ x)" is the bit 1 at every entry. -/
theorem valid_apply (x : FVec Ideal S512x512 .f32) (i : S512x512.Idx) :
    xori (cmpf .one x x) (constantI S512x512 1 1#1) i = 1#1 := by
  show IntOp.xori (Ideal.cmp .one (x i) (x i)) 1#1 = 1#1
  have h : Ideal.cmp .one (x i) (x i) = 0#1 := by simp [Ideal.cmp]
  rw [h]; rfl

/-- The bit 1 widened to 32 bits and read as a signed integer is the number 1. -/
theorem one_widened : FloatOps.sitofp (F := Ideal) .f32 ((1#1 : BitVec 1).setWidth 32) = 1 := by
  show (((((1#1 : BitVec 1).setWidth 32).toInt : ℤ) : ℝ) : EReal) = 1
  have h : ((1#1 : BitVec 1).setWidth 32).toInt = 1 := by decide
  rw [h]; simp

/-- The keepdims cast of a [512] vector to a [512, 1] column reads, at (r, 0), the vector at r. -/
theorem column_apply {α : Type} (v : S512.Idx → α) (h : S512.ShapeCasts S512x1) (r : Fin 512) :
    shapeCast S512x1 v h (ix2 r (0 : Fin 1)) = v (ix1 r) :=
  shapeCast_apply v h _ _ (by
    rw [Shape.rowMajor_val_two, Shape.rowMajor_val_one]
    show r.val = r.val * 1 + 0
    omega)

/-- A lane sum of a [512, 512] block, at row r, is the sum of the row's 512 entries. -/
theorem laneSum_apply (v : FVec Ideal S512x512 .f32) (h : S512x512.Reduces [1] S512) (hφ : FKind.Formats .f32)
    (hacc : (0x00000000#32 : BitVec 32) = FKind.add.neutral .f32 hφ) (r : Fin 512) :
    multiReduction .add [1] S512 v 0x00000000#32 h hφ hacc (ix1 r) = ∑ j : Fin 512, v (ix2 r j) := by
  refine (Ideal.multiReduction_add_single v _ h hφ hacc (ix1 r)).trans ?_
  refine Finset.sum_congr rfl fun j _ => congrArg v ?_
  funext a
  match a with
  | ⟨0, _⟩ => exact Fin.ext rfl
  | ⟨1, _⟩ => exact Fin.ext rfl

/-- A sum of 512 ones is 512. -/
theorem sum_ones : (∑ _j : Fin 512, (1 : EReal)) = 512 := by
  simp

/-! ## One chunk's contribution to the count and to the total -/

/-- A chunk's "valid" mask, as the body computes it. -/
def valid (x : FVec Ideal S512x512 .f32) : IVec S512x512 1 :=
  xori (cmpf .one x x) (constantI S512x512 1 1#1)

/-- A chunk's addend to the count: the lane sum of its mask widened to f32, as a column. -/
def countCol (x : FVec Ideal S512x512 .f32) : FVec Ideal S512x1 .f32 :=
  shapeCast S512x1
    (multiReduction (F := Ideal) .add [1] S512 (sitofp .f32 (extui 32 (valid x) natLt_1_32)) 0x00000000#32
      reduces_S512x512_S512 (.inl rfl) rfl) shapeCasts_S512_S512x1

/-- A chunk's addend to the total: the lane sum of the chunk with zero where the mask is clear. -/
def totalVec (x : FVec Ideal S512x512 .f32) : FVec Ideal S512 .f32 :=
  multiReduction (F := Ideal) .add [1] S512
    (select (valid x) x (broadcast S512x512 (Scalar.ofBits (F := Ideal) .f32 0x00000000#32))) 0x00000000#32
    reduces_S512x512_S512 (.inl rfl) rfl

/-- The same as a column. -/
def totalCol (x : FVec Ideal S512x512 .f32) : FVec Ideal S512x1 .f32 :=
  shapeCast S512x1 (totalVec x) shapeCasts_S512_S512x1

/-- Every term of a count's lane sum is 1, so a chunk adds 512 to the count at every row. -/
theorem countCol_apply (x : FVec Ideal S512x512 .f32) (r : Fin 512) : countCol x (ix2 r 0) = 512 := by
  unfold countCol
  refine (column_apply _ _ r).trans ?_
  refine (laneSum_apply _ _ _ _ r).trans ?_
  refine (Finset.sum_congr rfl fun j _ => ?_).trans sum_ones
  show FloatOps.sitofp (F := Ideal) .f32 ((valid x (ix2 r j)).setWidth 32) = 1
  rw [show valid x (ix2 r j) = 1#1 from valid_apply x _]
  exact one_widened

/-- The masked chunk is the chunk, so a chunk adds its row sum to the total. -/
theorem totalVec_apply (x : FVec Ideal S512x512 .f32) (r : Fin 512) :
    totalVec x (ix1 r) = ∑ j : Fin 512, x (ix2 r j) := by
  unfold totalVec
  refine (laneSum_apply _ _ _ _ r).trans ?_
  refine Finset.sum_congr rfl fun j _ => ?_
  show Scalar.select (valid x (ix2 r j)) (x (ix2 r j)) _ = x (ix2 r j)
  rw [show valid x (ix2 r j) = 1#1 from valid_apply x _]
  exact select_one _ _

theorem totalCol_apply (x : FVec Ideal S512x512 .f32) (r : Fin 512) :
    totalCol x (ix2 r 0) = ∑ j : Fin 512, x (ix2 r j) :=
  (column_apply _ _ r).trans (totalVec_apply x r)

/-! ## The payloads at a row -/

/-- The f32 zero word, as the body's scalar constant, is 0. -/
theorem zero_word : Scalar.ofBits (F := Ideal) .f32 0x00000000#32 = 0 := Ideal.ofBits_zero_f32

/-- The total after the first two chunks. -/
theorem pay6_apply (c0 c1 : Vec Ideal S512x512 .f32) (r : Fin 512) :
    k0_pay6 (F := Ideal) c0 c1 (ix2 r 0) = (∑ j : Fin 512, c0 (ix2 r j)) + ∑ j : Fin 512, c1 (ix2 r j) := by
  show (Scalar.ofBits (F := Ideal) .f32 0x00000000#32 + totalCol c0 (ix2 r 0)) + totalCol c1 (ix2 r 0) = _
  rw [zero_word, zero_add, totalCol_apply, totalCol_apply]

/-- The third chunk's addend to the total. -/
theorem pay9_apply (c2 : Vec Ideal S512x512 .f32) (r : Fin 512) :
    k0_pay9 (F := Ideal) c2 (ix1 r) = ∑ j : Fin 512, c2 (ix2 r j) :=
  totalVec_apply c2 r

/-- The count after the first three chunks. -/
theorem pay8_apply (c0 c1 c2 : Vec Ideal S512x512 .f32) (r : Fin 512) :
    k0_pay8 (F := Ideal) c0 c1 c2 (ix2 r 0) = 512 + 512 + 512 := by
  show ((Scalar.ofBits (F := Ideal) .f32 0x00000000#32 + countCol c0 (ix2 r 0)) + countCol c1 (ix2 r 0))
      + countCol c2 (ix2 r 0) = _
  rw [zero_word, zero_add, countCol_apply, countCol_apply, countCol_apply]

/-- The count after the next three chunks. -/
theorem pay13_apply (n : FVec Ideal S512x1 .f32) (c3 c4 c5 : Vec Ideal S512x512 .f32) (r : Fin 512) :
    k0_pay13 (F := Ideal) n c3 c4 c5 (ix2 r 0) = n (ix2 r 0) + 512 + 512 + 512 := by
  show ((n (ix2 r 0) + countCol c3 (ix2 r 0)) + countCol c4 (ix2 r 0)) + countCol c5 (ix2 r 0) = _
  rw [countCol_apply, countCol_apply, countCol_apply]

/-- The total after the next three chunks (the third chunk's addend arriving as a vector). -/
theorem pay14_apply (t : FVec Ideal S512x1 .f32) (u : FVec Ideal S512 .f32) (c3 c4 c5 : Vec Ideal S512x512 .f32)
    (r : Fin 512) :
    k0_pay14 (F := Ideal) t u c3 c4 c5 (ix2 r 0)
      = t (ix2 r 0) + u (ix1 r) + (∑ j : Fin 512, c3 (ix2 r j)) + (∑ j : Fin 512, c4 (ix2 r j))
          + ∑ j : Fin 512, c5 (ix2 r j) := by
  show (((t (ix2 r 0) + shapeCast S512x1 u shapeCasts_S512_S512x1 (ix2 r 0)) + totalCol c3 (ix2 r 0))
      + totalCol c4 (ix2 r 0)) + totalCol c5 (ix2 r 0) = _
  rw [column_apply, totalCol_apply, totalCol_apply, totalCol_apply]

/-- The f32 word of 1.0, as the body's scalar constant, is 1. -/
theorem one_word : Scalar.ofBits (F := Ideal) .f32 0x3F800000#32 = 1 := IdealRules.sign_bit.ideal_onePat .f32

/-- The result column from the count and total after six chunks and the last two chunks. -/
theorem pay15_apply (n t : FVec Ideal S512x1 .f32) (c6 c7 : Vec Ideal S512x512 .f32) (r : Fin 512) :
    k0_pay15 (F := Ideal) n t c6 c7 (ix2 r 0)
      = Scalar.select (Ideal.cmp .ogt (n (ix2 r 0) + 512 + 512) 0)
          (Ideal.div (t (ix2 r 0) + (∑ j : Fin 512, c6 (ix2 r j)) + ∑ j : Fin 512, c7 (ix2 r j))
            (max (n (ix2 r 0) + 512 + 512) 1)) 0 := by
  show Scalar.select
      (Ideal.cmp .ogt ((n (ix2 r 0) + countCol c6 (ix2 r 0)) + countCol c7 (ix2 r 0))
        (Scalar.ofBits (F := Ideal) .f32 0x00000000#32))
      (Ideal.div ((t (ix2 r 0) + totalCol c6 (ix2 r 0)) + totalCol c7 (ix2 r 0))
        (max ((n (ix2 r 0) + countCol c6 (ix2 r 0)) + countCol c7 (ix2 r 0))
          (Scalar.ofBits (F := Ideal) .f32 0x3F800000#32)))
      (Scalar.ofBits (F := Ideal) .f32 0x00000000#32) = _
  rw [zero_word, one_word, countCol_apply, countCol_apply, totalCol_apply, totalCol_apply]

/-! ## The count is 4096 -/

/-- The numeral 4096 on the extended reals is the real 4096. -/
theorem coe_4096 : (4096 : EReal) = ((4096 : ℝ) : EReal) := rfl

/-- Eight chunks of 512 lanes. -/
theorem eight_chunks : (512 + 512 + 512 + 512 + 512 + 512 + 512 + 512 : EReal) = 4096 := by norm_num

/-- The count is positive … -/
theorem count_pos : Ideal.cmp .ogt (4096 : EReal) 0 = 1#1 := by
  have h : (0 : EReal) < 4096 := by rw [coe_4096]; exact EReal.coe_pos.mpr (by norm_num)
  simp [Ideal.cmp, h]

/-- … and at least 1. -/
theorem count_max : max (4096 : EReal) 1 = 4096 := by
  refine max_eq_left ?_
  rw [coe_4096, ← EReal.coe_one]
  exact EReal.coe_le_coe_iff.mpr (by norm_num)

/-! ## The average over the eight chunks -/

/-- Over the eight chunks as separate blocks: at row r the result is the sum of the eight row sums over 4096. -/
theorem avg_chunks (c0 c1 c2 c3 c4 c5 c6 c7 : Vec Ideal S512x512 .f32) (r : Fin 512) :
    k0_pay15 (F := Ideal) (k0_pay13 (k0_pay8 c0 c1 c2) c3 c4 c5) (k0_pay14 (k0_pay6 c0 c1) (k0_pay9 c2) c3 c4 c5) c6 c7 (ix2 r 0)
      = Ideal.div ((∑ j : Fin 512, c0 (ix2 r j)) + (∑ j : Fin 512, c1 (ix2 r j)) + (∑ j : Fin 512, c2 (ix2 r j)) + (∑ j : Fin 512, c3 (ix2 r j))
          + (∑ j : Fin 512, c4 (ix2 r j)) + (∑ j : Fin 512, c5 (ix2 r j)) + (∑ j : Fin 512, c6 (ix2 r j)) + (∑ j : Fin 512, c7 (ix2 r j))) 4096 := by
  rw [pay15_apply, pay13_apply, pay8_apply, pay14_apply, pay6_apply, pay9_apply, eight_chunks, count_pos, count_max,
    select_one]

/-! ## The chunks as loads of the tile -/

/-- A chunk loaded through the unit-stride rectangle at column offset o reads, at (r, j), the tile at (r, o + j). -/
theorem chunk_apply (x0 : Vec Ideal S512x4096 .f32) (o : ℕ) (ho : o + 512 ≤ 4096)
    (inb : ∀ a, (![0, o] : Fin 2 → Nat) a + S512x512.size a ≤ S512x4096.size a) (r j : Fin 512) :
    View.ld x0 (Rect.unit (s := S512x4096) ![0, o] S512x512.size inb) (ix2 r j)
      = x0 (ix2 r (⟨o + j.val, by have := j.isLt; omega⟩ : Fin 4096)) := by
  refine congrArg x0 (funext fun a => Fin.ext ?_)
  match a with
  | ⟨0, _⟩ => show 0 + 1 * r.val = r.val; omega
  | ⟨1, _⟩ => show o + 1 * j.val = o + j.val; omega

/-- So its row sum is the sum of the tile's row over the chunk's 512 columns. -/
theorem chunk_sum (x0 : Vec Ideal S512x4096 .f32) (o : ℕ) (ho : o + 512 ≤ 4096)
    (inb : ∀ a, (![0, o] : Fin 2 → Nat) a + S512x512.size a ≤ S512x4096.size a) (r : Fin 512) :
    (∑ j : Fin 512, View.ld x0 (Rect.unit (s := S512x4096) ![0, o] S512x512.size inb) (ix2 r j))
      = ∑ j : Fin 512, x0 (ix2 r (⟨o + j.val, by have := j.isLt; omega⟩ : Fin 4096)) :=
  Finset.sum_congr rfl fun j _ => chunk_apply x0 o ho inb r j

/-! ## 4096 columns are 8 chunks of 512 lanes -/

/-- A sum over 4096 columns is the sum over the pairs (chunk, lane), column 512 · chunk + lane. -/
theorem sum_pairs {M : Type*} [AddCommMonoid M] (f : Fin 4096 → M) :
    ∑ k : Fin 4096, f k
      = ∑ c : Fin 8, ∑ j : Fin 512, f ⟨512 * c.val + j.val, by have := c.isLt; have := j.isLt; omega⟩ := by
  rw [← Equiv.sum_comp (finProdFinEquiv : Fin 8 × Fin 512 ≃ Fin 4096) f, Fintype.sum_prod_type]
  refine Finset.sum_congr rfl fun c _ => Finset.sum_congr rfl fun j _ => congrArg f (Fin.ext ?_)
  show j.val + 512 * c.val = 512 * c.val + j.val
  omega

/-- Written out over the eight chunks' column offsets. -/
theorem sum_chunks {M : Type*} [AddCommMonoid M] (f : Fin 4096 → M) :
    ∑ k : Fin 4096, f k
      = (∑ j : Fin 512, f ⟨0 + j.val, by have := j.isLt; omega⟩) + (∑ j : Fin 512, f ⟨512 + j.val, by have := j.isLt; omega⟩)
        + (∑ j : Fin 512, f ⟨1024 + j.val, by have := j.isLt; omega⟩) + (∑ j : Fin 512, f ⟨1536 + j.val, by have := j.isLt; omega⟩)
        + (∑ j : Fin 512, f ⟨2048 + j.val, by have := j.isLt; omega⟩) + (∑ j : Fin 512, f ⟨2560 + j.val, by have := j.isLt; omega⟩)
        + (∑ j : Fin 512, f ⟨3072 + j.val, by have := j.isLt; omega⟩) + (∑ j : Fin 512, f ⟨3584 + j.val, by have := j.isLt; omega⟩) := by
  rw [sum_pairs, Fin.sum_univ_eight]
  rfl

/-- Eight equal addends, left to right. -/
theorem add_eight {M : Type*} [Add M] {a0 a1 a2 a3 a4 a5 a6 a7 b0 b1 b2 b3 b4 b5 b6 b7 : M}
    (h0 : a0 = b0) (h1 : a1 = b1) (h2 : a2 = b2) (h3 : a3 = b3) (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

/-! ## The average over the tile -/

/-- Over the tile, the chunks being its loads through the eight rectangles: at row r the result is the row's sum
    over the 4096 columns, over 4096. -/
theorem avg_tile (x0 : Vec Ideal S512x4096 .f32) (r : Fin 512) :
    k0_pay15 (F := Ideal)
      (k0_pay13 (k0_pay8 (View.ld x0 (Rect.unit (s := S512x4096) ![0, 0] S512x512.size inb_S512x4096_S512x512_0_0)) (View.ld x0 (Rect.unit (s := S512x4096) ![0, 512] S512x512.size inb_S512x4096_S512x512_0_512)) (View.ld x0 (Rect.unit (s := S512x4096) ![0, 1024] S512x512.size inb_S512x4096_S512x512_0_1024)))
        (View.ld x0 (Rect.unit (s := S512x4096) ![0, 1536] S512x512.size inb_S512x4096_S512x512_0_1536)) (View.ld x0 (Rect.unit (s := S512x4096) ![0, 2048] S512x512.size inb_S512x4096_S512x512_0_2048)) (View.ld x0 (Rect.unit (s := S512x4096) ![0, 2560] S512x512.size inb_S512x4096_S512x512_0_2560)))
      (k0_pay14 (k0_pay6 (View.ld x0 (Rect.unit (s := S512x4096) ![0, 0] S512x512.size inb_S512x4096_S512x512_0_0)) (View.ld x0 (Rect.unit (s := S512x4096) ![0, 512] S512x512.size inb_S512x4096_S512x512_0_512)))
        (k0_pay9 (View.ld x0 (Rect.unit (s := S512x4096) ![0, 1024] S512x512.size inb_S512x4096_S512x512_0_1024)))
        (View.ld x0 (Rect.unit (s := S512x4096) ![0, 1536] S512x512.size inb_S512x4096_S512x512_0_1536)) (View.ld x0 (Rect.unit (s := S512x4096) ![0, 2048] S512x512.size inb_S512x4096_S512x512_0_2048)) (View.ld x0 (Rect.unit (s := S512x4096) ![0, 2560] S512x512.size inb_S512x4096_S512x512_0_2560)))
      (View.ld x0 (Rect.unit (s := S512x4096) ![0, 3072] S512x512.size inb_S512x4096_S512x512_0_3072)) (View.ld x0 (Rect.unit (s := S512x4096) ![0, 3584] S512x512.size inb_S512x4096_S512x512_0_3584)) (ix2 r 0)
      = Ideal.div (∑ k : Fin 4096, x0 (ix2 r k)) 4096 := by
  refine (avg_chunks _ _ _ _ _ _ _ _ r).trans (congrArg (fun s => Ideal.div s 4096) ?_)
  exact (add_eight (chunk_sum x0 0 (by omega) _ r) (chunk_sum x0 512 (by omega) _ r) (chunk_sum x0 1024 (by omega) _ r)
    (chunk_sum x0 1536 (by omega) _ r) (chunk_sum x0 2048 (by omega) _ r) (chunk_sum x0 2560 (by omega) _ r)
    (chunk_sum x0 3072 (by omega) _ r) (chunk_sum x0 3584 (by omega) _ r)).trans
    (sum_chunks fun k : Fin 4096 => x0 (ix2 r k)).symm

end Cert.CFK

end
-- ==== Proof.KSim.lean ====
/-
  The three column sums that one tile of 512 users contributes to each of the 2048 queries, read on the extended reals.

  A tile holds 512 consecutive users. For the tile numbered a0, row r is the user whose number is the 32-bit word
  a0·512 + r, and it is query b's own user when that word equals the query's user word. For a row r and a query b the
  similarity is the inner product of the row's embedding with the query's, over the product of the two norms plus ε,
  where the query's norm is given and the row's is the square root of its sum of squares. On the extended reals every
  operation is exact, a change of float format is the identity and no value is a NaN, so the validity mask of the
  ratings is all ones and only the own-user test masks a term. Each of the three results is, at query b, a sum over
  the 512 rows:
    the numerator   ∑ r, (0 if own user, else rating − average r) · (0 if own user, else similarity r b),
    the denominator ∑ r, |0 if own user, else similarity r b|, with |a| = max a (−a),
    the own average ∑ r, (average r if own user, else 0).
  The per-row average is an arbitrary column here.

  The lemmas go from the inside out: the own-user bit and its complement at an index; the matrix product into a zero
  accumulator at an index, a sum over the 64 embedding coordinates; the squares; the masked similarity at an index;
  then the three sums over the tile's rows.
-/
import proofs.«412138_j37194416783750_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.CFK

open Idealize.ShloMosaic Idealize.ShloMosaic.ValueIdx Cert.KernelIdeal Cert.KernelIdeal.Gen

/-- Row r of the tile numbered a0 is query b's own user. -/
def selfT (a0 : BitVec 32) (x5 : Vec Ideal S1x2048 .i32) (r : Fin 512) (b : Fin 2048) : Prop :=
  Scalar.muli a0 512#32 + BitVec.ofNat 32 r.val = x5 (ix2 0 b)

instance (a0 : BitVec 32) (x5 : Vec Ideal S1x2048 .i32) (r : Fin 512) (b : Fin 2048) : Decidable (selfT a0 x5 r b) := by
  unfold selfT; infer_instance

/-- Cosine similarity of row r with query b; ε is the f32 word 0x322BCC77, left unevaluated. -/
def simT (x2 : Vec Ideal S512x64 .f32) (x3 : Vec Ideal S2048x64 .f32) (x4 : Vec Ideal S1x2048 .f32) (r : Fin 512) (b : Fin 2048) : EReal :=
  Ideal.div (∑ d : Fin 64, x2 (ix2 r d) * x3 (ix2 b d))
    (x4 (ix2 0 b) * Ideal.sqrt (∑ d : Fin 64, x2 (ix2 r d) * x2 (ix2 r d)) + Ideal.ofBits .f32 0x322BCC77#32)

/-! ## Layout operations at an index -/

/-- A column [512,1] broadcast to [512,2048] reads, at (r,b), the column at (r,0). -/
private theorem bcast_col {α : Type} (v : S512x1.Idx → α) (r : Fin 512) (b : Fin 2048) :
    broadcastTo S512x2048 v broadcasts_S512x1_S512x2048 (ix2 r b) = v (ix2 r 0) := by
  refine broadcastTo_apply v broadcasts_S512x1_S512x2048 (ix2 r b) (ix2 r 0) fun ax => ?_
  match ax with
  | ⟨0, _⟩ =>
    show r.val = if (512 : Nat) = 1 then 0 else r.val
    rw [if_neg (by decide)]
  | ⟨1, _⟩ =>
    show (0 : Nat) = if (1 : Nat) = 1 then 0 else b.val
    rw [if_pos rfl]

/-- A row [1,2048] broadcast to [512,2048] reads, at (r,b), the row at (0,b). -/
private theorem bcast_row {α : Type} (v : S1x2048.Idx → α) (r : Fin 512) (b : Fin 2048) :
    broadcastTo S512x2048 v broadcasts_S1x2048_S512x2048 (ix2 r b) = v (ix2 0 b) :=
  broadcastTo_1b_ab_apply v broadcasts_S1x2048_S512x2048 r b

/-- A vector [512] cast to a column [512,1] reads, at (r,0), the vector at r. -/
private theorem cast_col {α : Type} (v : S512.Idx → α) (r : Fin 512) :
    shapeCast S512x1 v shapeCasts_S512_S512x1 (ix2 r 0) = v (ix1 r) :=
  shapeCast_apply v shapeCasts_S512_S512x1 (ix2 r 0) (ix1 r) (by
    rw [Shape.rowMajor_val_two, Shape.rowMajor_val_one]
    show r.val = r.val * 1 + 0
    omega)

/-- A vector [2048] cast to a row [1,2048] reads, at (0,b), the vector at b. -/
private theorem cast_row {α : Type} (v : S2048.Idx → α) (b : Fin 2048) :
    shapeCast S1x2048 v shapeCasts_S2048_S1x2048 (ix2 0 b) = v (ix1 b) :=
  shapeCast_a_1a_apply v shapeCasts_S2048_S1x2048 0 b

/-- The sum over axis 0 of a [512,2048] vector reads, at b, the sum over the 512 rows of column b. -/
private theorem colsum (src : FVec Ideal S512x2048 .f32) (b : Fin 2048) :
    multiReduction (F := Ideal) .add [0] S2048 src 0x00000000#32 reduces_S512x2048_S2048 (.inl rfl) rfl (ix1 b)
      = ∑ r : Fin 512, src (ix2 r b) := by
  refine (Ideal.multiReduction_add_single src 0x00000000#32 reduces_S512x2048_S2048 (.inl rfl) rfl (ix1 b)).trans ?_
  refine Finset.sum_congr rfl fun r _ => congrArg src (funext fun a => Fin.ext ?_)
  match a with
  | ⟨0, _⟩ => rfl
  | ⟨1, _⟩ => rfl

/-- The sum over axis 1 of a [512,64] vector reads, at r, the sum over the 64 coordinates of row r. -/
private theorem rowsum (src : FVec Ideal S512x64 .f32) (r : Fin 512) :
    multiReduction (F := Ideal) .add [1] S512 src 0x00000000#32 reduces_S512x64_S512 (.inl rfl) rfl (ix1 r)
      = ∑ d : Fin 64, src (ix2 r d) := by
  refine (Ideal.multiReduction_add_single src 0x00000000#32 reduces_S512x64_S512 (.inl rfl) rfl (ix1 r)).trans ?_
  refine Finset.sum_congr rfl fun d _ => congrArg src (funext fun a => Fin.ext ?_)
  match a with
  | ⟨0, _⟩ => rfl
  | ⟨1, _⟩ => rfl

/-! ## Pointwise operations at an index -/

private theorem cmpi_apply {s : Shape} {w : Nat} (p : CmpIPredicate) (x y : IVec s w) (i : s.Idx) :
    cmpi p x y i = IntOp.cmpi p (x i) (y i) := rfl
private theorem addi_apply {s : Shape} {w : Nat} (x y : IVec s w) (i : s.Idx) : addi x y i = x i + y i := rfl
private theorem xori_apply {s : Shape} {w : Nat} (x y : IVec s w) (i : s.Idx) : xori x y i = x i ^^^ y i := rfl
private theorem andi_apply {s : Shape} {w : Nat} (x y : IVec s w) (i : s.Idx) : andi x y i = x i &&& y i := rfl
private theorem absf_apply {s : Shape} {φ : FTy} (a : FVec Ideal s φ) (i : s.Idx) : absf a i = max (a i) (-(a i)) := rfl
private theorem sqrt_apply {s : Shape} {φ : FTy} (a : FVec Ideal s φ) (i : s.Idx) : sqrt a i = Ideal.sqrt (a i) := rfl

/-- No extended real differs from itself. -/
private theorem cmp_one_self (x : EReal) : Ideal.cmp .one x x = 0#1 := by
  simp [Ideal.cmp]

/-! ## The own-user bit -/

/-- The ratings block cast to its own shape is itself. -/
private theorem pay19_eq (x1 : Vec Ideal S512x2048 .f32) : k0_pay19 (F := Ideal) x1 = x1 := by
  unfold k0_pay19
  exact shapeCast_self _ _

/-- The comparison bit at (r,b): the word of row r against query b's user word. -/
private theorem pay18_apply (a0 : BitVec 32) (x5 : Vec Ideal S1x2048 .i32) (r : Fin 512) (b : Fin 2048) :
    k0_pay18 (F := Ideal) a0 x5 (ix2 r b)
      = IntOp.cmpi .eq (Scalar.muli a0 512#32 + BitVec.ofNat 32 r.val) (x5 (ix2 0 b)) := by
  unfold k0_pay18
  rw [cmpi_apply, bcast_col, bcast_row, shapeCast_self, addi_apply, broadcast_apply, iota_single_apply]

/-- It is set exactly at the query's own user. -/
private theorem pay18_eq (a0 : BitVec 32) (x5 : Vec Ideal S1x2048 .i32) (r : Fin 512) (b : Fin 2048) :
    k0_pay18 (F := Ideal) a0 x5 (ix2 r b) = if selfT a0 x5 r b then 1#1 else 0#1 := by
  rw [pay18_apply]
  by_cases h : selfT a0 x5 r b
  · rw [if_pos h]
    exact StableHlo.Predicate.cmpi_eq_iff.mpr h
  · rw [if_neg h]
    exact eq_zero_of_ne_one fun hc => h (StableHlo.Predicate.cmpi_eq_iff.mp hc)

/-- The mask "valid rating and not the own user" at (r,b): every rating is valid, so it is the complement of the own-user bit. -/
private theorem pay20_eq (a0 : BitVec 32) (x5 : Vec Ideal S1x2048 .i32) (x1 : Vec Ideal S512x2048 .f32) (r : Fin 512) (b : Fin 2048) :
    k0_pay20 (F := Ideal) a0 x5 x1 (ix2 r b) = if selfT a0 x5 r b then 0#1 else 1#1 := by
  unfold k0_pay20
  rw [andi_apply, xori_apply, xori_apply, constantI_apply, cmpf_apply, Ideal.cmpf_def, cmp_one_self, pay18_eq]
  by_cases h : selfT a0 x5 r b
  · rw [if_pos h, if_pos h]; rfl
  · rw [if_neg h, if_neg h]; rfl

/-! ## The matrix product at an index

The product contracts axis 1 of the tile's embeddings [512,64] with axis 1 of the queries' [2048,64]. The four lemmas
name, axis by axis, the operand indices the product reads at an output index and a contraction index. -/

theorem lhs_pay16_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_pay16_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_pay16_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_pay16_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The product into a zero accumulator, the change of format being the identity: at (r,b), the inner product of row r's
    embedding with query b's. -/
theorem pay16_apply (x2 : Vec Ideal S512x64 .f32) (x3 : Vec Ideal S2048x64 .f32) (r : Fin 512) (b : Fin 2048) :
    k0_pay16 (F := Ideal) x2 x3 (ix2 r b) = ∑ d : Fin 64, x2 (ix2 r d) * x3 (ix2 b d) := by
  unfold k0_pay16
  rw [shapeCast_self]
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r b) ((contrEquiv1 dot_S512x64_S2048x64_S512x2048_1_1_0_0_n_n 64 rfl rfl).symm k) = ix2 r k := funext fun a => Fin.ext (by
    match a with
    | ⟨0, _⟩ => exact lhs_pay16_0 _ _
    | ⟨1, _⟩ => exact (lhs_pay16_1 _ _).trans hk)
  have er : dot_S512x64_S2048x64_S512x2048_1_1_0_0_n_n.rhsIdx (ix2 r b) ((contrEquiv1 dot_S512x64_S2048x64_S512x2048_1_1_0_0_n_n 64 rfl rfl).symm k) = ix2 b k := funext fun a => Fin.ext (by
    match a with
    | ⟨0, _⟩ => exact rhs_pay16_0 _ _
    | ⟨1, _⟩ => exact (rhs_pay16_1 _ _).trans hk)
  rw [el, er]
  rfl

/-- The squares of the tile's embeddings at an index. -/
theorem pay17_apply (x2 : Vec Ideal S512x64 .f32) (r : Fin 512) (d : Fin 64) :
    k0_pay17 (F := Ideal) x2 (ix2 r d) = x2 (ix2 r d) * x2 (ix2 r d) := rfl

/-! ## The masked similarity at an index -/

/-- Over any product block p and any block of squares q: at (r,b), zero at the own user, else p over the product of the
    query's norm with the square root of row r's sum of q, plus ε. -/
private theorem pay21_gen (a0 : BitVec 32) (p : FVec Ideal S512x2048 .f32) (q : FVec Ideal S512x64 .f32) (x4 : Vec Ideal S1x2048 .f32)
    (x5 : Vec Ideal S1x2048 .i32) (x1 : Vec Ideal S512x2048 .f32) (r : Fin 512) (b : Fin 2048) :
    k0_pay21 (F := Ideal) a0 p q x4 x5 x1 (ix2 r b)
      = if selfT a0 x5 r b then 0
        else Ideal.div (p (ix2 r b)) (x4 (ix2 0 b) * Ideal.sqrt (∑ d : Fin 64, q (ix2 r d)) + Ideal.ofBits .f32 0x322BCC77#32) := by
  unfold k0_pay21
  rw [select_apply, pay20_eq]
  by_cases h : selfT a0 x5 r b
  · rw [if_pos h, if_pos h, select_zero, broadcast_apply]
    exact Ideal.ofBits_zero_f32
  · rw [if_neg h, if_neg h, select_one, divf_apply, addf_apply, mulf_apply, bcast_row, shapeCast_self, bcast_col, sqrt_apply,
      cast_col, rowsum, broadcast_apply]
    rfl

/-- The masked similarity of row r with query b. -/
theorem pay21_apply (a0 : BitVec 32) (x1 : Vec Ideal S512x2048 .f32) (x2 : Vec Ideal S512x64 .f32) (x3 : Vec Ideal S2048x64 .f32)
    (x4 : Vec Ideal S1x2048 .f32) (x5 : Vec Ideal S1x2048 .i32) (r : Fin 512) (b : Fin 2048) :
    k0_pay21 (F := Ideal) a0 (k0_pay16 x2 x3) (k0_pay17 x2) x4 x5 x1 (ix2 r b)
      = if selfT a0 x5 r b then 0 else simT x2 x3 x4 r b := by
  rw [pay21_gen, pay16_apply]
  unfold simT
  simp only [pay17_apply]

/-! ## The three sums over the tile's rows -/

/-- The tile's contribution to query b's numerator. -/
theorem num_tile (a0 : BitVec 32) (v112 : FVec Ideal S512x1 .f32) (x1 : Vec Ideal S512x2048 .f32) (x2 : Vec Ideal S512x64 .f32)
    (x3 : Vec Ideal S2048x64 .f32) (x4 : Vec Ideal S1x2048 .f32) (x5 : Vec Ideal S1x2048 .i32) (b : Fin 2048) :
    k0_pay22 (F := Ideal) a0 v112 (k0_pay16 x2 x3) (k0_pay17 x2) x4 x5 x1 (ix2 0 b)
      = ∑ r : Fin 512, (if selfT a0 x5 r b then 0 else x1 (ix2 r b) - v112 (ix2 r 0))
          * (if selfT a0 x5 r b then 0 else simT x2 x3 x4 r b) := by
  unfold k0_pay22
  rw [cast_row, colsum]
  refine Finset.sum_congr rfl fun r _ => ?_
  rw [mulf_apply, pay21_apply, select_apply, pay20_eq]
  by_cases h : selfT a0 x5 r b
  · rw [if_pos h, if_pos h, if_pos h, select_zero, broadcast_apply]
    exact congrArg (· * (0 : EReal)) Ideal.ofBits_zero_f32
  · rw [if_neg h, if_neg h, if_neg h, select_one, subf_apply, bcast_col, pay19_eq]

/-- The tile's contribution to query b's denominator. -/
theorem den_tile (a0 : BitVec 32) (x1 : Vec Ideal S512x2048 .f32) (x2 : Vec Ideal S512x64 .f32) (x3 : Vec Ideal S2048x64 .f32)
    (x4 : Vec Ideal S1x2048 .f32) (x5 : Vec Ideal S1x2048 .i32) (b : Fin 2048) :
    k0_pay23 (F := Ideal) a0 (k0_pay16 x2 x3) (k0_pay17 x2) x4 x5 x1 (ix2 0 b)
      = ∑ r : Fin 512, max (if selfT a0 x5 r b then 0 else simT x2 x3 x4 r b)
          (-(if selfT a0 x5 r b then 0 else simT x2 x3 x4 r b)) := by
  unfold k0_pay23
  rw [cast_row, colsum]
  refine Finset.sum_congr rfl fun r _ => ?_
  rw [absf_apply, pay21_apply]

/-- The tile's contribution to query b's own average: the row average at the own user, zero elsewhere. -/
theorem avgSelf_tile (a0 : BitVec 32) (v112 : FVec Ideal S512x1 .f32) (x5 : Vec Ideal S1x2048 .i32) (b : Fin 2048) :
    k0_pay24 (F := Ideal) a0 v112 x5 (ix2 0 b) = ∑ r : Fin 512, if selfT a0 x5 r b then v112 (ix2 r 0) else 0 := by
  unfold k0_pay24
  rw [cast_row, colsum]
  refine Finset.sum_congr rfl fun r _ => ?_
  rw [select_apply, pay18_eq]
  by_cases h : selfT a0 x5 r b
  · rw [if_pos h, if_pos h, select_one, bcast_col, shapeCast_self]
  · rw [if_neg h, if_neg h, select_zero, broadcast_apply]
    exact Ideal.ofBits_zero_f32

end Cert.CFK
-- ==== Proof.KPoint.lean ====
/-
  What one grid point writes back. Each of the three outputs is a [1, 1, 2048] block stored once, whole; its entry (0, 0, b) is a sum
  over the 512 rows of the point's tile. With x0 the tile of ratings, x1 the tile of ratings at the queries' items, x2 the tile of
  embeddings, x3 the query embeddings, x4 the query norms, x5 the queries' user words, and a row r being "query b's own user" when the
  word of 512·(point) + r is x5 (0, b):
    the first output  is ∑ r, [r not own] (x1 (r, b) − avg r) · [r not own] sim r b,
    the second        is ∑ r, |[r not own] sim r b|,
    the third         is ∑ r, [r own] avg r,
  where avg r = (∑ k, x0 (r, k)) / 4096 and sim r b is the cosine similarity of row r with query b.
-/
import proofs.«412138_j37194416783750_3_alg».proof.Proof.FrameKI
import proofs.«412138_j37194416783750_3_alg».proof.Proof.KAvg
import proofs.«412138_j37194416783750_3_alg».proof.Proof.KSim
import Idealize.ShloMosaic.Lib.Pipeline.Value
import Idealize.ShloMosaic.Lib.ValueIdx
import Idealize.ShloMosaic.Lib.ValueLayout
import Idealize.ShloMosaic.PureOps.Ideal.Laws

noncomputable section

namespace Cert.CFK

open Idealize.ShloMosaic Idealize.ShloMosaic.TcCoe Idealize.SL.Sem Idealize.ShloMosaic.ValueIdx
open Cert.KernelIdeal Cert.KernelIdeal.Gen Cert.KernelIdeal.GenP

theorem hz2 : (![0, 0] : Fin 2 → Nat) = fun _ => 0 := funext fun a => by fin_cases a <;> rfl
theorem hz3 : (![0, 0, 0] : Fin 3 → Nat) = fun _ => 0 := funext fun a => by fin_cases a <;> rfl

/-- A row's average over the tile of ratings. -/
def avgT (x0 : Vec Ideal S512x4096 .f32) (r : Fin 512) : EReal := Ideal.div (∑ k : Fin 4096, x0 (ix2 r k)) 4096

theorem out6_apply (i : grid0.Coords) (x0 : Vec Ideal S512x4096 .f32) (x1 : Vec Ideal S512x2048 .f32) (x2 : Vec Ideal S512x64 .f32)
    (x3 : Vec Ideal S2048x64 .f32) (x4 : Vec Ideal S1x2048 .f32) (x5 : Vec Ideal S1x2048 .i32) (b : Fin 2048) :
    out0_6 (F := Ideal) i x0 x1 x2 x3 x4 x5 (ix3 0 0 b)
      = ∑ r : Fin 512, (if selfT (BitVec.ofNat 32 (i 0).val) x5 r b then 0 else x1 (ix2 r b) - avgT x0 r)
          * (if selfT (BitVec.ofNat 32 (i 0).val) x5 r b then 0 else simT x2 x3 x4 r b) := by
  unfold out0_6
  rw [View.canon_unit_zero hz3]
  simp only [View.ld_unit_zero (S := S512x2048) hz2, View.ld_unit_zero (S := S512x64) hz2, View.ld_unit_zero (S := S2048x64) hz2,
    View.ld_unit_zero (S := S1x2048) hz2]
  unfold k0_pay1
  refine (shapeCast_ab_1ab_apply _ _ 0 0 b).trans ?_
  rw [num_tile]
  refine Finset.sum_congr rfl fun r _ => ?_
  rw [avg_tile]
  rfl

theorem out7_apply (i : grid0.Coords) (x0 : Vec Ideal S512x4096 .f32) (x1 : Vec Ideal S512x2048 .f32) (x2 : Vec Ideal S512x64 .f32)
    (x3 : Vec Ideal S2048x64 .f32) (x4 : Vec Ideal S1x2048 .f32) (x5 : Vec Ideal S1x2048 .i32) (b : Fin 2048) :
    out0_7 (F := Ideal) i x0 x1 x2 x3 x4 x5 (ix3 0 0 b)
      = ∑ r : Fin 512, max (if selfT (BitVec.ofNat 32 (i 0).val) x5 r b then 0 else simT x2 x3 x4 r b)
          (-(if selfT (BitVec.ofNat 32 (i 0).val) x5 r b then 0 else simT x2 x3 x4 r b)) := by
  unfold out0_7
  rw [View.canon_unit_zero hz3]
  simp only [View.ld_unit_zero (S := S512x2048) hz2, View.ld_unit_zero (S := S512x64) hz2, View.ld_unit_zero (S := S2048x64) hz2,
    View.ld_unit_zero (S := S1x2048) hz2]
  unfold k0_pay2
  refine (shapeCast_ab_1ab_apply _ _ 0 0 b).trans ?_
  rw [den_tile]

theorem out8_apply (i : grid0.Coords) (x0 : Vec Ideal S512x4096 .f32) (x1 : Vec Ideal S512x2048 .f32) (x2 : Vec Ideal S512x64 .f32)
    (x3 : Vec Ideal S2048x64 .f32) (x4 : Vec Ideal S1x2048 .f32) (x5 : Vec Ideal S1x2048 .i32) (b : Fin 2048) :
    out0_8 (F := Ideal) i x0 x1 x2 x3 x4 x5 (ix3 0 0 b)
      = ∑ r : Fin 512, if selfT (BitVec.ofNat 32 (i 0).val) x5 r b then avgT x0 r else 0 := by
  unfold out0_8
  rw [View.canon_unit_zero hz3]
  simp only [View.ld_unit_zero (S := S1x2048) hz2]
  unfold k0_pay3
  refine (shapeCast_ab_1ab_apply _ _ 0 0 b).trans ?_
  rw [avgSelf_tile]
  refine Finset.sum_congr rfl fun r _ => ?_
  rw [avg_tile]
  rfl

end Cert.CFK

end
-- ==== Proof.PreFacts.lean ====
/-
  The integer half of the precondition, decoded, and the facts about single 32-bit words that the two programs' index
  arithmetic comes to.

  The printed precondition is a conjunction of six tests, each "every element passes". When its one word is 1, every
  user word u satisfies 0 ≤ u and u < 16384 read signed, and every item word v satisfies 0 ≤ v and v < 4096 read signed.
  A word that is nonnegative read signed has its top bit clear, so it reads the same unsigned; hence u.toNat < 16384 and
  v.toNat < 4096 (idx_ranges).

  On a word x with the top bit clear: the signed reading's natural number is x.toNat; the wrap of a negative index
  "if x < 0 then x + n else x" is x; and if moreover x.toNat < 4096 the bounds test (0 ≤ x) ∧ (x ≤ 4095) is 1.
  The word of tile t (of 32) times 512 plus the word of row r (of 512) is the word of 512·t + r: nothing wraps below 2³².
  The equality bit flipped (xor with 1) and the inequality bit are the same bit, and it is 1 exactly when the words differ.
-/
import Idealize.ShloMosaic.Lib.ReduceAll
import Idealize.ShloMosaic.Lib.StableHlo.Predicate
import Idealize.ShloMosaic.Lib.ValueIdx
import proofs.«412138_j37194416783750_3_alg».proof.Pre_finite_inputs

namespace Cert.CFPre

open Idealize.ShloMosaic

/-! ## Single words -/

/-- A word with the top bit clear: the natural number of its signed reading is its unsigned value. -/
theorem toInt_toNat_of_lt (x : BitVec 32) (hx : x.toNat < 2 ^ 31) : x.toInt.toNat = x.toNat := by
  rw [StableHlo.Predicate.toInt_eq_toNat_of_lt hx]
  exact Int.toNat_natCast _

/-- A word that tests nonnegative (signed) has its top bit clear. -/
theorem toNat_lt_of_sge_zero (x : BitVec 32) (h0 : IntOp.cmpi .sge x 0#32 = 1#1) : x.toNat < 2 ^ 31 := by
  rw [IntOp.cmpi_sge, show (0#32 : BitVec 32).toInt = 0 from by decide, BitVec.toInt_pos_iff] at h0
  omega

/-- A word in [0, n) read signed is below n read unsigned. -/
theorem toNat_lt_of_signed (x : BitVec 32) (n : Nat) (hn : n < 2 ^ 31) (h0 : IntOp.cmpi .sge x 0#32 = 1#1)
    (h1 : IntOp.cmpi .slt x (BitVec.ofNat 32 n) = 1#1) : x.toNat < n := by
  have hx : x.toNat < 2 ^ 31 := toNat_lt_of_sge_zero x h0
  have hnn : (BitVec.ofNat 32 n).toNat = n := by rw [BitVec.toNat_ofNat]; omega
  have h := (StableHlo.Predicate.slt_iff_toNat hx (by rw [hnn]; exact hn)).1 h1
  rw [hnn] at h
  exact h

/-- The wrap of a negative index, "x + n if x < 0, else x", is x on a word with the top bit clear. -/
theorem wrap_word (x n : BitVec 32) (hx : x.toNat < 2 ^ 31) :
    Scalar.select (IntOp.cmpi .slt x 0#32) (IntOp.addi x n) x = x := by
  have hc : ¬ IntOp.cmpi .slt x 0#32 = 1#1 := by
    rw [IntOp.cmpi_slt, StableHlo.Predicate.toInt_eq_toNat_of_lt hx, show (0#32 : BitVec 32).toInt = 0 from by decide]
    omega
  unfold Scalar.select
  exact if_neg hc

/-- The bounds test of a take from 4096 entries, (0 ≤ x) ∧ (x ≤ 4095) read signed, is 1 on a word below 4096. -/
theorem inb_word (x : BitVec 32) (hx : x.toNat < 4096) :
    IntOp.andi (IntOp.cmpi .sge x 0#32) (IntOp.cmpi .sle x 4095#32) = 1#1 := by
  have hx' : x.toNat < 2 ^ 31 := by omega
  have h0 : (0#32 : BitVec 32).toNat = 0 := by decide
  have h1 : (4095#32 : BitVec 32).toNat = 4095 := by decide
  rw [IntOp.andi_eq_one]
  refine ⟨(StableHlo.Predicate.sge_iff_toNat hx' (by rw [h0]; omega)).2 (by rw [h0]; omega),
    (StableHlo.Predicate.sle_iff_toNat hx' (by rw [h1]; omega)).2 (by rw [h1]; omega)⟩

/-- Tile t of 32 and row r of 512: the word of t times 512, plus the word of r, is the word of 512·t + r. -/
theorem row_word (t : Fin 32) (r : Fin 512) :
    IntOp.addi (Scalar.muli (BitVec.ofNat 32 t.val) 512#32) (BitVec.ofNat 32 r.val) = BitVec.ofNat 32 (512 * t.val + r.val) := by
  have ht := t.isLt
  have hr := r.isLt
  apply BitVec.eq_of_toNat_eq
  show ((BitVec.ofNat 32 t.val * 512#32) + BitVec.ofNat 32 r.val).toNat = _
  rw [BitVec.toNat_add, BitVec.toNat_mul]
  simp only [BitVec.toNat_ofNat]
  omega

/-- Flipping the equality bit gives the inequality bit. -/
theorem xori_cmpi_eq {w : Nat} (a b : BitVec w) : IntOp.xori (IntOp.cmpi .eq a b) 1#1 = IntOp.cmpi .ne a b := by
  have hx : ∀ c : Bool, BitVec.ofBool c ^^^ 1#1 = BitVec.ofBool (!c) := by decide
  show BitVec.ofBool (a == b) ^^^ 1#1 = BitVec.ofBool (a != b)
  exact hx _

/-- The inequality bit is 1 exactly when the words differ. -/
theorem cmpi_ne_one_iff_ne {w : Nat} (a b : BitVec w) : IntOp.cmpi .ne a b = 1#1 ↔ a ≠ b := IntOp.cmpi_ne

/-- The flipped equality bit is 1 exactly when the words differ. -/
theorem xori_eq_one_iff_ne {w : Nat} (a b : BitVec w) : IntOp.xori (IntOp.cmpi .eq a b) 1#1 = 1#1 ↔ a ≠ b := by
  rw [xori_cmpi_eq]; exact IntOp.cmpi_ne

/-- The equality bit is 1 exactly when the words are equal. -/
theorem cmpi_eq_one_iff_eq {w : Nat} (a b : BitVec w) : IntOp.cmpi .eq a b = 1#1 ↔ a = b := IntOp.cmpi_eq

/-! ## The precondition's index ranges -/

/-- The scalar shape has one index. -/
instance subsingleton_S_Idx : Subsingleton Cert.Pre_finite_inputs.S_.Idx := ⟨fun a b => funext fun d => d.elim0⟩

/-- When the printed precondition is all ones, every user word is below 16384 and every item word below 4096. -/
theorem idx_ranges [Cert.Pre_finite_inputs.Facts] {F : FTy → Type} [FloatOps F]
    (a0 : FVec F Cert.Pre_finite_inputs.S16384x4096 .f32) (a1 : FVec F Cert.Pre_finite_inputs.S16384x64 .f32)
    (ui ii : IVec Cert.Pre_finite_inputs.S2048 32)
    (h : Cert.Pre_finite_inputs.fn (F := F) a0 a1 ui ii = fun _ => 1#1) :
    (∀ j, (ui j).toNat < 16384) ∧ (∀ j, (ii j).toNat < 4096) := by
  have e := congrFun h ValueIdx.ix0
  unfold Cert.Pre_finite_inputs.fn Cert.Pre_finite_inputs.fn_part1 at e
  simp only [andi, IntOp.andi_eq_one] at e
  obtain ⟨⟨⟨⟨⟨-, -⟩, hu0⟩, hu1⟩, hi0⟩, hi1⟩ := e
  refine ⟨fun j => ?_, fun j => ?_⟩
  · have p0 : IntOp.cmpi .sge (ui j) 0#32 = 1#1 := Host.reduce_andi_all _ _ _ _ _ hu0 j
    have p1 : IntOp.cmpi .slt (ui j) 16384#32 = 1#1 := Host.reduce_andi_all _ _ _ _ _ hu1 j
    exact toNat_lt_of_signed (ui j) 16384 (by norm_num) p0 p1
  · have p0 : IntOp.cmpi .sge (ii j) 0#32 = 1#1 := Host.reduce_andi_all _ _ _ _ _ hi0 j
    have p1 : IntOp.cmpi .slt (ii j) 4096#32 = 1#1 := Host.reduce_andi_all _ _ _ _ _ hi1 j
    exact toNat_lt_of_signed (ii j) 4096 (by norm_num) p0 p1

end Cert.CFPre
-- ==== Proof.Spec.lean ====
/-
  The function both programs compute, index by index, on the extended reals.

  Memory-based collaborative filtering for 2048 queries over 16384 users and 4096 items. For a user n the row average is
  (∑ₖ R[n,k]) / 4096 (on the extended reals no entry is a NaN, so every entry counts). For a query b with query embedding row
  U[b,·] and the column C[·,b] of ratings at the query's item, the similarity of user n to the query is
  (∑_d E[n,d]·U[b,d]) / (‖U[b]‖·‖E[n]‖ + ε). Users other than the query's own user (the user whose number is the word ui[b])
  contribute (C[n,b] − avg n)·sim n b to the numerator and |sim n b| to the denominator; the query user's own average is read as the
  sum over n of "avg n if n is that user, else 0". The result is that average when the denominator is 0, else
  average + numerator / denominator.

  U and C stay parameters: both programs make them by the same gathers out of E and R.
-/
import Idealize.ShloMosaic.PureOps.Ideal
import Idealize.ShloMosaic.PureOps.Ideal.Laws
import Idealize.ShloMosaic.Lib.ValueIdx

noncomputable section

namespace Cert.CF

open Idealize.ShloMosaic Idealize.ShloMosaic.ValueIdx

abbrev SR : Shape := ⟨2, ![16384, 4096]⟩
abbrev SE : Shape := ⟨2, ![16384, 64]⟩
abbrev SU : Shape := ⟨2, ![2048, 64]⟩
abbrev SC : Shape := ⟨2, ![16384, 2048]⟩
abbrev SB : Shape := ⟨1, ![2048]⟩

/-- The ε both programs add to the product of norms: the f32 word of 1e-8, the same word on both sides, never evaluated. -/
def eps : EReal := Ideal.ofBits .f32 0x322BCC77#32

section
variable (R : SR.Idx → EReal) (E : SE.Idx → EReal) (U : SU.Idx → EReal) (C : SC.Idx → EReal) (ui : SB.Idx → BitVec 32)

/-- A user's ratings summed over the 4096 items. -/
def rowSum (n : Fin 16384) : EReal := ∑ k : Fin 4096, R (ix2 n k)
/-- A user's average rating. -/
def avg (n : Fin 16384) : EReal := Ideal.div (rowSum R n) 4096
/-- Inner product of user n's embedding with query b's. -/
def dot (n : Fin 16384) (b : Fin 2048) : EReal := ∑ d : Fin 64, E (ix2 n d) * U (ix2 b d)
/-- Norm of user n's embedding. -/
def normE (n : Fin 16384) : EReal := Ideal.sqrt (∑ d : Fin 64, E (ix2 n d) * E (ix2 n d))
/-- Norm of query b's embedding. -/
def normU (b : Fin 2048) : EReal := Ideal.sqrt (∑ d : Fin 64, U (ix2 b d) * U (ix2 b d))
/-- Cosine similarity, with ε in the denominator. -/
def sim (n : Fin 16384) (b : Fin 2048) : EReal := Ideal.div (dot E U n b) (normU U b * normE E n + eps)
/-- User n is query b's own user: the word of n is the query's user word. -/
def isSelf (n : Fin 16384) (b : Fin 2048) : Prop := BitVec.ofNat 32 n.val = ui (ix1 b)
instance (n : Fin 16384) (b : Fin 2048) : Decidable (isSelf ui n b) := by unfold isSelf; infer_instance
/-- The masked rating difference. -/
def dif (n : Fin 16384) (b : Fin 2048) : EReal := if isSelf ui n b then 0 else C (ix2 n b) - avg R n
/-- The masked similarity. -/
def sm (n : Fin 16384) (b : Fin 2048) : EReal := if isSelf ui n b then 0 else sim E U n b
/-- Numerator, denominator and the query user's own average, each a sum over all users. -/
def num (b : Fin 2048) : EReal := ∑ n : Fin 16384, dif R C ui n b * sm E U ui n b
def den (b : Fin 2048) : EReal := ∑ n : Fin 16384, max (sm E U ui n b) (-(sm E U ui n b))
def avgSelf (b : Fin 2048) : EReal := ∑ n : Fin 16384, if isSelf ui n b then avg R n else 0
end

/-- The last step, from a denominator d, a numerator n and the query user's own average a: a when d is 0, else a + n / d
    (the divisor is written as both programs write it: 1 when d is 0, else d). -/
def outOf (d n a : EReal) : EReal :=
  Scalar.select (Ideal.cmp .oeq d 0) a (a + Ideal.div n (Scalar.select (Ideal.cmp .oeq d 0) 1 d))

/-- The prediction for query b. -/
def out (R : SR.Idx → EReal) (E : SE.Idx → EReal) (U : SU.Idx → EReal) (C : SC.Idx → EReal) (ui : SB.Idx → BitVec 32)
    (b : Fin 2048) : EReal :=
  outOf (den E U ui b) (num R E U C ui b) (avgSelf R ui b)

/-- The query embeddings as both programs gather them: row (ui b) of E (the remainder keeps the definition total; it is the
    identity on a word that names a user). -/
def Uof (E : SE.Idx → EReal) (ui : SB.Idx → BitVec 32) : SU.Idx → EReal :=
  fun j => E (ix2 ⟨(ui (ix1 (j 0))).toNat % 16384, Nat.mod_lt _ (by norm_num)⟩ (j 1))

/-- The ratings at each query's item as both programs gather them: column (ii b) of R. -/
def Cof (R : SR.Idx → EReal) (ii : SB.Idx → BitVec 32) : SC.Idx → EReal :=
  fun j => R (ix2 (j 0) ⟨(ii (ix1 (j 1))).toNat % 4096, Nat.mod_lt _ (by norm_num)⟩)

/-! ## Two sum laws -/

/-- A sum over the 16384 users is the sum over the 32 tiles of the sum over the 512 rows of a tile (row r of tile t is user
    512·t + r): a reindexing along Fin 32 × Fin 512 ≃ Fin 16384, valid in any commutative monoid, so on the extended reals. -/
theorem sum_tiles {M : Type*} [AddCommMonoid M] (g : Fin 16384 → M) :
    ∑ t : Fin 32, ∑ r : Fin 512, g ⟨512 * t.val + r.val, by omega⟩ = ∑ n : Fin 16384, g n := by
  rw [← Fintype.sum_prod_type' (fun (t : Fin 32) (r : Fin 512) => g ⟨512 * t.val + r.val, by omega⟩)]
  exact Fintype.sum_equiv (finProdFinEquiv (m := 32) (n := 512)) _ _ (fun p => by
    congr 1; apply Fin.ext; simp [finProdFinEquiv]; omega)

/-- Summing "f n if the word of n is w, else 0" over all users picks out f at the user numbered w, when w names a user. -/
theorem sum_ite_word {M : Type*} [AddCommMonoid M] (f : Fin 16384 → M) (w : BitVec 32) (hw : w.toNat < 16384) :
    (∑ n : Fin 16384, if BitVec.ofNat 32 n.val = w then f n else 0) = f ⟨w.toNat, hw⟩ := by
  rw [Finset.sum_eq_single (⟨w.toNat, hw⟩ : Fin 16384)]
  · rw [if_pos]; exact BitVec.eq_of_toNat_eq (by simp [BitVec.toNat_ofNat])
  · intro n _ hn
    rw [if_neg]
    intro h
    apply hn
    apply Fin.ext
    have := congrArg BitVec.toNat h
    simp only [BitVec.toNat_ofNat] at this
    have hn' := n.isLt
    show n.val = w.toNat
    omega
  · intro h; exact absurd (Finset.mem_univ _) h

/-- The query user's own average, when the query's user word names a user. -/
theorem avgSelf_eq (R : SR.Idx → EReal) (ui : SB.Idx → BitVec 32) (b : Fin 2048) (h : (ui (ix1 b)).toNat < 16384) :
    avgSelf R ui b = avg R ⟨(ui (ix1 b)).toNat, h⟩ := by
  unfold avgSelf isSelf
  exact sum_ite_word (fun n => avg R n) _ h

end Cert.CF

end
-- ==== Proof.KArr.lean ====
/-
  From grid points to arrays. Write Rk, Ck, Ek, Uk, Nk, uk for the six arrays the region finds (ratings, ratings at the queries'
  items, embeddings, query embeddings, query norms as a row, the queries' user words as a row). Row r of the tile at point t is
  user n = 512·t + r, so what point t writes to an output at (0, 0, b) is the sum over the 512 users of tile t of a term of the user n
  and the query b alone: the three outputs after the run are, at (t, 0, b), the sums over tile t of
    [n not b's own user] (Ck (n, b) − avg n) · [n not own] simK n b,    |[n not own] simK n b|,    [n own] avg n.
  The blocks (t, 0, 0), t < 32, of a [32, 1, 2048] array tile it, so these are the arrays after the run.
-/
import proofs.«412138_j37194416783750_3_alg».proof.Proof.KBlocks
import proofs.«412138_j37194416783750_3_alg».proof.Proof.KPoint
import proofs.«412138_j37194416783750_3_alg».proof.Proof.PreFacts
import proofs.«412138_j37194416783750_3_alg».proof.Proof.Spec

noncomputable section

namespace Cert.CFK

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ) (c : Dev nD)

/-- The six arrays as the region finds them. -/
abbrev Rk : S16384x4096.Idx → EReal := V m c main_arg0
abbrev Ck : S16384x2048.Idx → EReal := V m c main_v12
abbrev Ek : S16384x64.Idx → EReal := V m c main_arg1
abbrev Uk : S2048x64.Idx → EReal := V m c main_v6
abbrev Nk : S1x2048.Idx → EReal := V m c main_v10
abbrev uk : S1x2048.Idx → BitVec 32 := V m c main_v11

/-- User n is query b's own user: the word of n is the query's user word. -/
def selfK (n : Fin 16384) (b : Fin 2048) : Prop := BitVec.ofNat 32 n.val = uk m c (ix2 0 b)
instance (n : Fin 16384) (b : Fin 2048) : Decidable (selfK m c n b) := by unfold selfK; infer_instance

/-- Cosine similarity of user n with query b, the query's norm read off the norms' row. -/
def simK (n : Fin 16384) (b : Fin 2048) : EReal :=
  Ideal.div (∑ d : Fin 64, Ek m c (ix2 n d) * Uk m c (ix2 b d))
    (Nk m c (ix2 0 b) * Ideal.sqrt (∑ d : Fin 64, Ek m c (ix2 n d) * Ek m c (ix2 n d)) + Ideal.ofBits .f32 0x322BCC77#32)

/-- One user's terms for one query. -/
def numTerm (n : Fin 16384) (b : Fin 2048) : EReal :=
  (if selfK m c n b then 0 else Ck m c (ix2 n b) - Cert.CF.avg (Rk m c) n) * (if selfK m c n b then 0 else simK m c n b)
def denTerm (n : Fin 16384) (b : Fin 2048) : EReal :=
  max (if selfK m c n b then 0 else simK m c n b) (-(if selfK m c n b then 0 else simK m c n b))
def ownTerm (n : Fin 16384) (b : Fin 2048) : EReal := if selfK m c n b then Cert.CF.avg (Rk m c) n else 0

/-- User 512·t + r, for a tile number t below 32. -/
abbrev userOf (t : Fin 32) (r : Fin 512) : Fin 16384 := ⟨512 * t.val + r.val, by omega⟩

/-- The three output arrays after the run. -/
def G6 : S32x1x2048.Idx → EReal := fun j => ∑ r : Fin 512, numTerm m c (userOf ⟨(j 0).val, (j 0).isLt⟩ r) (j 2)
def G7 : S32x1x2048.Idx → EReal := fun j => ∑ r : Fin 512, denTerm m c (userOf ⟨(j 0).val, (j 0).isLt⟩ r) (j 2)
def G8 : S32x1x2048.Idx → EReal := fun j => ∑ r : Fin 512, ownTerm m c (userOf ⟨(j 0).val, (j 0).isLt⟩ r) (j 2)

/-! ## One row of a tile, in terms of the arrays -/

theorem self_iff (t : Fin cfg0.N) (r : Fin 512) (b : Fin 2048) :
    selfT (BitVec.ofNat 32 ((grid0.coords t) 0).val) (iblk m c 5 t) r b ↔ selfK m c (rowOf t r) b := by
  obtain ⟨-, -, -, -, -, -, -, -, -, -, -, -, -, -, -, -, -, -, -, -, -, ec⟩ := idx_facts t
  have ht : t.val < 32 := by have := t.isLt; have : cfg0.N = 32 := N_0; omega
  unfold selfT selfK
  rw [blk5_apply, ec]
  have hw := Cert.CFPre.row_word ⟨t.val, ht⟩ r
  constructor
  · intro h; rw [← hw]; exact h
  · intro h; rw [← hw] at h; exact h

theorem avg_row (t : Fin cfg0.N) (r : Fin 512) : avgT (iblk m c 0 t) r = Cert.CF.avg (Rk m c) (rowOf t r) := by
  unfold avgT Cert.CF.avg Cert.CF.rowSum
  simp only [blk0_apply]

theorem sim_row (t : Fin cfg0.N) (r : Fin 512) (b : Fin 2048) :
    simT (iblk m c 2 t) (iblk m c 3 t) (iblk m c 4 t) r b = simK m c (rowOf t r) b := by
  unfold simT simK
  simp only [blk2_apply, blk3_apply, blk4_apply]

/-! ## What a point flushes, the cover, the arrays after the run -/

/-- An index of a [1, 1, 2048] block is (0, 0, b). -/
theorem blockIdx (y : S1x1x2048.Idx) : y = ix3 0 0 (y 2) := by
  funext a
  match a with
  | ⟨0, _⟩ => exact Fin.ext (Nat.lt_one_iff.mp (y 0).isLt)
  | ⟨1, _⟩ => exact Fin.ext (Nat.lt_one_iff.mp (y 1).isLt)
  | ⟨2, _⟩ => rfl

/-! ## Output window 6 -/

/-- What point t writes back to output 6 is block t of `G6`. -/
theorem flushed6_eq (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext y
  obtain ⟨b, rfl⟩ : ∃ b : Fin 2048, y = ix3 0 0 b := ⟨y 2, blockIdx y⟩
  rw [View.read_apply]
  show out0_6 (grid0.coords t) (iblk m c 0 t) (iblk m c 1 t) (iblk m c 2 t) (iblk m c 3 t) (iblk m c 4 t) (iblk m c 5 t) (ix3 0 0 b)
    = G6 m c (((cfg0.win 6).blk t).view.emb (ix3 0 0 b))
  rw [out6_apply]
  have ht : t.val < 32 := by have := t.isLt; have : cfg0.N = 32 := N_0; omega
  have hemb : ((cfg0.win 6).blk t).view.emb (ix3 0 0 b) = ix3 ⟨t.val, ht⟩ 0 b := by
    funext a; apply Fin.ext
    obtain ⟨-, -, -, -, -, -, -, -, -, -, -, -, e60, e61, e62, e70, e71, e72, e80, e81, e82, -⟩ := idx_facts t
    match a with
    | ⟨0, _⟩ => show win0_6.index t (0 : Fin 3) * 1 + 1 * 0 = t.val; omega
    | ⟨1, _⟩ => show win0_6.index t (1 : Fin 3) * 1 + 1 * 0 = 0; omega
    | ⟨2, _⟩ => show win0_6.index t (2 : Fin 3) * 2048 + 1 * b.val = b.val; omega
  rw [hemb]
  unfold G6
  refine Finset.sum_congr rfl fun r _ => ?_
  show _ = numTerm m c (rowOf t r) b
  unfold numTerm
  by_cases h : selfK m c (rowOf t r) b
  · have hT := (self_iff m c t r b).mpr h
    simp only [if_pos hT, if_pos h, zero_mul]
  · have hT : ¬ selfT (BitVec.ofNat 32 ((grid0.coords t) 0).val) (iblk m c 5 t) r b := fun h' => h ((self_iff m c t r b).mp h')
    simp only [if_neg hT, if_neg h, blk1_apply, avg_row, sim_row]

/-- An index of the array is in point t's block iff each coordinate is in the block's range on its axis. -/
theorem mem_blk6 (t : Fin cfg0.N) (i : S32x1x2048.Idx) :
    i ∈ ((cfg0.win 6).blk t).view.set ↔ ∀ a : Fin 3, win0_6.index t a * S1x1x2048.size a ≤ (i a).val ∧ (i a).val < win0_6.index t a * S1x1x2048.size a + S1x1x2048.size a := by
  show i ∈ ((View.whole main_v13_0).slice (win0_6.rect t)).set ↔ _
  rw [View.set_slice_whole, Rect.mem_set_unit]
  exact Iff.rfl

/-- Every index of the array is in the block of the point numbered by its first coordinate. -/
theorem cover6 (i : S32x1x2048.Idx) : ∃ t : Fin cfg0.N, (cfg0.win 6).flush t = true ∧ i ∈ ((cfg0.win 6).blk t).view.set := by
  have hi0 : (i 0).val < 32 := (i 0).isLt
  have hi1 : (i 1).val < 1 := (i 1).isLt
  have hi2 : (i 2).val < 2048 := (i 2).isLt
  refine ⟨⟨(i 0).val, by show (i 0).val < grid0.N; rw [N_0]; exact hi0⟩, flush0_6 _, ?_⟩
  rw [mem_blk6]
  obtain ⟨-, -, -, -, -, -, -, -, -, -, -, -, e60, e61, e62, e70, e71, e72, e80, e81, e82, -⟩ := idx_facts ⟨(i 0).val, by show (i 0).val < grid0.N; rw [N_0]; exact hi0⟩
  intro a
  match a with
  | ⟨0, _⟩ => show win0_6.index _ (0 : Fin 3) * 1 ≤ (i 0).val ∧ (i 0).val < win0_6.index _ (0 : Fin 3) * 1 + 1; simp only [] at e60; omega
  | ⟨1, _⟩ => show win0_6.index _ (1 : Fin 3) * 1 ≤ (i 1).val ∧ (i 1).val < win0_6.index _ (1 : Fin 3) * 1 + 1; omega
  | ⟨2, _⟩ => show win0_6.index _ (2 : Fin 3) * 2048 ≤ (i 2).val ∧ (i 2).val < win0_6.index _ (2 : Fin 3) * 2048 + 2048; omega

/-- Output 6 after the run. -/
theorem final6 : (dats m 0 c).arrAt 6 cfg0.N = G6 m c :=
  (dats m 0 c).arrAt_eq_of_cover 6 (G6 m c) (fun t _ => flushed6_eq m c t) cover6

/-! ## Output window 7 -/

/-- What point t writes back to output 7 is block t of `G7`. -/
theorem flushed7_eq (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext y
  obtain ⟨b, rfl⟩ : ∃ b : Fin 2048, y = ix3 0 0 b := ⟨y 2, blockIdx y⟩
  rw [View.read_apply]
  show out0_7 (grid0.coords t) (iblk m c 0 t) (iblk m c 1 t) (iblk m c 2 t) (iblk m c 3 t) (iblk m c 4 t) (iblk m c 5 t) (ix3 0 0 b)
    = G7 m c (((cfg0.win 7).blk t).view.emb (ix3 0 0 b))
  rw [out7_apply]
  have ht : t.val < 32 := by have := t.isLt; have : cfg0.N = 32 := N_0; omega
  have hemb : ((cfg0.win 7).blk t).view.emb (ix3 0 0 b) = ix3 ⟨t.val, ht⟩ 0 b := by
    funext a; apply Fin.ext
    obtain ⟨-, -, -, -, -, -, -, -, -, -, -, -, e60, e61, e62, e70, e71, e72, e80, e81, e82, -⟩ := idx_facts t
    match a with
    | ⟨0, _⟩ => show win0_7.index t (0 : Fin 3) * 1 + 1 * 0 = t.val; omega
    | ⟨1, _⟩ => show win0_7.index t (1 : Fin 3) * 1 + 1 * 0 = 0; omega
    | ⟨2, _⟩ => show win0_7.index t (2 : Fin 3) * 2048 + 1 * b.val = b.val; omega
  rw [hemb]
  unfold G7
  refine Finset.sum_congr rfl fun r _ => ?_
  show _ = denTerm m c (rowOf t r) b
  unfold denTerm
  by_cases h : selfK m c (rowOf t r) b
  · have hT := (self_iff m c t r b).mpr h
    simp only [if_pos hT, if_pos h]
  · have hT : ¬ selfT (BitVec.ofNat 32 ((grid0.coords t) 0).val) (iblk m c 5 t) r b := fun h' => h ((self_iff m c t r b).mp h')
    simp only [if_neg hT, if_neg h, blk1_apply, avg_row, sim_row]

/-- An index of the array is in point t's block iff each coordinate is in the block's range on its axis. -/
theorem mem_blk7 (t : Fin cfg0.N) (i : S32x1x2048.Idx) :
    i ∈ ((cfg0.win 7).blk t).view.set ↔ ∀ a : Fin 3, win0_7.index t a * S1x1x2048.size a ≤ (i a).val ∧ (i a).val < win0_7.index t a * S1x1x2048.size a + S1x1x2048.size a := by
  show i ∈ ((View.whole main_v13_1).slice (win0_7.rect t)).set ↔ _
  rw [View.set_slice_whole, Rect.mem_set_unit]
  exact Iff.rfl

/-- Every index of the array is in the block of the point numbered by its first coordinate. -/
theorem cover7 (i : S32x1x2048.Idx) : ∃ t : Fin cfg0.N, (cfg0.win 7).flush t = true ∧ i ∈ ((cfg0.win 7).blk t).view.set := by
  have hi0 : (i 0).val < 32 := (i 0).isLt
  have hi1 : (i 1).val < 1 := (i 1).isLt
  have hi2 : (i 2).val < 2048 := (i 2).isLt
  refine ⟨⟨(i 0).val, by show (i 0).val < grid0.N; rw [N_0]; exact hi0⟩, flush0_7 _, ?_⟩
  rw [mem_blk7]
  obtain ⟨-, -, -, -, -, -, -, -, -, -, -, -, e60, e61, e62, e70, e71, e72, e80, e81, e82, -⟩ := idx_facts ⟨(i 0).val, by show (i 0).val < grid0.N; rw [N_0]; exact hi0⟩
  intro a
  match a with
  | ⟨0, _⟩ => show win0_7.index _ (0 : Fin 3) * 1 ≤ (i 0).val ∧ (i 0).val < win0_7.index _ (0 : Fin 3) * 1 + 1; simp only [] at e70; omega
  | ⟨1, _⟩ => show win0_7.index _ (1 : Fin 3) * 1 ≤ (i 1).val ∧ (i 1).val < win0_7.index _ (1 : Fin 3) * 1 + 1; omega
  | ⟨2, _⟩ => show win0_7.index _ (2 : Fin 3) * 2048 ≤ (i 2).val ∧ (i 2).val < win0_7.index _ (2 : Fin 3) * 2048 + 2048; omega

/-- Output 7 after the run. -/
theorem final7 : (dats m 0 c).arrAt 7 cfg0.N = G7 m c :=
  (dats m 0 c).arrAt_eq_of_cover 7 (G7 m c) (fun t _ => flushed7_eq m c t) cover7

/-! ## Output window 8 -/

/-- What point t writes back to output 8 is block t of `G8`. -/
theorem flushed8_eq (t : Fin cfg0.N) :
    (dats m 0 c).flushed 8 t = ((cfg0.win 8).blk t).view.read (Elt Ideal) (G8 m c) := by
  show (cfg0.win 8).cut (grid0.coords t) ((dats m 0 c).after 8 t) = _
  rw [after0_8]
  funext y
  obtain ⟨b, rfl⟩ : ∃ b : Fin 2048, y = ix3 0 0 b := ⟨y 2, blockIdx y⟩
  rw [View.read_apply]
  show out0_8 (grid0.coords t) (iblk m c 0 t) (iblk m c 1 t) (iblk m c 2 t) (iblk m c 3 t) (iblk m c 4 t) (iblk m c 5 t) (ix3 0 0 b)
    = G8 m c (((cfg0.win 8).blk t).view.emb (ix3 0 0 b))
  rw [out8_apply]
  have ht : t.val < 32 := by have := t.isLt; have : cfg0.N = 32 := N_0; omega
  have hemb : ((cfg0.win 8).blk t).view.emb (ix3 0 0 b) = ix3 ⟨t.val, ht⟩ 0 b := by
    funext a; apply Fin.ext
    obtain ⟨-, -, -, -, -, -, -, -, -, -, -, -, e60, e61, e62, e70, e71, e72, e80, e81, e82, -⟩ := idx_facts t
    match a with
    | ⟨0, _⟩ => show win0_8.index t (0 : Fin 3) * 1 + 1 * 0 = t.val; omega
    | ⟨1, _⟩ => show win0_8.index t (1 : Fin 3) * 1 + 1 * 0 = 0; omega
    | ⟨2, _⟩ => show win0_8.index t (2 : Fin 3) * 2048 + 1 * b.val = b.val; omega
  rw [hemb]
  unfold G8
  refine Finset.sum_congr rfl fun r _ => ?_
  show _ = ownTerm m c (rowOf t r) b
  unfold ownTerm
  by_cases h : selfK m c (rowOf t r) b
  · have hT := (self_iff m c t r b).mpr h
    simp only [if_pos hT, if_pos h, avg_row]
  · have hT : ¬ selfT (BitVec.ofNat 32 ((grid0.coords t) 0).val) (iblk m c 5 t) r b := fun h' => h ((self_iff m c t r b).mp h')
    simp only [if_neg hT, if_neg h, blk1_apply, avg_row, sim_row]

/-- An index of the array is in point t's block iff each coordinate is in the block's range on its axis. -/
theorem mem_blk8 (t : Fin cfg0.N) (i : S32x1x2048.Idx) :
    i ∈ ((cfg0.win 8).blk t).view.set ↔ ∀ a : Fin 3, win0_8.index t a * S1x1x2048.size a ≤ (i a).val ∧ (i a).val < win0_8.index t a * S1x1x2048.size a + S1x1x2048.size a := by
  show i ∈ ((View.whole main_v13_2).slice (win0_8.rect t)).set ↔ _
  rw [View.set_slice_whole, Rect.mem_set_unit]
  exact Iff.rfl

/-- Every index of the array is in the block of the point numbered by its first coordinate. -/
theorem cover8 (i : S32x1x2048.Idx) : ∃ t : Fin cfg0.N, (cfg0.win 8).flush t = true ∧ i ∈ ((cfg0.win 8).blk t).view.set := by
  have hi0 : (i 0).val < 32 := (i 0).isLt
  have hi1 : (i 1).val < 1 := (i 1).isLt
  have hi2 : (i 2).val < 2048 := (i 2).isLt
  refine ⟨⟨(i 0).val, by show (i 0).val < grid0.N; rw [N_0]; exact hi0⟩, flush0_8 _, ?_⟩
  rw [mem_blk8]
  obtain ⟨-, -, -, -, -, -, -, -, -, -, -, -, e60, e61, e62, e70, e71, e72, e80, e81, e82, -⟩ := idx_facts ⟨(i 0).val, by show (i 0).val < grid0.N; rw [N_0]; exact hi0⟩
  intro a
  match a with
  | ⟨0, _⟩ => show win0_8.index _ (0 : Fin 3) * 1 ≤ (i 0).val ∧ (i 0).val < win0_8.index _ (0 : Fin 3) * 1 + 1; simp only [] at e80; omega
  | ⟨1, _⟩ => show win0_8.index _ (1 : Fin 3) * 1 ≤ (i 1).val ∧ (i 1).val < win0_8.index _ (1 : Fin 3) * 1 + 1; omega
  | ⟨2, _⟩ => show win0_8.index _ (2 : Fin 3) * 2048 ≤ (i 2).val ∧ (i 2).val < win0_8.index _ (2 : Fin 3) * 2048 + 2048; omega

/-- Output 8 after the run. -/
theorem final8 : (dats m 0 c).arrAt 8 cfg0.N = G8 m c :=
  (dats m 0 c).arrAt_eq_of_cover 8 (G8 m c) (fun t _ => flushed8_eq m c t) cover8

end Cert.CFK

end
-- ==== Proof.KJoin.lean ====
/-
  The kernel's three sums are the specification's. Summing an output array over its 32 tiles at a query b is summing a user's term over
  all 16384 users (user 512·t + r is row r of tile t). And when the six arrays the region finds are the ratings R, the embeddings E, a
  query-embedding array U whose norms are the norms' row, a ratings-column array C and the raw user words ui, a user's three terms are
  the specification's masked difference times masked similarity, the absolute masked similarity, and "the average if own, else 0".
-/
import proofs.«412138_j37194416783750_3_alg».proof.Proof.KArr
import proofs.«412138_j37194416783750_3_alg».proof.Proof.Spec

noncomputable section

namespace Cert.CFK

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ) (c : Dev nD)

/-! ## Tiles to users -/

theorem sum_G6 (b : Fin 2048) : ∑ t : Fin 32, G6 m c (ix3 t 0 b) = ∑ n : Fin 16384, numTerm m c n b :=
  Cert.CF.sum_tiles (fun n => numTerm m c n b)
theorem sum_G7 (b : Fin 2048) : ∑ t : Fin 32, G7 m c (ix3 t 0 b) = ∑ n : Fin 16384, denTerm m c n b :=
  Cert.CF.sum_tiles (fun n => denTerm m c n b)
theorem sum_G8 (b : Fin 2048) : ∑ t : Fin 32, G8 m c (ix3 t 0 b) = ∑ n : Fin 16384, ownTerm m c n b :=
  Cert.CF.sum_tiles (fun n => ownTerm m c n b)

/-! ## A user's terms, when the arrays are known -/

section Known

variable (R : Cert.CF.SR.Idx → EReal) (E : Cert.CF.SE.Idx → EReal) (U : Cert.CF.SU.Idx → EReal) (C : Cert.CF.SC.Idx → EReal)
  (ui : Cert.CF.SB.Idx → BitVec 32)
variable (hR : Rk m c = R) (hE : Ek m c = E) (hU : Uk m c = U) (hC : Ck m c = C)
  (hN : ∀ b : Fin 2048, Nk m c (ix2 0 b) = Cert.CF.normU U b) (hu : ∀ b : Fin 2048, uk m c (ix2 0 b) = ui (ix1 b))

include hu in
theorem self_iff_spec (n : Fin 16384) (b : Fin 2048) : selfK m c n b ↔ Cert.CF.isSelf ui n b := by
  unfold selfK Cert.CF.isSelf; rw [hu b]

include hE hU hN in
theorem simK_eq (n : Fin 16384) (b : Fin 2048) : simK m c n b = Cert.CF.sim E U n b := by
  unfold simK Cert.CF.sim Cert.CF.dot Cert.CF.normE Cert.CF.eps
  rw [hE, hU, hN b]

include hR hE hU hC hN hu in
theorem numTerm_eq (n : Fin 16384) (b : Fin 2048) :
    numTerm m c n b = Cert.CF.dif R C ui n b * Cert.CF.sm E U ui n b := by
  unfold numTerm Cert.CF.dif Cert.CF.sm
  by_cases h : Cert.CF.isSelf ui n b
  · have h' : selfK m c n b := (self_iff_spec m c ui hu n b).mpr h
    simp only [if_pos h, if_pos h']
  · have h' : ¬ selfK m c n b := fun x => h ((self_iff_spec m c ui hu n b).mp x)
    simp only [if_neg h, if_neg h', simK_eq m c E U hE hU hN n b, hC, hR]

include hE hU hN hu in
theorem denTerm_eq (n : Fin 16384) (b : Fin 2048) :
    denTerm m c n b = max (Cert.CF.sm E U ui n b) (-(Cert.CF.sm E U ui n b)) := by
  unfold denTerm Cert.CF.sm
  by_cases h : Cert.CF.isSelf ui n b
  · have h' : selfK m c n b := (self_iff_spec m c ui hu n b).mpr h
    simp only [if_pos h, if_pos h']
  · have h' : ¬ selfK m c n b := fun x => h ((self_iff_spec m c ui hu n b).mp x)
    simp only [if_neg h, if_neg h', simK_eq m c E U hE hU hN n b]

include hR hu in
theorem ownTerm_eq (n : Fin 16384) (b : Fin 2048) :
    ownTerm m c n b = if Cert.CF.isSelf ui n b then Cert.CF.avg R n else 0 := by
  unfold ownTerm
  by_cases h : Cert.CF.isSelf ui n b
  · have h' : selfK m c n b := (self_iff_spec m c ui hu n b).mpr h
    simp only [if_pos h, if_pos h', hR]
  · have h' : ¬ selfK m c n b := fun x => h ((self_iff_spec m c ui hu n b).mp x)
    simp only [if_neg h, if_neg h']

include hR hE hU hC hN hu in
/-- The kernel's last step over its three tile sums is the specification's prediction. -/
theorem out_eq (b : Fin 2048) :
    Cert.CF.outOf (∑ t : Fin 32, G7 m c (ix3 t 0 b)) (∑ t : Fin 32, G6 m c (ix3 t 0 b)) (∑ t : Fin 32, G8 m c (ix3 t 0 b))
      = Cert.CF.out R E U C ui b := by
  rw [sum_G6, sum_G7, sum_G8]
  unfold Cert.CF.out Cert.CF.num Cert.CF.den Cert.CF.avgSelf
  simp only [numTerm_eq m c R E U C ui hR hE hU hC hN hu, denTerm_eq m c E U ui hE hU hN hu, ownTerm_eq m c R ui hR hu]

end Known

end Cert.CFK

end
-- ==== Proof.KHost.lean ====
/-
  What the four inputs of the region that the program's host code makes hold when the region is entered, at the
  ideal values (floats as extended reals).

  Before the region, @main computes from its arguments — the ratings R [16384, 4096], the embeddings E [16384, 64],
  the user words ui [2048] and the item words ii [2048] — four arrays:

    * the query embeddings [2048, 64]: the rows of E gathered at the user words, a negative word wrapped by 16384;
    * the query norms, as a row [1, 2048]: at b, the square root of the sum over the 64 coordinates d of the
      square of the query embedding at (b, d);
    * the user words, as a row [1, 2048];
    * the ratings column [16384, 2048]: the columns of R gathered at the item words, a negative word wrapped by
      4096, kept where the wrapped word lies in 0 … 4095 and replaced by the fill word's value elsewhere.

  Each is read off the list of host operations: the buffer a line writes holds that line's function of the
  buffers it reads, every other buffer is unchanged; composing the lines gives the terms below. The typed
  references of the inlined take only move a value along an equation of its type, which is the identity.
-/
import proofs.«412138_j37194416783750_3_alg».proof.Proof.FrameKI
import Idealize.ShloMosaic.Lib.ValueIdx
import Idealize.ShloMosaic.Lib.StableHlo.Run
import Idealize.ShloMosaic.PureOps.Ideal.Laws

noncomputable section

open scoped BigOperators

namespace Cert.CFK

open Cert.KernelIdeal Cert.KernelIdeal.Gen Cert.KernelIdeal.GenP
open Idealize.ShloMosaic Idealize.ShloMosaic.TcCoe Idealize.SL.Sem Idealize.ShloMosaic.StableHlo Idealize.ShloMosaic.ValueIdx

/-! ## Two reads at an index -/

/-- A [2048] vector broadcast to a [1, 2048] row reads, at (0, b), the vector at b. -/
theorem row_apply {α : Type} (v : S2048.Idx → α) (h : S2048.BroadcastsInDim S1x2048 (![1] : Fin 1 → Fin S1x2048.rank))
    (b : Fin 2048) : broadcastInDim S1x2048 ![1] h v (ix2 (0 : Fin 1) b) = v (ix1 b) := by
  unfold broadcastInDim
  refine congrArg v (funext fun a => ?_)
  match a with
  | ⟨0, _⟩ =>
    apply Fin.ext
    split
    · next h1 => exact absurd (show (2048 : Nat) = 1 from h1) (by decide)
    · rfl

/-- The host's norm of the rows of a [2048, 64] array: at b, the square root of the sum of the 64 squares. -/
theorem norm_apply (u : FVec Ideal S2048x64 .f32) (h' : S2048x64.ReducesTo [1] S2048) (hu : 0 < S_.numel) (b : Fin 2048) :
    Host.sqrt (Host.reduceAdd (F := Ideal) (mulf u u) (constant (F := Ideal) S_ .f32 0x00000000#32) h' hu) (ix1 b)
      = Ideal.sqrt (∑ d : Fin 64, u (ix2 b d) * u (ix2 b d)) := by
  have h : S2048x64.Reduces [1] S2048 := by decide
  show Ideal.sqrt (Ideal.hostReduceAdd h' (mulf u u) (Ideal.ofBits .f32 0x00000000#32) (ix1 b)) = _
  rw [Ideal.hostReduceAdd_single h' h, Ideal.ofBits_zero_f32, zero_add]
  refine congrArg Ideal.sqrt (Finset.sum_congr rfl fun d _ => ?_)
  have e : h.lift (ix1 b) d = ix2 b d := by
    funext a
    match a with
    | ⟨0, _⟩ => exact Fin.ext rfl
    | ⟨1, _⟩ => exact Fin.ext rfl
  rw [e]; rfl

/-! ## The four arrays -/

variable (m : (ℓ : Loc nD τ sig) → Buf (Elt Ideal) ℓ) (c : Dev nD)

set_option quotPrecheck false

/-- The ratings, the embeddings, the user words and the item words as launched, at their plain types. -/
local notation "argR" => (m ((c : Thread nD τ).loc main_arg0) : S16384x4096.Idx → EReal)
local notation "argE" => (m ((c : Thread nD τ).loc main_arg1) : S16384x64.Idx → EReal)
local notation "argUi" => (m ((c : Thread nD τ).loc main_arg2) : S2048.Idx → BitVec 32)
local notation "argIi" => (m ((c : Thread nD τ).loc main_arg3) : S2048.Idx → BitVec 32)
/-- The item words, a negative one wrapped by 4096, as a column. -/
local notation "colIi" => (broadcastInDim S2048x1 ![0] bcast_S2048_S2048x1_0 (select (cmpi .slt argIi (broadcastInDim S2048 ![] bcast_S_S2048 (constantI S_ 32 0#32))) (addi argIi (broadcastInDim S2048 ![] bcast_S_S2048 (constantI S_ 32 4096#32))) argIi) : S2048x1.Idx → BitVec 32)
/-- The query embeddings, the query norms and the user-word row when the region is entered, at their plain types. -/
local notation "valQ" => (V m c main_v6 : S2048x64.Idx → EReal)
local notation "valN" => (V m c main_v10 : S1x2048.Idx → EReal)
local notation "valU" => (V m c main_v11 : S1x2048.Idx → BitVec 32)

set_option maxHeartbeats 2000000 in
/-- The query embeddings: the embeddings gathered at the user words, a negative word wrapped by 16384. -/
theorem V_v6 : V m c main_v6 = Host.gather gather_S16384x64_S2048x1_S2048x64_1_0_n_n_0_1_164 argE (broadcastInDim S2048x1 ![0] bcast_S2048_S2048x1_0 (select (cmpi .slt argUi (broadcastInDim S2048 ![] bcast_S_S2048 (constantI S_ 32 0#32))) (addi argUi (broadcastInDim S2048 ![] bcast_S_S2048 (constantI S_ 32 16384#32))) argUi)) := by
  dsimp only [V, V0]
  simp only [hostOps0, hostOps0_1, List.flatten_cons, List.flatten_nil, List.append_nil, List.cons_append, List.nil_append]
  after_results_simp

set_option maxHeartbeats 2000000 in
/-- The ratings column: the ratings gathered at the wrapped item words, kept where the word is in range, the fill elsewhere. -/
theorem V_v12 : V m c main_v12 = select (broadcastInDim S16384x2048 ![1] bcast_S2048_S16384x2048_1 (Host.reduce IntOp.andi (andi (cmpi .sge colIi (broadcastInDim S2048x1 ![] bcast_S_S2048x1 (constantI S_ 32 0#32))) (cmpi .sle colIi (broadcastInDim S2048x1 ![0, 1] bcast_S1x1_S2048x1_0_1 (broadcastInDim S1x1 ![1] bcast_S1_S1x1_1 (constantI S1 32 4095#32))))) (constantI S_ 1 1#1) reducesTo_S2048x1_S2048_d1 h_S_)) (Host.gather gather_S16384x4096_S2048x1_S16384x2048_0_1_n_n_1_1_163841 argR colIi) (broadcastInDim S16384x2048 ![] bcast_S_S16384x2048 (constant (F := Ideal) S_ .f32 0x7FC00000#32)) := by
  dsimp only [V, V0]
  simp only [hostOps0, hostOps0_1, List.flatten_cons, List.flatten_nil, List.append_nil, List.cons_append, List.nil_append]
  after_results_simp
  simp only [TRef.ofBuf, TRef.toBuf, cast_cast, cast_eq]

set_option maxHeartbeats 2000000 in
/-- The query norms are the host's row norms of the query embeddings, as a row. -/
theorem V_v10 : valN = broadcastInDim S1x2048 ![1] bcast_S2048_S1x2048_1 (Host.sqrt (Host.reduceAdd (F := Ideal) (mulf valQ valQ) (constant (F := Ideal) S_ .f32 0x00000000#32) reducesTo_S2048x64_S2048_d1 h_S_)) := by
  rw [V_v6 m c]
  dsimp only [V, V0]
  simp only [hostOps0, hostOps0_1, List.flatten_cons, List.flatten_nil, List.append_nil, List.cons_append, List.nil_append]
  after_results_simp

/-- The query norm at b: the square root of the sum of the squares of the query embedding's 64 coordinates, the
    query embeddings named q. -/
theorem V_v10_apply_of (q : S2048x64.Idx → EReal) (hq : V m c main_v6 = q) (b : Fin 2048) :
    valN (ix2 0 b) = Ideal.sqrt (∑ d : Fin 64, q (ix2 b d) * q (ix2 b d)) := by
  subst hq
  rw [V_v10 m c]
  exact (row_apply _ _ b).trans (norm_apply _ _ _ b)

/-- The product of two extended reals, its type written out (an entry of a buffer has the buffer's element type,
    which is the extended reals only after the buffer's type is computed). -/
local infixl:70 " *ₑ " => @HMul.hMul EReal EReal EReal instHMul

/-- The same with the query embeddings spelt as the buffer. -/
theorem V_v10_apply (b : Fin 2048) :
    valN (ix2 0 b) = Ideal.sqrt (∑ d : Fin 64, valQ (ix2 b d) *ₑ valQ (ix2 b d)) :=
  V_v10_apply_of m c _ rfl b

set_option maxHeartbeats 2000000 in
/-- The user-word row is the user words broadcast to a row. -/
theorem V_v11 : valU = broadcastInDim S1x2048 ![1] bcast_S2048_S1x2048_1 argUi := by
  dsimp only [V, V0]
  simp only [hostOps0, hostOps0_1, List.flatten_cons, List.flatten_nil, List.append_nil, List.cons_append, List.nil_append]
  after_results_simp

/-- The user-word row at b is the user word at b. -/
theorem V_v11_apply (b : Fin 2048) : valU (ix2 0 b) = argUi (ix1 b) := by
  rw [V_v11 m c]
  exact row_apply _ _ b

end Cert.CFK

end
-- ==== Proof.KTail.lean ====
/-
  The host operations that follow the program's one region, read at a query on the extended reals.

  The region leaves three arrays of shape [32,1,2048]: for each of the 32 tiles of users and each of the 2048 queries, the
  tile's contribution to the query's numerator, to its denominator and to its own user's average. After the region the
  program sums each array over the 32 tiles, from the initial value 0.0, and reshapes the [1,2048] sum to [2048]; then, at
  each query, with d the denominator, n the numerator and a the own average, the result is a where d equals 0.0, and
  a + n / d' elsewhere, d' being 1.0 where d equals 0.0 and d elsewhere. On the extended reals the sums are exact, 0.0 is
  zero and 1.0 is one, so at query b the result is the specification's last step at the three sums over the tiles.

  First one host sum over a variable array, read at a query; then the closing formula over three variable vectors; then
  the tail itself: its operations applied to the arrays the region leaves.
-/
import proofs.«412138_j37194416783750_3_alg».proof.Proof.FrameKI
import proofs.«412138_j37194416783750_3_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.StableHlo.Run
import Idealize.ShloMosaic.Lib.Pipeline.FrameSuffix

noncomputable section

namespace Cert.CFK

open Cert.KernelIdeal Cert.KernelIdeal.Gen Cert.KernelIdeal.GenP
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## One host sum over the tiles -/

/-- The host's sum over axis 0 of a [32,1,2048] array from the initial value 0.0, reshaped to [2048]: at b, the sum over
    the 32 tiles of the array at (t,0,b). -/
theorem tileSum (A : FVec Ideal S32x1x2048 .f32) (b : Fin 2048) :
    shapeCast S2048 (Host.reduceAdd (F := Ideal) A (constant (F := Ideal) S_ .f32 0x00000000#32) reducesTo_S32x1x2048_S1x2048_d0 h_S_)
        shapeCasts_S1x2048_S2048 (ix1 b)
      = ∑ t : Fin 32, A (ix3 t 0 b) := by
  rw [shapeCast_1a_a_apply, hostReduceAdd_apply,
    Ideal.hostReduceAdd_single reducesTo_S32x1x2048_S1x2048_d0 (by decide : S32x1x2048.Reduces [0] S1x2048)]
  show Ideal.ofBits .f32 0x00000000#32 + _ = _
  rw [Ideal.ofBits_zero_f32, zero_add]
  refine Finset.sum_congr rfl fun t _ => congrArg A (funext fun a => Fin.ext ?_)
  match a with
  | ⟨0, _⟩ => rfl
  | ⟨1, _⟩ => rfl
  | ⟨2, _⟩ => rfl

/-! ## The closing formula at a query -/

/-- The scalar 0.0 broadcast to [2048] reads zero everywhere, and the scalar 1.0 one. -/
theorem bcast_zero (b : Fin 2048) :
    broadcastInDim S2048 ![] bcast_S_S2048 (constant (F := Ideal) S_ .f32 0x00000000#32) (ix1 b) = (0 : EReal) :=
  Ideal.ofBits_zero_f32
theorem bcast_one (b : Fin 2048) :
    broadcastInDim S2048 ![] bcast_S_S2048 (constant (F := Ideal) S_ .f32 0x3F800000#32) (ix1 b) = (1 : EReal) :=
  Ideal.ofBits_one_f32

/-- Over any denominator D, numerator N and own average Av, each a [2048] vector: the two selects on "D is 0.0", the
    divide and the add, read at b, are the specification's last step at the three values there. -/
theorem tail_formula (D N Av : FVec Ideal S2048 .f32) (b : Fin 2048) :
    select (cmpf .oeq D (broadcastInDim S2048 ![] bcast_S_S2048 (constant (F := Ideal) S_ .f32 0x00000000#32))) Av
        (addf Av (Host.divf N
          (select (cmpf .oeq D (broadcastInDim S2048 ![] bcast_S_S2048 (constant (F := Ideal) S_ .f32 0x00000000#32)))
            (broadcastInDim S2048 ![] bcast_S_S2048 (id (constant (F := Ideal) S_ .f32 0x3F800000#32))) D))) (ix1 b)
      = Cert.CF.outOf (D (ix1 b)) (N (ix1 b)) (Av (ix1 b)) := by
  unfold Cert.CF.outOf
  simp only [select_apply, cmpf_apply, addf_apply, hostDivf_apply, id_eq, Ideal.cmpf_def]
  rw [bcast_zero, bcast_one]

/-! ## The tail at a query -/

/-- The program's result at query b, from the three output arrays the region leaves: the specification's last step at the
    sums over the 32 tiles of the denominator's, the numerator's and the own average's arrays. -/
theorem tail_apply (A6 A7 A8 : S32x1x2048.Idx → EReal)
    (h6 : (dats m 0 c).arrAt 6 cfg0.N = A6) (h7 : (dats m 0 c).arrAt 7 cfg0.N = A7) (h8 : (dats m 0 c).arrAt 8 cfg0.N = A8) (b : Fin 2048) :
    Pipeline.afterTail₀ cfgs (dats m) 0 (V0 m) [hostOps1, hostOps1_1, hostOps1_2, hostOps1_3] c main_v27 (ix1 b)
      = Cert.CF.outOf (∑ t : Fin 32, A7 (ix3 t 0 b)) (∑ t : Fin 32, A6 (ix3 t 0 b)) (∑ t : Fin 32, A8 (ix3 t 0 b)) := by
  have e6 : Pipeline.withArrays (cfgs 0).spec c (V0 m c) (fun w => (dats m 0 c).arrAt w (cfgs 0).N) (Proc.devRef .tc main_v13_0) = A6 :=
    (Pipeline.withArrays_arr spec0 launch0.win.arr_inj c _ _ 6).trans h6
  have e7 : Pipeline.withArrays (cfgs 0).spec c (V0 m c) (fun w => (dats m 0 c).arrAt w (cfgs 0).N) (Proc.devRef .tc main_v13_1) = A7 :=
    (Pipeline.withArrays_arr spec0 launch0.win.arr_inj c _ _ 7).trans h7
  have e8 : Pipeline.withArrays (cfgs 0).spec c (V0 m c) (fun w => (dats m 0 c).arrAt w (cfgs 0).N) (Proc.devRef .tc main_v13_2) = A8 :=
    (Pipeline.withArrays_arr spec0 launch0.win.arr_inj c _ _ 8).trans h8
  unfold Pipeline.afterTail₀
  simp only [hostOps1, hostOps1_1, hostOps1_2, hostOps1_3, List.flatten_cons, List.flatten_nil, List.append_nil, List.cons_append, List.nil_append]
  after_results_simp
  simp only [TRef.ofBuf, TRef.toBuf, cast_eq]
  rw [e6, e7, e8]
  refine (tail_formula
    (fun i => shapeCast S2048 (Host.reduceAdd (F := Ideal) A7 (constant (F := Ideal) S_ .f32 0x00000000#32) reducesTo_S32x1x2048_S1x2048_d0 h_S_) shapeCasts_S1x2048_S2048 i)
    (fun i => shapeCast S2048 (Host.reduceAdd (F := Ideal) A6 (constant (F := Ideal) S_ .f32 0x00000000#32) reducesTo_S32x1x2048_S1x2048_d0 h_S_) shapeCasts_S1x2048_S2048 i)
    (fun i => shapeCast S2048 (Host.reduceAdd (F := Ideal) A8 (constant (F := Ideal) S_ .f32 0x00000000#32) reducesTo_S32x1x2048_S1x2048_d0 h_S_) shapeCasts_S1x2048_S2048 i)
    b).trans ?_
  exact congr (congr (congrArg Cert.CF.outOf (tileSum A7 b)) (tileSum A6 b)) (tileSum A8 b)

end Cert.CFK
-- ==== Proof.LibGather.lean ====
/-
  The two rank-2 forms of StableHLO's gather that indexing a matrix by a vector of positions produces, each read at
  one result index.

  A ROW gather takes an operand [N, D] and a column [B, 1] of start indices to the result [B, D] whose row b is the
  operand's row named by the b-th start index. A COLUMN gather takes an operand [N, M] and a column [B, 1] of start
  indices to the result [N, B] whose column b is the operand's column named by the b-th start index. StableHLO reads a
  start index as a signed word and clamps it so that the slice fits inside the operand. For a 32-bit word whose
  unsigned value is below the extent of the indexed axis, and an extent of at most 2^31, the signed reading is the
  unsigned value and the clamp does nothing: the result element is the operand's element at that row (column).

  Both theorems are stated for any record of dimension numbers whose fields are the lists of these two
  forms; the record's well-formedness proof is left abstract.
-/
import Idealize.ShloMosaic.PureOps.Dims
import Idealize.ShloMosaic.PureOps.ShapeOps
import Idealize.ShloMosaic.Lib.ValueIdx

namespace Cert.LibGather

open Idealize.ShloMosaic Idealize.ShloMosaic.ValueIdx

/-- A 32-bit start index whose unsigned value is below an extent n ≤ 2^31, read signed and clamped into [0, n − 1],
    is its unsigned value: the sign bit is clear, and the value is already at most n − 1. -/
private theorem clamp_eq (v : BitVec 32) (n : Nat) (hn : n ≤ 2 ^ 31) (hlt : v.toNat < n) :
    min v.toInt.toNat (n - 1) = v.toNat := by
  have h2 : 2 * v.toNat < 2 ^ 32 := by omega
  rw [BitVec.toInt_eq_toNat_of_lt h2, Int.toNat_natCast]
  exact Nat.min_eq_left (by omega)

private theorem zero_mem : (0 : Fin 2) ∈ ([0] : List (Fin 2)) := by decide
private theorem one_mem : (1 : Fin 2) ∈ ([1] : List (Fin 2)) := by decide
private theorem one_not_mem : (1 : Fin 2) ∉ ([0] : List (Fin 2)) := by decide
private theorem zero_not_mem : (0 : Fin 2) ∉ ([1] : List (Fin 2)) := by decide

/-! ## The row gather -/

/-- The dimension numbers of a row gather (operand [N, D], start indices [B, 1], result [B, D]), over an abstract
    proof of their conditions. -/
private abbrev rowsDims (N D B : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

private theorem rows_apply {N D B : Nat} {α : Type}
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather (rowsDims N D B wf) x idx (ix2 b c) = x (ix2 ⟨(idx (ix2 b 0)).toNat, hlt⟩ c) := by
  unfold Host.gather
  refine congrArg x ?_
  funext a
  refine Fin.ext ?_
  show (rowsDims N D B wf).start (ix2 b c) idx a + (rowsDims N D B wf).batchCoord (ix2 b c) a
      + (rowsDims N D B wf).offCoord (ix2 b c) a = _
  rw [GatherDims.batchCoord_eq_zero _ _ _ List.not_mem_nil, Nat.add_zero]
  match a with
  | ⟨0, _⟩ =>
    -- axis 0 is collapsed and start-indexed: the clamped start index, no offset
    show (rowsDims N D B wf).start (ix2 b c) idx (0 : Fin 2) + (rowsDims N D B wf).offCoord (ix2 b c) (0 : Fin 2)
      = (idx (ix2 b 0)).toNat
    rw [GatherDims.offCoord_eq_zero _ _ _ (fun h => ((GatherDims.mem_sKept _ _).mp h).1 zero_mem), Nat.add_zero]
    unfold GatherDims.start
    rw [dif_pos (show (0 : Fin 2) ∈ (rowsDims N D B wf).startIndexMap from zero_mem)]
    have hsi : (rowsDims N D B wf).siIdx (ix2 b c) ⟨List.idxOf (0 : Fin 2) (rowsDims N D B wf).startIndexMap,
        List.idxOf_lt_length_iff.2 zero_mem⟩ = ix2 b 0 := by
      funext k; refine Fin.ext ?_
      match k with
      | ⟨0, _⟩ => rfl
      | ⟨1, _⟩ => rfl
    rw [hsi]
    exact clamp_eq _ N hN hlt
  | ⟨1, _⟩ =>
    -- axis 1 is the offset axis, not start-indexed: start 0, the result's column coordinate
    show (rowsDims N D B wf).start (ix2 b c) idx (1 : Fin 2) + (rowsDims N D B wf).offCoord (ix2 b c) (1 : Fin 2)
      = c.val
    have hs : (rowsDims N D B wf).start (ix2 b c) idx (1 : Fin 2) = 0 := by
      unfold GatherDims.start
      rw [dif_neg (show (1 : Fin 2) ∉ (rowsDims N D B wf).startIndexMap from one_not_mem)]
    rw [hs, Nat.zero_add]
    rfl

/-- A row gather (operand [N, D], start indices [B, 1], result [B, D]; offset_dims = [1], collapsed_slice_dims = [0],
    start_index_map = [0], index_vector_dim = 1, slice sizes [1, D]) read at (b, c): row (idx b) of the operand at
    column c, when the word idx b names a row. -/
theorem gather_rows_apply {N D B : Nat} {α : Type} (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather d x idx (ix2 b c) = x (ix2 ⟨(idx (ix2 b 0)).toNat, hlt⟩ c) := by
  obtain ⟨od, cd, ob, sb, sm, iv, ss, wf⟩ := d
  dsimp only at h1 h2 h3 h4 h5 h6 h7
  subst h1 h2 h3 h4 h5 h6 h7
  exact rows_apply wf x idx b c hN hlt

/-! ## The column gather -/

/-- The dimension numbers of a column gather (operand [N, M], start indices [B, 1], result [N, B]), over an abstract
    proof of their conditions. -/
private abbrev colsDims (N M B : Nat)
    (wf : GatherDims.WF ⟨2, ![N, M]⟩ ⟨2, ![B, 1]⟩ ⟨2, ![N, B]⟩ [0] [1] [] [1] [] 1 ![N, 1]) :
    GatherDims ⟨2, ![N, M]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

private theorem cols_apply {N M B : Nat} {α : Type}
    (wf : GatherDims.WF ⟨2, ![N, M]⟩ ⟨2, ![B, 1]⟩ ⟨2, ![N, B]⟩ [0] [1] [] [1] [] 1 ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather (colsDims N M B wf) x idx (ix2 n b) = x (ix2 n ⟨(idx (ix2 b 0)).toNat, hlt⟩) := by
  unfold Host.gather
  refine congrArg x ?_
  funext a
  refine Fin.ext ?_
  show (colsDims N M B wf).start (ix2 n b) idx a + (colsDims N M B wf).batchCoord (ix2 n b) a
      + (colsDims N M B wf).offCoord (ix2 n b) a = _
  rw [GatherDims.batchCoord_eq_zero _ _ _ List.not_mem_nil, Nat.add_zero]
  match a with
  | ⟨0, _⟩ =>
    -- axis 0 is the offset axis, not start-indexed: start 0, the result's row coordinate
    show (colsDims N M B wf).start (ix2 n b) idx (0 : Fin 2) + (colsDims N M B wf).offCoord (ix2 n b) (0 : Fin 2)
      = n.val
    have hs : (colsDims N M B wf).start (ix2 n b) idx (0 : Fin 2) = 0 := by
      unfold GatherDims.start
      rw [dif_neg (show (0 : Fin 2) ∉ (colsDims N M B wf).startIndexMap from zero_not_mem)]
    rw [hs, Nat.zero_add]
    rfl
  | ⟨1, _⟩ =>
    -- axis 1 is collapsed and start-indexed: the clamped start index, no offset
    show (colsDims N M B wf).start (ix2 n b) idx (1 : Fin 2) + (colsDims N M B wf).offCoord (ix2 n b) (1 : Fin 2)
      = (idx (ix2 b 0)).toNat
    rw [GatherDims.offCoord_eq_zero _ _ _ (fun h => ((GatherDims.mem_sKept _ _).mp h).1 one_mem), Nat.add_zero]
    unfold GatherDims.start
    rw [dif_pos (show (1 : Fin 2) ∈ (colsDims N M B wf).startIndexMap from one_mem)]
    have hsi : (colsDims N M B wf).siIdx (ix2 n b) ⟨List.idxOf (1 : Fin 2) (colsDims N M B wf).startIndexMap,
        List.idxOf_lt_length_iff.2 one_mem⟩ = ix2 b 0 := by
      funext k; refine Fin.ext ?_
      match k with
      | ⟨0, _⟩ => rfl
      | ⟨1, _⟩ => rfl
    rw [hsi]
    exact clamp_eq _ M hM hlt

/-- A column gather (operand [N, M], start indices [B, 1], result [N, B]; offset_dims = [0], collapsed_slice_dims = [1],
    start_index_map = [1], index_vector_dim = 1, slice sizes [N, 1]) read at (n, b): column (idx b) of the operand at
    row n, when the word idx b names a column. -/
theorem gather_cols_apply {N M B : Nat} {α : Type} (d : GatherDims ⟨2, ![N, M]⟩ ⟨2, ![B, 1]⟩ ⟨2, ![N, B]⟩)
    (h1 : d.offsetDims = [0]) (h2 : d.collapsedSliceDims = [1]) (h3 : d.operandBatchingDims = [])
    (h4 : d.startIndicesBatchingDims = [])
    (h5 : d.startIndexMap = [1]) (h6 : d.indexVectorDim = 1) (h7 : d.sliceSizes = ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather d x idx (ix2 n b) = x (ix2 n ⟨(idx (ix2 b 0)).toNat, hlt⟩) := by
  obtain ⟨od, cd, ob, sb, sm, iv, ss, wf⟩ := d
  dsimp only at h1 h2 h3 h4 h5 h6 h7
  subst h1 h2 h3 h4 h5 h6 h7
  exact cols_apply wf x idx n b hM hlt

end Cert.LibGather
-- ==== Proof.LibAndReduce.lean ====
/-
  An and-reduce of an array of one-bit words that are all 1.

  General facts, independent of any program: a left fold by `and` that starts at 1 and meets only 1s ends at 1; so a
  `stablehlo.reduce` by `and` from the constant 1, over whichever axes, of an array whose every entry is 1 is 1 at
  every index of its result. (The library has the other direction: a reduce that came out 1 met only 1s.) This is what
  a range test `all(lo <= idx <= hi)` along an axis comes to when every index is known to be in range, for instance
  the test a take in fill mode makes before it chooses between the gathered row and its fill.
-/
import Idealize.ShloMosaic.PureOps.Reduce
import Idealize.ShloMosaic.Lib.ReduceAll

namespace Cert.LibAndReduce

open Idealize.ShloMosaic

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- An and-reduce, from initial values that are 1, of an array whose every entry is 1 is 1 at every index of the
    result, whatever the shapes and the reduced axes. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

end Cert.LibAndReduce
-- ==== Proof.GatherFacts.lean ====
/-
  The index arithmetic both programs put in front of their gathers, read off once and for all.

  Indexing with a vector x of 2048 positions against an extent N is computed as: the wrap of a negative position,
  "x + N where x < 0 (signed), else x"; that vector laid as a [2048, 1] column; then a gather. On words whose unsigned
  value is below 2^31 the wrap is the identity, so on positions that are in range:

  * the row gather of a [16384, 64] table is the function Uof: row (x b) of the table at result row b;
  * the column gather of a [16384, 4096] table is the function Cof: column (x b) of the table at result column b;
  * the 1-D take of a [16384] vector reads entry (x b) at result position b;
  * the range test a take in fill mode makes, "0 ≤ x b ≤ 4095 for every component of the b-th start index", reduced by
    "and" along the component axis and broadcast along the rows, is 1 everywhere, so the select that follows it keeps the
    gathered value and never the fill.

  Everything is stated for any record of dimension numbers with the fields of the form at hand and for any proofs of
  the shape side conditions, so the statements apply to whatever terms of these forms a program carries.
-/
import Idealize.ShloMosaic.Lib.StableHlo.Predicate
import Idealize.ShloMosaic.Lib.ValueIdx
import proofs.«412138_j37194416783750_3_alg».proof.Proof.LibGather
import proofs.«412138_j37194416783750_3_alg».proof.Proof.LibAndReduce
import proofs.«412138_j37194416783750_3_alg».proof.Proof.PreFacts
import proofs.«412138_j37194416783750_3_alg».proof.Proof.Spec

namespace Cert.GatherFacts

open Idealize.ShloMosaic Idealize.ShloMosaic.ValueIdx

local notation "S_" => (⟨0, ![]⟩ : Shape)
local notation "S1" => (⟨1, ![1]⟩ : Shape)
local notation "S1x1" => (⟨2, ![1, 1]⟩ : Shape)
local notation "S2048" => (⟨1, ![2048]⟩ : Shape)
local notation "S2048x1" => (⟨2, ![2048, 1]⟩ : Shape)
local notation "S16384" => (⟨1, ![16384]⟩ : Shape)
local notation "S16384x64" => (⟨2, ![16384, 64]⟩ : Shape)
local notation "S2048x64" => (⟨2, ![2048, 64]⟩ : Shape)
local notation "S16384x4096" => (⟨2, ![16384, 4096]⟩ : Shape)
local notation "S16384x2048" => (⟨2, ![16384, 2048]⟩ : Shape)

/-! ## Two spellings of an index, and a column read -/

/-- The rank-1 index at a coordinate, in its two spellings. -/
private theorem ofFin_eq_ix1 {n : Nat} (k : Fin n) : Shape.Idx.ofFin k = ix1 k := by
  funext a
  match a with
  | ⟨0, _⟩ => rfl

/-- Row p of an [n, 1] column, in its two spellings. -/
private theorem ixP_eq_ix2 {n : Nat} (p : Fin n) : StableHlo.Predicate.ixP p = ix2 p (0 : Fin 1) := by
  funext a
  match a with
  | ⟨0, _⟩ => rfl
  | ⟨1, _⟩ => rfl

/-- A vector laid as an [n, 1] column reads, at (p, 0), the vector at p. -/
private theorem col1_read {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  rw [← ixP_eq_ix2, ← ofFin_eq_ix1]
  exact StableHlo.Predicate.bcast_col1 h v p

/-! ## The wrap -/

/-- The wrap of negative positions, "x + N where x < 0, else x", is x when every word of x has its top bit clear. -/
theorem wrap_eq (hb0 : (S_).BroadcastsInDim S2048 ![]) (N : BitVec 32) (x : IVec S2048 32)
    (hx : ∀ j, (x j).toNat < 2 ^ 31) :
    select (cmpi .slt x (broadcastInDim S2048 ![] hb0 (constantI S_ 32 0#32)))
      (addi x (broadcastInDim S2048 ![] hb0 (constantI S_ 32 N))) x = x := by
  funext j
  exact Cert.CFPre.wrap_word (x j) N (hx j)

/-! ## The two gathers -/

/-- The row gather of E at the wrapped user words, laid as a column, is Uof: row (ui b) of E at result row b, when every
    user word is below 16384. -/
theorem rows_eq_Uof (d : GatherDims S16384x64 S2048x1 S2048x64)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, 64])
    (hb0 : (S_).BroadcastsInDim S2048 ![]) (hb1 : (S2048).BroadcastsInDim S2048x1 ![0])
    (E : (S16384x64).Idx → EReal) (ui : IVec S2048 32) (hu : ∀ j, (ui j).toNat < 16384) :
    Host.gather d E (broadcastInDim S2048x1 ![0] hb1
      (select (cmpi .slt ui (broadcastInDim S2048 ![] hb0 (constantI S_ 32 0#32)))
        (addi ui (broadcastInDim S2048 ![] hb0 (constantI S_ 32 16384#32))) ui)) = Cert.CF.Uof E ui := by
  rw [wrap_eq hb0 16384#32 ui (fun j => by have := hu j; omega)]
  funext j
  obtain ⟨b, c, rfl⟩ : ∃ (b : Fin 2048) (c : Fin 64), j = ix2 b c := ⟨j 0, j 1, eq_ix2 j⟩
  have hr := col1_read hb1 ui b
  have hlt : (broadcastInDim S2048x1 ![0] hb1 ui (ix2 b (0 : Fin 1))).toNat < 16384 := by rw [hr]; exact hu _
  rw [Cert.LibGather.gather_rows_apply d h1 h2 h3 h4 h5 h6 h7 E _ b c (by decide) hlt]
  refine congrArg E (congrArg (fun r => ix2 r c) (Fin.ext ?_))
  show (broadcastInDim S2048x1 ![0] hb1 ui (ix2 b (0 : Fin 1))).toNat = (ui (ix1 b)).toNat % 16384
  rw [hr, Nat.mod_eq_of_lt (hu _)]

/-- The column gather of R at the wrapped item words, laid as a column, is Cof: column (ii b) of R at result column b,
    when every item word is below 4096. -/
theorem cols_eq_Cof (d : GatherDims S16384x4096 S2048x1 S16384x2048)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![16384, 1])
    (hb0 : (S_).BroadcastsInDim S2048 ![]) (hb1 : (S2048).BroadcastsInDim S2048x1 ![0])
    (R : (S16384x4096).Idx → EReal) (ii : IVec S2048 32) (hi : ∀ j, (ii j).toNat < 4096) :
    Host.gather d R (broadcastInDim S2048x1 ![0] hb1
      (select (cmpi .slt ii (broadcastInDim S2048 ![] hb0 (constantI S_ 32 0#32)))
        (addi ii (broadcastInDim S2048 ![] hb0 (constantI S_ 32 4096#32))) ii)) = Cert.CF.Cof R ii := by
  rw [wrap_eq hb0 4096#32 ii (fun j => by have := hi j; omega)]
  funext j
  obtain ⟨n, b, rfl⟩ : ∃ (n : Fin 16384) (b : Fin 2048), j = ix2 n b := ⟨j 0, j 1, eq_ix2 j⟩
  have hr := col1_read hb1 ii b
  have hlt : (broadcastInDim S2048x1 ![0] hb1 ii (ix2 b (0 : Fin 1))).toNat < 4096 := by rw [hr]; exact hi _
  rw [Cert.LibGather.gather_cols_apply d h1 h2 h3 h4 h5 h6 h7 R _ n b (by decide) hlt]
  refine congrArg R (congrArg (fun r => ix2 n r) (Fin.ext ?_))
  show (broadcastInDim S2048x1 ![0] hb1 ii (ix2 b (0 : Fin 1))).toNat = (ii (ix1 b)).toNat % 4096
  rw [hr, Nat.mod_eq_of_lt (hi _)]

/-! ## The fill mask of a take -/

/-- The range test of a take in fill mode over 4096 entries, and-reduced along the component axis and broadcast along
    the rows, is 1 everywhere when every item word is below 4096. -/
theorem take_mask_one
    (hb0 : (S_).BroadcastsInDim S2048 ![]) (hb1 : (S2048).BroadcastsInDim S2048x1 ![0])
    (hb2 : (S2048).BroadcastsInDim S16384x2048 ![1]) (hb3 : (S_).BroadcastsInDim S2048x1 ![])
    (hb4 : (S1x1).BroadcastsInDim S2048x1 ![0, 1]) (hb5 : (S1).BroadcastsInDim S1x1 ![1])
    (hred : (S2048x1).ReducesTo [1] S2048) (hpos : 0 < (S_).numel)
    (ii : IVec S2048 32) (hi : ∀ j, (ii j).toNat < 4096) :
    broadcastInDim S16384x2048 ![1] hb2
      (Host.reduce IntOp.andi
        (andi
          (cmpi .sge
            (broadcastInDim S2048x1 ![0] hb1
              (select (cmpi .slt ii (broadcastInDim S2048 ![] hb0 (constantI S_ 32 0#32)))
                (addi ii (broadcastInDim S2048 ![] hb0 (constantI S_ 32 4096#32))) ii))
            (broadcastInDim S2048x1 ![] hb3 (constantI S_ 32 0#32)))
          (cmpi .sle
            (broadcastInDim S2048x1 ![0] hb1
              (select (cmpi .slt ii (broadcastInDim S2048 ![] hb0 (constantI S_ 32 0#32)))
                (addi ii (broadcastInDim S2048 ![] hb0 (constantI S_ 32 4096#32))) ii))
            (broadcastInDim S2048x1 ![0, 1] hb4 (broadcastInDim S1x1 ![1] hb5 (constantI S1 32 4095#32)))))
        (constantI S_ 1 1#1) hred hpos) = fun _ => 1#1 := by
  rw [wrap_eq hb0 4096#32 ii (fun j => by have := hi j; omega)]
  funext j
  refine Cert.LibAndReduce.reduce_andi_one _ _ hred hpos (fun i => ?_) (fun _ => rfl) _
  exact Cert.CFPre.inb_word _ (hi _)

/-- A select on that mask keeps its first branch: the take never fills. -/
theorem take_fill_eq {α : Type}
    (hb0 : (S_).BroadcastsInDim S2048 ![]) (hb1 : (S2048).BroadcastsInDim S2048x1 ![0])
    (hb2 : (S2048).BroadcastsInDim S16384x2048 ![1]) (hb3 : (S_).BroadcastsInDim S2048x1 ![])
    (hb4 : (S1x1).BroadcastsInDim S2048x1 ![0, 1]) (hb5 : (S1).BroadcastsInDim S1x1 ![1])
    (hred : (S2048x1).ReducesTo [1] S2048) (hpos : 0 < (S_).numel)
    (ii : IVec S2048 32) (hi : ∀ j, (ii j).toNat < 4096) (A B : (S16384x2048).Idx → α) :
    select
      (broadcastInDim S16384x2048 ![1] hb2
        (Host.reduce IntOp.andi
          (andi
            (cmpi .sge
              (broadcastInDim S2048x1 ![0] hb1
                (select (cmpi .slt ii (broadcastInDim S2048 ![] hb0 (constantI S_ 32 0#32)))
                  (addi ii (broadcastInDim S2048 ![] hb0 (constantI S_ 32 4096#32))) ii))
              (broadcastInDim S2048x1 ![] hb3 (constantI S_ 32 0#32)))
            (cmpi .sle
              (broadcastInDim S2048x1 ![0] hb1
                (select (cmpi .slt ii (broadcastInDim S2048 ![] hb0 (constantI S_ 32 0#32)))
                  (addi ii (broadcastInDim S2048 ![] hb0 (constantI S_ 32 4096#32))) ii))
              (broadcastInDim S2048x1 ![0, 1] hb4 (broadcastInDim S1x1 ![1] hb5 (constantI S1 32 4095#32)))))
          (constantI S_ 1 1#1) hred hpos)) A B = A := by
  rw [take_mask_one hb0 hb1 hb2 hb3 hb4 hb5 hred hpos ii hi]
  funext j
  exact select_one (A j) (B j)

/-! ## The 1-D take -/

/-- The take of a [16384] vector at the wrapped user words, laid as a column, reads entry (ui b) at position b, when every
    user word is below 16384. -/
theorem take1_apply {α : Type} (d1 : GatherDims S16384 S2048x1 S2048)
    (g1 : d1.offsetDims = []) (g2 : d1.collapsedSliceDims = [0]) (g3 : d1.operandBatchingDims = [])
    (g4 : d1.startIndicesBatchingDims = []) (g5 : d1.startIndexMap = [0]) (g6 : d1.indexVectorDim = 1)
    (g7 : d1.sliceSizes = ![1])
    (hb0 : (S_).BroadcastsInDim S2048 ![]) (hb1 : (S2048).BroadcastsInDim S2048x1 ![0])
    (x : (S16384).Idx → α) (ui : IVec S2048 32) (hu : ∀ j, (ui j).toNat < 16384) (b : Fin 2048) :
    Host.gather d1 x (broadcastInDim S2048x1 ![0] hb1
      (select (cmpi .slt ui (broadcastInDim S2048 ![] hb0 (constantI S_ 32 0#32)))
        (addi ui (broadcastInDim S2048 ![] hb0 (constantI S_ 32 16384#32))) ui)) (ix1 b)
      = x (ix1 ⟨(ui (ix1 b)).toNat, hu _⟩) := by
  rw [wrap_eq hb0 16384#32 ui (fun j => by have := hu j; omega)]
  have key := StableHlo.Predicate.gather_take d1 g2 g3 g5 g6 x (broadcastInDim S2048x1 ![0] hb1 ui) b (by decide)
  rw [ofFin_eq_ix1 b] at key
  rw [key, ofFin_eq_ix1]
  refine congrArg x (congrArg ix1 (Fin.ext ?_))
  show min (broadcastInDim S2048x1 ![0] hb1 ui (StableHlo.Predicate.ixP b)).toInt.toNat (16384 - 1) = (ui (ix1 b)).toNat
  have hb := hu (ix1 b)
  rw [ixP_eq_ix2, col1_read hb1 ui b, Cert.CFPre.toInt_toNat_of_lt _ (by omega)]
  exact Nat.min_eq_left (by omega)

end Cert.GatherFacts
-- ==== Proof.KValue.lean ====
/-
  The kernel's run, read. When every user word names a user and every item word names an item, the arrays the region finds are: the
  ratings and the embeddings as launched; the query embeddings, rows (ui b) of the embeddings; the ratings at the queries' items, columns
  (ii b) of the ratings (the take's bounds test passes everywhere, so it never fills); the query norms, the norms of those rows; the raw
  user words. So the three outputs summed over the tiles are the specification's numerator, denominator and own average, and the host
  operations after the region make the specification's prediction of them.
-/
import proofs.«412138_j37194416783750_3_alg».proof.Proof.KJoin
import proofs.«412138_j37194416783750_3_alg».proof.Proof.KHost
import proofs.«412138_j37194416783750_3_alg».proof.Proof.KTail
import proofs.«412138_j37194416783750_3_alg».proof.Proof.GatherFacts

noncomputable section

namespace Cert.CFK

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ) (ρ : Dev nD → PrngReg) (c : Dev nD)

/-- The four arguments on core c. -/
abbrev argR : S16384x4096.Idx → EReal := m ((c.tc : Thread nD τ).loc main_arg0)
abbrev argE : S16384x64.Idx → EReal := m ((c.tc : Thread nD τ).loc main_arg1)
abbrev argU : S2048.Idx → BitVec 32 := m ((c.tc : Thread nD τ).loc main_arg2)
abbrev argI : S2048.Idx → BitVec 32 := m ((c.tc : Thread nD τ).loc main_arg3)

/-- The kernel's result on core c, as the specification states it. -/
def result : S2048.Idx → EReal :=
  fun j => Cert.CF.out (argR m c) (argE m c) (Cert.CF.Uof (argE m c) (argU m c)) (Cert.CF.Cof (argR m c) (argI m c)) (argU m c) (j 0)

section Ranges

variable (hu : ∀ j, (argU m c j).toNat < 16384) (hi : ∀ j, (argI m c j).toNat < 4096)

theorem Rk_eq : Rk m c = argR m c := V_main_arg0 m c
theorem Ek_eq : Ek m c = argE m c := V_main_arg1 m c

include hu in
theorem Uk_eq : Uk m c = Cert.CF.Uof (argE m c) (argU m c) := by
  show V m c main_v6 = _
  rw [V_v6]
  exact Cert.GatherFacts.rows_eq_Uof _ rfl rfl rfl rfl rfl rfl rfl bcast_S_S2048 bcast_S2048_S2048x1_0 (argE m c) (argU m c) hu

include hi in
theorem Ck_eq : Ck m c = Cert.CF.Cof (argR m c) (argI m c) := by
  show V m c main_v12 = _
  rw [V_v12, Cert.GatherFacts.take_fill_eq bcast_S_S2048 bcast_S2048_S2048x1_0 bcast_S2048_S16384x2048_1 bcast_S_S2048x1
    bcast_S1x1_S2048x1_0_1 bcast_S1_S1x1_1 reducesTo_S2048x1_S2048_d1 h_S_ (argI m c) hi]
  exact Cert.GatherFacts.cols_eq_Cof _ rfl rfl rfl rfl rfl rfl rfl bcast_S_S2048 bcast_S2048_S2048x1_0 (argR m c) (argI m c) hi

include hu in
theorem Nk_eq (b : Fin 2048) : Nk m c (ix2 0 b) = Cert.CF.normU (Cert.CF.Uof (argE m c) (argU m c)) b := by
  show V m c main_v10 (ix2 0 b) = _
  rw [V_v10_apply, ← Uk_eq m c hu]
  rfl

theorem uk_eq (b : Fin 2048) : uk m c (ix2 0 b) = argU m c (ix1 b) := V_v11_apply m c b

include hu hi in
/-- What the host operations after the region leave in the result buffer. -/
theorem tail_eq : Pipeline.afterTail₀ cfgs (dats m) 0 (V0 m) [hostOps1, hostOps1_1, hostOps1_2, hostOps1_3] c main_v27 = result m c := by
  funext j
  obtain ⟨b, rfl⟩ : ∃ b : Fin 2048, j = ix1 b := ⟨j 0, eq_ix1 j⟩
  rw [tail_apply m c (G6 m c) (G7 m c) (G8 m c) (final6 m c) (final7 m c) (final8 m c) b]
  exact out_eq m c (argR m c) (argE m c) (Cert.CF.Uof (argE m c) (argU m c)) (Cert.CF.Cof (argR m c) (argI m c)) (argU m c)
    (Rk_eq m c) (Ek_eq m c) (Uk_eq m c hu) (Ck_eq m c hi) (Nk_eq m c hu) (uk_eq m c) b

end Ranges

/-- The kernel's run: it terminates, its result buffer holds the specification's prediction, its arguments are unchanged. -/
theorem run_value (hr : ∀ c : Dev nD, (∀ j, (argU m c j).toNat < 16384) ∧ (∀ j, (argI m c j).toNat < 4096)) :
    θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v27 (Pipeline.mem_restRefs_of main_v27 (by decide) (by decide))).trans (tail_eq m c (hr c).1 (hr c).2),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.CFK

end
-- ==== Proof.RefSide.lean ====
/-
  The reference program, read index by index on the extended reals, computes the specification's prediction.

  On the extended reals no value differs from itself, so the reference's "is a number" tests are all true: every row of
  the rating matrix counts 4096 valid entries, the zero-filled ratings are the ratings themselves, and a user's average is
  the row sum divided by 4096. At a query b and a user n the reference's cosine similarity is the specification's (the
  inner product up to the order of its factors, the two norms, the same ε); its mask is "user n is not query b's own
  user", tested on the words themselves; its masked difference and masked similarity are the specification's. The
  numerator and the denominator are the two sums over all users, and the last selection is the specification's last step.
  The three gathers (the query embeddings, the ratings at the queries' items, the query users' own averages) stay as the
  reference makes them.
-/
import proofs.«412138_j37194416783750_3_alg».proof.Proof.RefRead
import proofs.«412138_j37194416783750_3_alg».proof.Proof.Spec
import Idealize.ShloMosaic.Lib.StableHlo.Predicate
import Idealize.ShloMosaic.PureOps.Ideal.Laws
import Idealize.ShloMosaic.Lib.ValueIdx
import Idealize.ShloMosaic.Lib.IdealHost
import Mathlib.Data.EReal.Basic
import Mathlib.Algebra.BigOperators.Group.Finset.Basic

noncomputable section

namespace Cert.CFRef

open Cert.ReferenceIdeal Cert.ReferenceIdeal.ReadP Cert.ReferenceIdeal.Gen Idealize.ShloMosaic Idealize.ShloMosaic.ValueIdx

/-! ## Words, bits and literals -/

/-- On the extended reals no value differs from itself. -/
private theorem cmp_une_self (x : EReal) : Ideal.cmp .une x x = 0#1 := by
  unfold Ideal.cmp; simp

private theorem not_zero_bit : ~~~(0#1 : BitVec 1) = 1#1 := by decide

/-- A selection on a set bit takes the first branch. -/
private theorem select_one {α : Type} (a b : α) : Scalar.select (1#1) a b = a := by
  unfold Scalar.select; exact if_pos (by decide)

/-- The larger of the words 4096 and 1 is 4096, and 4096 is positive. -/
private theorem maxsi_4096 : IntOp.maxsi (4096#32) (1#32) = 4096#32 := by decide
private theorem sgt_4096 : IntOp.cmpi .sgt (4096#32) (0#32) = 1#1 := by decide

/-- The word 4096 converts to the real 4096. -/
private theorem sitofp_4096 : FloatOps.sitofp (F := Ideal) .f32 (4096#32) = (4096 : EReal) := by
  show (((4096#32 : BitVec 32).toInt : ℝ) : EReal) = 4096
  have h : (4096#32 : BitVec 32).toInt = 4096 := by decide
  rw [h]
  norm_cast

/-- "Valid and not the same word" is set exactly when the two words differ. -/
private theorem mask_bit (w u : BitVec 32) : IntOp.andi (~~~(0#1 : BitVec 1)) (IntOp.cmpi .ne w u) = 1 ↔ w ≠ u := by
  rw [not_zero_bit]
  show 1#1 &&& BitVec.ofBool (w != u) = 1 ↔ w ≠ u
  by_cases h : w = u
  · subst h; simp
  · have hb : (w != u) = true := by simpa [bne_iff_ne] using h
    rw [hb]
    exact ⟨fun _ => h, fun _ => by decide⟩

/-! ## The per-user average (stages 0 to 12) -/

section Avg
variable (R : (⟨S16384x4096, .f32⟩ : BufTy).Contents (Elt Ideal))

/-- Every entry of the rating matrix is valid. -/
private theorem valid_all (i : S16384x4096.Idx) : val_main_v1 (F := Ideal) R i = 1#1 := by
  rw [val_main_v1_apply, val_main_v0_apply, Ideal.cmpf_def, cmp_une_self]
  exact not_zero_bit

/-- The zero-filled ratings are the ratings. -/
private theorem filled_eq (i : S16384x4096.Idx) : val_main_v2 (F := Ideal) R i = R i := by
  rw [val_main_v2_apply, valid_all, select_one]

/-- Every row counts 4096 valid entries: the count of the set bits of an all-ones row of 4096 bits. -/
private theorem count_eq (i : S16384.Idx) : val_main_v4 (F := Ideal) R i = 4096#32 := by
  apply BitVec.eq_of_toNat_eq
  have h := StableHlo.Predicate.toNat_reduce_count_cols (n := 16384) (m := 4096) (by norm_num)
    (val_main_v1 (F := Ideal) R) natLt_1_32 reducesTo_S16384x4096_S16384_d1 h_S_ i
  refine h.trans ?_
  rw [Finset.filter_true_of_mem (fun q _ => valid_all R _), Finset.card_univ, Fintype.card_fin]
  rfl

/-- The count is positive. -/
private theorem count_pos (i : S16384.Idx) : val_main_v6 (F := Ideal) R i = 1#1 := by
  rw [val_main_v6_apply, count_eq, val_main_v5_apply, val_main_c_0_apply]
  exact sgt_4096

/-- The count, at least 1, as a real: 4096. -/
private theorem count_real (i : S16384.Idx) : val_main_v10 (F := Ideal) R i = (4096 : EReal) := by
  rw [val_main_v10_apply, val_main_v9_apply, count_eq, val_main_v8_apply, val_main_c_2_apply, maxsi_4096]
  exact sitofp_4096

/-- The reference's row sum is the specification's. -/
private theorem rowsum_eq (n : Fin 16384) : val_main_v7 (F := Ideal) R (ix1 n) = Cert.CF.rowSum R n := by
  rw [val_main_v7_apply, val_main_cst_1_apply, Ideal.ofBits_def, Ideal.ofBits_zero_f32, zero_add]
  unfold Cert.CF.rowSum
  refine Finset.sum_congr rfl fun k _ => ?_
  rw [filled_eq]
  exact congrArg R (funext fun a => by match a with | ⟨0, _⟩ => rfl | ⟨1, _⟩ => rfl)

/-- The reference's per-user average (stage main_v12, [16384]) is the specification's. -/
theorem ref_avg (n : Fin 16384) :
    val_main_v12 (F := Ideal) R (ix1 n) = Cert.CF.avg R n := by
  rw [val_main_v12_apply, count_pos, select_one, val_main_v11_apply, Ideal.hostDivf_def, rowsum_eq, count_real]
  rfl

/-- The average, broadcast over the queries, at query b and user n. -/
private theorem avg_bcast (b : Fin 2048) (n : Fin 16384) :
    val_main_v48 (F := Ideal) R (ix2 b n) = Cert.CF.avg R n := by
  rw [val_main_v48_apply, val_main_v47_apply]
  have e : idx_main_v47 (idx_main_v48 (ix2 b n)) = ix1 n :=
    funext fun a => by match a with | ⟨0, _⟩ => rfl
  rw [e, ref_avg]

end Avg

/-! ## The cosine similarity (stages 19 to 29) -/

section Sim
variable (E : (⟨S16384x64, .f32⟩ : BufTy).Contents (Elt Ideal)) (ui : (⟨S2048, .i32⟩ : BufTy).Contents (Elt Ideal))

/-- The norm of a query's embedding. -/
private theorem normU_eq (i : S2048x1.Idx) :
    val_main_v21 (F := Ideal) E ui i = Cert.CF.normU (val_main_v19 (F := Ideal) E ui) (i 0) := by
  rw [val_main_v21_apply, Ideal.hostUnary_sqrt_def, val_main_call2_v2_apply, val_main_call2_v1_apply,
    val_main_call2_cst_apply, Ideal.ofBits_def, Ideal.ofBits_zero_f32, zero_add]
  unfold Cert.CF.normU
  refine congrArg Ideal.sqrt (Finset.sum_congr rfl fun k _ => ?_)
  rw [val_main_call2_v0_apply, Ideal.mulf_def]
  have e : idx_main_call2_v1 (idx_main_call2_v2 i) k = ix2 (i 0) k :=
    funext fun a => by match a with | ⟨0, _⟩ => rfl | ⟨1, _⟩ => rfl
  rw [e]
  rfl

/-- The norm of a user's embedding. -/
private theorem normE_eq (i : S16384.Idx) :
    val_main_v22 (F := Ideal) E i = Cert.CF.normE E (i 0) := by
  rw [val_main_v22_apply, Ideal.hostUnary_sqrt_def, val_main_call3_v1_apply, val_main_call3_cst_apply,
    Ideal.ofBits_def, Ideal.ofBits_zero_f32, zero_add]
  unfold Cert.CF.normE
  refine congrArg Ideal.sqrt (Finset.sum_congr rfl fun k _ => ?_)
  rw [val_main_call3_v0_apply, Ideal.mulf_def]
  have e : idx_main_call3_v1 i k = ix2 (i 0) k :=
    funext fun a => by match a with | ⟨0, _⟩ => rfl | ⟨1, _⟩ => rfl
  rw [e]
  rfl

/-- The inner product of query b's embedding with user n's: the specification's, its factors in the other order. -/
private theorem dot_eq (b : Fin 2048) (n : Fin 16384) :
    val_main_v20 (F := Ideal) E ui (ix2 b n) = Cert.CF.dot E (val_main_v19 (F := Ideal) E ui) n b := by
  rw [val_main_v20_apply]
  unfold Cert.CF.dot
  refine Finset.sum_congr rfl fun k _ => ?_
  have el : lidx_main_v20 (ix2 b n) k = ix2 b k :=
    funext fun a => by match a with | ⟨0, _⟩ => rfl | ⟨1, _⟩ => rfl
  have er : ridx_main_v20 (ix2 b n) k = ix2 n k :=
    funext fun a => by match a with | ⟨0, _⟩ => rfl | ⟨1, _⟩ => rfl
  rw [el, er]
  exact mul_comm _ _

/-- The reference's similarity of user n to query b is the specification's. -/
private theorem sim_eq (b : Fin 2048) (n : Fin 16384) :
    val_main_v29 (F := Ideal) E ui (ix2 b n) = Cert.CF.sim E (val_main_v19 (F := Ideal) E ui) n b := by
  rw [val_main_v29_apply, Ideal.hostDivf_def, dot_eq, val_main_v28_apply, Ideal.addf_def, val_main_v26_apply,
    Ideal.mulf_def, val_main_v24_apply, normU_eq, val_main_v25_apply, val_main_v23_apply, normE_eq,
    val_main_v27_apply, val_main_cst_6_apply, Ideal.ofBits_def]
  rfl

end Sim

/-! ## The mask, the masked difference and the masked similarity (stages 36 to 51) -/

section Mask
variable (R : (⟨S16384x4096, .f32⟩ : BufTy).Contents (Elt Ideal)) (E : (⟨S16384x64, .f32⟩ : BufTy).Contents (Elt Ideal))
  (ui ii : (⟨S2048, .i32⟩ : BufTy).Contents (Elt Ideal))

/-- The mask at query b and user n is set exactly when n is not the query's own user. -/
private theorem mask_iff (b : Fin 2048) (n : Fin 16384) :
    val_main_v46 (F := Ideal) R ui ii (ix2 b n) = 1 ↔ ¬ Cert.CF.isSelf ui n b := by
  rw [val_main_v46_apply, val_main_v39_apply, val_main_v38_apply, Ideal.cmpf_def, cmp_une_self, val_main_v45_apply,
    val_main_v43_apply, val_main_v41_apply, val_main_v40_apply, val_main_v44_apply, val_main_v42_apply]
  have e : idx_main_v42 (idx_main_v44 (ix2 b n)) = ix1 b :=
    funext fun a => by match a with | ⟨0, _⟩ => rfl
  rw [e]
  exact mask_bit _ _

/-- A selection on the mask is the specification's case split on "n is the query's own user". -/
private theorem sel_mask {α : Type} (b : Fin 2048) (n : Fin 16384) (x z : α) :
    Scalar.select (val_main_v46 (F := Ideal) R ui ii (ix2 b n)) x z = if Cert.CF.isSelf ui n b then z else x := by
  unfold Scalar.select
  by_cases h : Cert.CF.isSelf ui n b
  · rw [if_neg (fun hc => (mask_iff R ui ii b n).1 hc h), if_pos h]
  · rw [if_pos ((mask_iff R ui ii b n).2 h), if_neg h]

/-- The masked rating difference. -/
private theorem dif_eq (b : Fin 2048) (n : Fin 16384) :
    val_main_v50 (F := Ideal) R ui ii (ix2 b n) = Cert.CF.dif R (val_main_v36 (F := Ideal) R ii) ui n b := by
  rw [val_main_v50_apply, sel_mask, val_main_v49_apply, Ideal.subf_def, val_main_v37_apply, avg_bcast,
    val_main_call4_v1_apply, val_main_call4_v0_apply, val_main_cst_9_apply, Ideal.ofBits_def, Ideal.ofBits_zero_f32]
  have e : idx_main_v37 (ix2 b n) = ix2 n b :=
    funext fun a => by match a with | ⟨0, _⟩ => rfl | ⟨1, _⟩ => rfl
  rw [e]
  rfl

/-- The masked similarity. -/
private theorem sm_eq (b : Fin 2048) (n : Fin 16384) :
    val_main_v51 (F := Ideal) R E ui ii (ix2 b n) = Cert.CF.sm E (val_main_v19 (F := Ideal) E ui) ui n b := by
  rw [val_main_v51_apply, sel_mask, sim_eq, val_main_call5_v1_apply, val_main_call5_v0_apply, val_main_cst_10_apply,
    Ideal.ofBits_def, Ideal.ofBits_zero_f32]
  rfl

/-! ## The two sums over all users and the last step (stages 52 to 70) -/

/-- The numerator. -/
private theorem num_eq (b : Fin 2048) :
    val_main_v53 (F := Ideal) R E ui ii (ix1 b)
      = Cert.CF.num R E (val_main_v19 (F := Ideal) E ui) (val_main_v36 (F := Ideal) R ii) ui b := by
  rw [val_main_v53_apply, val_main_cst_11_apply, Ideal.ofBits_def, Ideal.ofBits_zero_f32, zero_add]
  unfold Cert.CF.num
  refine Finset.sum_congr rfl fun n _ => ?_
  have e : idx_main_v53 (ix1 b) n = ix2 b n :=
    funext fun a => by match a with | ⟨0, _⟩ => rfl | ⟨1, _⟩ => rfl
  rw [e, val_main_v52_apply, Ideal.mulf_def, dif_eq, sm_eq]

/-- The denominator. -/
private theorem den_eq (b : Fin 2048) :
    val_main_v55 (F := Ideal) R E ui ii (ix1 b) = Cert.CF.den E (val_main_v19 (F := Ideal) E ui) ui b := by
  rw [val_main_v55_apply, val_main_cst_12_apply, Ideal.ofBits_def, Ideal.ofBits_zero_f32, zero_add]
  unfold Cert.CF.den
  refine Finset.sum_congr rfl fun n _ => ?_
  have e : idx_main_v55 (ix1 b) n = ix2 b n :=
    funext fun a => by match a with | ⟨0, _⟩ => rfl | ⟨1, _⟩ => rfl
  rw [e, val_main_v54_apply, Ideal.hostAbsf_def, Ideal.absf_def, sm_eq]

/-- The reference's result at query j, over its own gathered stages: U := val_main_v19 E ui (the query embeddings,
    [2048,64]), C := val_main_v36 R ii (the ratings at the queries' items, [16384,2048]) and its own gathered average
    val_main_v65 R ui j. -/
theorem ref_core (j : S2048.Idx) :
    val_main_v70 (F := Ideal) R E ui ii j
      = Cert.CF.outOf (Cert.CF.den E (val_main_v19 (F := Ideal) E ui) ui (j 0))
          (Cert.CF.num R E (val_main_v19 (F := Ideal) E ui) (val_main_v36 (F := Ideal) R ii) ui (j 0))
          (val_main_v65 (F := Ideal) R ui j) := by
  obtain ⟨b, rfl⟩ : ∃ b : Fin 2048, j = ix1 b := ⟨j 0, eq_ix1 j⟩
  rw [val_main_v70_apply, val_main_v67_apply, Ideal.cmpf_def, den_eq, val_main_v66_apply, val_main_cst_17_apply,
    Ideal.ofBits_def, Ideal.ofBits_zero_f32, val_main_v69_apply, Ideal.addf_def, val_main_v68_apply,
    Ideal.hostDivf_def, num_eq, val_main_v58_apply, val_main_v57_apply, Ideal.cmpf_def, den_eq, val_main_v56_apply,
    val_main_cst_13_apply, Ideal.ofBits_def, Ideal.ofBits_zero_f32, val_main_call6_v1_apply, val_main_call6_v0_apply,
    val_main_cst_14_apply, Ideal.ofBits_def, Ideal.ofBits_one_f32]
  rfl

end Mask

end Cert.CFRef

end
-- ==== Proof.RefJoin.lean ====
/-
  The reference's result is the specification's prediction. When every user word names a user and every item word names an item, the
  reference's three gathers read what the specification says: the query embeddings are rows (ui b) of E, the ratings at the queries'
  items are columns (ii b) of R, and the gathered own average of query b is the average of user (ui b), which is also the sum over all
  users of "the average if own, else 0".
-/
import proofs.«412138_j37194416783750_3_alg».proof.Proof.RefSide
import proofs.«412138_j37194416783750_3_alg».proof.Proof.GatherFacts

noncomputable section

namespace Cert.CFRef

open Cert.ReferenceIdeal Cert.ReferenceIdeal.ReadP Cert.ReferenceIdeal.Gen Idealize.ShloMosaic Idealize.ShloMosaic.ValueIdx

variable (R : (⟨S16384x4096, .f32⟩ : BufTy).Contents (Elt Ideal)) (E : (⟨S16384x64, .f32⟩ : BufTy).Contents (Elt Ideal))
  (ui ii : (⟨S2048, .i32⟩ : BufTy).Contents (Elt Ideal))

/-- The query embeddings the reference gathers. -/
theorem ref_U (hu : ∀ j, (ui j).toNat < 16384) : val_main_v19 (F := Ideal) E ui = Cert.CF.Uof E ui := by
  unfold val_main_v19 val_main_v18 val_main_v17 val_main_v14 val_main_v16 val_main_v13 val_main_v15 val_main_c_4 val_main_c_5
  exact Cert.GatherFacts.rows_eq_Uof _ rfl rfl rfl rfl rfl rfl rfl bcast_S_S2048 bcast_S2048_S2048x1_0 E ui hu

/-- The ratings at the queries' items the reference gathers. -/
theorem ref_C (hi : ∀ j, (ii j).toNat < 4096) : val_main_v36 (F := Ideal) R ii = Cert.CF.Cof R ii := by
  unfold val_main_v36 val_main_v35 val_main_v34 val_main_v31 val_main_v33 val_main_v30 val_main_v32 val_main_c_7 val_main_c_8
  exact Cert.GatherFacts.cols_eq_Cof _ rfl rfl rfl rfl rfl rfl rfl bcast_S_S2048 bcast_S2048_S2048x1_0 R ii hi

/-- The own average the reference gathers is the specification's sum form. -/
theorem ref_own (hu : ∀ j, (ui j).toNat < 16384) (b : Fin 2048) :
    val_main_v65 (F := Ideal) R ui (ix1 b) = Cert.CF.avgSelf R ui b := by
  unfold val_main_v65 val_main_v64 val_main_v63 val_main_v60 val_main_v62 val_main_v59 val_main_v61 val_main_c_15 val_main_c_16
  rw [Cert.GatherFacts.take1_apply _ rfl rfl rfl rfl rfl rfl rfl bcast_S_S2048 bcast_S2048_S2048x1_0 _ ui hu b, ref_avg,
    Cert.CF.avgSelf_eq R ui b (hu _)]

/-- The reference's result at query j. -/
theorem ref_out (hu : ∀ j, (ui j).toNat < 16384) (hi : ∀ j, (ii j).toNat < 4096) (j : S2048.Idx) :
    val_main_v70 (F := Ideal) R E ui ii j = Cert.CF.out R E (Cert.CF.Uof E ui) (Cert.CF.Cof R ii) ui (j 0) := by
  obtain ⟨b, rfl⟩ : ∃ b : Fin 2048, j = ix1 b := ⟨j 0, eq_ix1 j⟩
  rw [ref_core, ref_U E ui hu, ref_C R ii hi, ref_own R ui hu b]
  rfl

end Cert.CFRef

end
-- ==== Proof.RefRunHand.lean ====
/-
  The reference program's run, read stage by stage.

  The reference's @main is a straight line of 108 host operations in static single assignment. Its run from a memory m
  leaves in each buffer the fold of the operations' results over the launch contents. That fold is computed here in five
  stretches: the list of operations is the concatenation A ++ B ++ C ++ D ++ E, the fold over a concatenation is the fold
  over the second part from the fold over the first, and after each stretch only a few buffers are read again:

    A  (%0 – %12)   the per-user average main_v12;
    B  (%13 – %29)  the similarity main_v29;
    C  (%30 – %46)  the gathered ratings column, transposed, main_v37, and the mask main_v46;
    D  (%47 – %58)  the numerator main_v53, the denominator main_v55, the safe denominator main_v58;
    E  (%59 – %70)  the result main_v70.

  For each stretch, from ANY contents W before it, the buffers it leaves for later are the stage functions
  (one small definition per operation, each the operation applied to the earlier stages) of what W holds in the buffers
  the stretch reads, and the buffers of earlier stretches that are read later are untouched. Chaining the five gives
  main_v70 = val_main_v70 of the four arguments' launch contents; no operation writes an argument.

  In the stretches the operations of called functions are written with the plain builders at the literal references
  (the typed-reference builders are these, the transport along the reference's type being the identity at a literal);
  the concatenation is the program's own list by computation.
-/
import proofs.«412138_j37194416783750_3_alg».proof.Proof.RefOps
import proofs.«412138_j37194416783750_3_alg».proof.Proof.RefRead
import Idealize.ShloMosaic.Lib.StableHlo.Run
import Idealize.ShloMosaic.Lib.Pipeline.Frame

noncomputable section

namespace Cert.CFRefRun

open Cert.ReferenceIdeal Cert.ReferenceIdeal.Gen Cert.ReferenceIdeal.Ops Cert.ReferenceIdeal.ReadP Idealize.ShloMosaic Idealize.ShloMosaic.TcCoe Idealize.SL.Sem Idealize.ShloMosaic.StableHlo

variable {F : FTy → Type} [FloatOps F]

/-! ## The five stretches -/

/-- Operations %0 to %12: the per-user average. -/
abbrev opsA : List (HloOp τ sig (Elt F)) :=
  [ binary main_arg0 main_arg0 main_v0 (cmpf .une : (⟨S16384x4096, .f32⟩ : BufTy).Contents (Elt F) → (⟨S16384x4096, .f32⟩ : BufTy).Contents (Elt F) → (⟨S16384x4096, .i1⟩ : BufTy).Contents (Elt F)),
    unary main_v0 main_v1 (noti : (⟨S16384x4096, .i1⟩ : BufTy).Contents (Elt F) → (⟨S16384x4096, .i1⟩ : BufTy).Contents (Elt F)),
    nullary main_cst (constant S_ .f32 0x00000000#32),
    unary main_cst main_call0_v0 (id : (⟨S_, .f32⟩ : BufTy).Contents (Elt F) → (⟨S_, .f32⟩ : BufTy).Contents (Elt F)),
    unary main_call0_v0 main_call0_v1 (broadcastInDim S16384x4096 ![] bcast_S_S16384x4096 : (⟨S_, .f32⟩ : BufTy).Contents (Elt F) → (⟨S16384x4096, .f32⟩ : BufTy).Contents (Elt F)),
    ternary main_v1 main_arg0 main_call0_v1 main_v2 (select : (⟨S16384x4096, .i1⟩ : BufTy).Contents (Elt F) → (⟨S16384x4096, .f32⟩ : BufTy).Contents (Elt F) → (⟨S16384x4096, .f32⟩ : BufTy).Contents (Elt F) → (⟨S16384x4096, .f32⟩ : BufTy).Contents (Elt F)),
    unary main_v1 main_v3 ((extui 32 · natLt_1_32) : (⟨S16384x4096, .i1⟩ : BufTy).Contents (Elt F) → (⟨S16384x4096, .i32⟩ : BufTy).Contents (Elt F)),
    nullary main_c (constantI S_ 32 0#32),
    binary main_v3 main_c main_v4 ((fun x v => Host.reduce IntOp.addi x v reducesTo_S16384x4096_S16384_d1 h_S_) : (⟨S16384x4096, .i32⟩ : BufTy).Contents (Elt F) → (⟨S_, .i32⟩ : BufTy).Contents (Elt F) → (⟨S16384, .i32⟩ : BufTy).Contents (Elt F)),
    nullary main_c_0 (constantI S_ 32 0#32),
    unary main_c_0 main_v5 (broadcastInDim S16384 ![] bcast_S_S16384 : (⟨S_, .i32⟩ : BufTy).Contents (Elt F) → (⟨S16384, .i32⟩ : BufTy).Contents (Elt F)),
    binary main_v4 main_v5 main_v6 (cmpi .sgt : (⟨S16384, .i32⟩ : BufTy).Contents (Elt F) → (⟨S16384, .i32⟩ : BufTy).Contents (Elt F) → (⟨S16384, .i1⟩ : BufTy).Contents (Elt F)),
    nullary main_cst_1 (constant S_ .f32 0x00000000#32),
    binary main_v2 main_cst_1 main_v7 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    nullary main_c_2 (constantI S_ 32 1#32),
    unary main_c_2 main_v8 (broadcastInDim S16384 ![] bcast_S_S16384 : (⟨S_, .i32⟩ : BufTy).Contents (Elt F) → (⟨S16384, .i32⟩ : BufTy).Contents (Elt F)),
    binary main_v4 main_v8 main_v9 (maxsi : (⟨S16384, .i32⟩ : BufTy).Contents (Elt F) → (⟨S16384, .i32⟩ : BufTy).Contents (Elt F) → (⟨S16384, .i32⟩ : BufTy).Contents (Elt F)),
    unary main_v9 main_v10 (sitofp .f32 : (⟨S16384, .i32⟩ : BufTy).Contents (Elt F) → (⟨S16384, .f32⟩ : BufTy).Contents (Elt F)),
    binary main_v7 main_v10 main_v11 (Host.divf : (⟨S16384, .f32⟩ : BufTy).Contents (Elt F) → (⟨S16384, .f32⟩ : BufTy).Contents (Elt F) → (⟨S16384, .f32⟩ : BufTy).Contents (Elt F)),
    nullary main_cst_3 (constant S_ .f32 0x00000000#32),
    unary main_cst_3 main_call1_v0 (id : (⟨S_, .f32⟩ : BufTy).Contents (Elt F) → (⟨S_, .f32⟩ : BufTy).Contents (Elt F)),
    unary main_call1_v0 main_call1_v1 (broadcastInDim S16384 ![] bcast_S_S16384 : (⟨S_, .f32⟩ : BufTy).Contents (Elt F) → (⟨S16384, .f32⟩ : BufTy).Contents (Elt F)),
    ternary main_v6 main_v11 main_call1_v1 main_v12 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)) ]

/-- Operations %13 to %29: the query embeddings gathered, the inner products, the two norms, the similarity. -/
abbrev opsB : List (HloOp τ sig (Elt F)) :=
  [ nullary main_c_4 (constantI S_ 32 0#32),
    unary main_c_4 main_v13 (broadcastInDim S2048 ![] bcast_S_S2048 : (⟨S_, .i32⟩ : BufTy).Contents (Elt F) → (⟨S2048, .i32⟩ : BufTy).Contents (Elt F)),
    binary main_arg2 main_v13 main_v14 (cmpi .slt : (⟨S2048, .i32⟩ : BufTy).Contents (Elt F) → (⟨S2048, .i32⟩ : BufTy).Contents (Elt F) → (⟨S2048, .i1⟩ : BufTy).Contents (Elt F)),
    nullary main_c_5 (constantI S_ 32 16384#32),
    unary main_c_5 main_v15 (broadcastInDim S2048 ![] bcast_S_S2048 : (⟨S_, .i32⟩ : BufTy).Contents (Elt F) → (⟨S2048, .i32⟩ : BufTy).Contents (Elt F)),
    binary main_arg2 main_v15 main_v16 (addi : (⟨S2048, .i32⟩ : BufTy).Contents (Elt F) → (⟨S2048, .i32⟩ : BufTy).Contents (Elt F) → (⟨S2048, .i32⟩ : BufTy).Contents (Elt F)),
    ternary main_v14 main_v16 main_arg2 main_v17 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v17 main_v18 (broadcastInDim S2048x1 ![0] bcast_S2048_S2048x1_0 : (⟨S2048, .i32⟩ : BufTy).Contents (Elt F) → (⟨S2048x1, .i32⟩ : BufTy).Contents (Elt F)),
    binary main_arg1 main_v18 main_v19 ((fun x i => Host.gather gather_S16384x64_S2048x1_S2048x64_1_0_n_n_0_1_164 x i) : (⟨S16384x64, .f32⟩ : BufTy).Contents (Elt F) → (⟨S2048x1, .i32⟩ : BufTy).Contents (Elt F) → (⟨S2048x64, .f32⟩ : BufTy).Contents (Elt F)),
    binary main_v19 main_arg1 main_v20 ((fun l r => Host.dotGeneral dot_S2048x64_S16384x64_S2048x16384_1_1_0_0_n_n none l r) : (⟨S2048x64, .f32⟩ : BufTy).Contents (Elt F) → (⟨S16384x64, .f32⟩ : BufTy).Contents (Elt F) → (⟨S2048x16384, .f32⟩ : BufTy).Contents (Elt F)),
    binary main_v19 main_v19 main_call2_v0 (mulf : (⟨S2048x64, .f32⟩ : BufTy).Contents (Elt F) → (⟨S2048x64, .f32⟩ : BufTy).Contents (Elt F) → (⟨S2048x64, .f32⟩ : BufTy).Contents (Elt F)),
    nullary main_call2_cst (constant S_ .f32 0x00000000#32),
    binary main_call2_v0 main_call2_cst main_call2_v1 (fun x v => Host.reduceAdd x v reducesTo_S2048x64_S2048_d1 h_S_ : (⟨S2048x64, .f32⟩ : BufTy).Contents (Elt F) → (⟨S_, .f32⟩ : BufTy).Contents (Elt F) → (⟨S2048, .f32⟩ : BufTy).Contents (Elt F)),
    unary main_call2_v1 main_call2_v2 (broadcastInDim S2048x1 ![0] bcast_S2048_S2048x1_0 : (⟨S2048, .f32⟩ : BufTy).Contents (Elt F) → (⟨S2048x1, .f32⟩ : BufTy).Contents (Elt F)),
    unary main_call2_v2 main_v21 (Host.sqrt : (⟨S2048x1, .f32⟩ : BufTy).Contents (Elt F) → (⟨S2048x1, .f32⟩ : BufTy).Contents (Elt F)),
    binary main_arg1 main_arg1 main_call3_v0 (mulf : (⟨S16384x64, .f32⟩ : BufTy).Contents (Elt F) → (⟨S16384x64, .f32⟩ : BufTy).Contents (Elt F) → (⟨S16384x64, .f32⟩ : BufTy).Contents (Elt F)),
    nullary main_call3_cst (constant S_ .f32 0x00000000#32),
    binary main_call3_v0 main_call3_cst main_call3_v1 (fun x v => Host.reduceAdd x v reducesTo_S16384x64_S16384_d1 h_S_ : (⟨S16384x64, .f32⟩ : BufTy).Contents (Elt F) → (⟨S_, .f32⟩ : BufTy).Contents (Elt F) → (⟨S16384, .f32⟩ : BufTy).Contents (Elt F)),
    unary main_call3_v1 main_v22 (Host.sqrt : (⟨S16384, .f32⟩ : BufTy).Contents (Elt F) → (⟨S16384, .f32⟩ : BufTy).Contents (Elt F)),
    unary main_v22 main_v23 (broadcastInDim S1x16384 ![1] bcast_S16384_S1x16384_1 : (⟨S16384, .f32⟩ : BufTy).Contents (Elt F) → (⟨S1x16384, .f32⟩ : BufTy).Contents (Elt F)),
    unary main_v21 main_v24 (broadcastInDim S2048x16384 ![0, 1] bcast_S2048x1_S2048x16384_0_1 : (⟨S2048x1, .f32⟩ : BufTy).Contents (Elt F) → (⟨S2048x16384, .f32⟩ : BufTy).Contents (Elt F)),
    unary main_v23 main_v25 (broadcastInDim S2048x16384 ![0, 1] bcast_S1x16384_S2048x16384_0_1 : (⟨S1x16384, .f32⟩ : BufTy).Contents (Elt F) → (⟨S2048x16384, .f32⟩ : BufTy).Contents (Elt F)),
    binary main_v24 main_v25 main_v26 (mulf : (⟨S2048x16384, .f32⟩ : BufTy).Contents (Elt F) → (⟨S2048x16384, .f32⟩ : BufTy).Contents (Elt F) → (⟨S2048x16384, .f32⟩ : BufTy).Contents (Elt F)),
    nullary main_cst_6 (constant S_ .f32 0x322BCC77#32),
    unary main_cst_6 main_v27 (broadcastInDim S2048x16384 ![] bcast_S_S2048x16384 : (⟨S_, .f32⟩ : BufTy).Contents (Elt F) → (⟨S2048x16384, .f32⟩ : BufTy).Contents (Elt F)),
    binary main_v26 main_v27 main_v28 (addf : (⟨S2048x16384, .f32⟩ : BufTy).Contents (Elt F) → (⟨S2048x16384, .f32⟩ : BufTy).Contents (Elt F) → (⟨S2048x16384, .f32⟩ : BufTy).Contents (Elt F)),
    binary main_v20 main_v28 main_v29 (Host.divf : (⟨S2048x16384, .f32⟩ : BufTy).Contents (Elt F) → (⟨S2048x16384, .f32⟩ : BufTy).Contents (Elt F) → (⟨S2048x16384, .f32⟩ : BufTy).Contents (Elt F)) ]

/-- Operations %30 to %46: the ratings column gathered and transposed, and the mask. -/
abbrev opsC : List (HloOp τ sig (Elt F)) :=
  [ nullary main_c_7 (constantI S_ 32 0#32),
    unary main_c_7 main_v30 (broadcastInDim S2048 ![] bcast_S_S2048 : (⟨S_, .i32⟩ : BufTy).Contents (Elt F) → (⟨S2048, .i32⟩ : BufTy).Contents (Elt F)),
    binary main_arg3 main_v30 main_v31 (cmpi .slt : (⟨S2048, .i32⟩ : BufTy).Contents (Elt F) → (⟨S2048, .i32⟩ : BufTy).Contents (Elt F) → (⟨S2048, .i1⟩ : BufTy).Contents (Elt F)),
    nullary main_c_8 (constantI S_ 32 4096#32),
    unary main_c_8 main_v32 (broadcastInDim S2048 ![] bcast_S_S2048 : (⟨S_, .i32⟩ : BufTy).Contents (Elt F) → (⟨S2048, .i32⟩ : BufTy).Contents (Elt F)),
    binary main_arg3 main_v32 main_v33 (addi : (⟨S2048, .i32⟩ : BufTy).Contents (Elt F) → (⟨S2048, .i32⟩ : BufTy).Contents (Elt F) → (⟨S2048, .i32⟩ : BufTy).Contents (Elt F)),
    ternary main_v31 main_v33 main_arg3 main_v34 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v34 main_v35 (broadcastInDim S2048x1 ![0] bcast_S2048_S2048x1_0 : (⟨S2048, .i32⟩ : BufTy).Contents (Elt F) → (⟨S2048x1, .i32⟩ : BufTy).Contents (Elt F)),
    binary main_arg0 main_v35 main_v36 ((fun x i => Host.gather gather_S16384x4096_S2048x1_S16384x2048_0_1_n_n_1_1_163841 x i) : (⟨S16384x4096, .f32⟩ : BufTy).Contents (Elt F) → (⟨S2048x1, .i32⟩ : BufTy).Contents (Elt F) → (⟨S16384x2048, .f32⟩ : BufTy).Contents (Elt F)),
    unary main_v36 main_v37 ((transpose S2048x16384 [1, 0] · transposes_S16384x2048_S2048x16384_1_0) : (⟨S16384x2048, .f32⟩ : BufTy).Contents (Elt F) → (⟨S2048x16384, .f32⟩ : BufTy).Contents (Elt F)),
    binary main_v37 main_v37 main_v38 (cmpf .une : (⟨S2048x16384, .f32⟩ : BufTy).Contents (Elt F) → (⟨S2048x16384, .f32⟩ : BufTy).Contents (Elt F) → (⟨S2048x16384, .i1⟩ : BufTy).Contents (Elt F)),
    unary main_v38 main_v39 (noti : (⟨S2048x16384, .i1⟩ : BufTy).Contents (Elt F) → (⟨S2048x16384, .i1⟩ : BufTy).Contents (Elt F)),
    nullary main_v40 (iotaInDim S16384 32 0),
    unary main_v40 main_v41 (broadcastInDim S1x16384 ![1] bcast_S16384_S1x16384_1 : (⟨S16384, .i32⟩ : BufTy).Contents (Elt F) → (⟨S1x16384, .i32⟩ : BufTy).Contents (Elt F)),
    unary main_arg2 main_v42 (broadcastInDim S2048x1 ![0] bcast_S2048_S2048x1_0 : (⟨S2048, .i32⟩ : BufTy).Contents (Elt F) → (⟨S2048x1, .i32⟩ : BufTy).Contents (Elt F)),
    unary main_v41 main_v43 (broadcastInDim S2048x16384 ![0, 1] bcast_S1x16384_S2048x16384_0_1 : (⟨S1x16384, .i32⟩ : BufTy).Contents (Elt F) → (⟨S2048x16384, .i32⟩ : BufTy).Contents (Elt F)),
    unary main_v42 main_v44 (broadcastInDim S2048x16384 ![0, 1] bcast_S2048x1_S2048x16384_0_1 : (⟨S2048x1, .i32⟩ : BufTy).Contents (Elt F) → (⟨S2048x16384, .i32⟩ : BufTy).Contents (Elt F)),
    binary main_v43 main_v44 main_v45 (cmpi .ne : (⟨S2048x16384, .i32⟩ : BufTy).Contents (Elt F) → (⟨S2048x16384, .i32⟩ : BufTy).Contents (Elt F) → (⟨S2048x16384, .i1⟩ : BufTy).Contents (Elt F)),
    binary main_v39 main_v45 main_v46 (andi : (⟨S2048x16384, .i1⟩ : BufTy).Contents (Elt F) → (⟨S2048x16384, .i1⟩ : BufTy).Contents (Elt F) → (⟨S2048x16384, .i1⟩ : BufTy).Contents (Elt F)) ]

/-- Operations %47 to %58: the masked difference and similarity, numerator, denominator, the safe denominator. -/
abbrev opsD : List (HloOp τ sig (Elt F)) :=
  [ unary main_v12 main_v47 (broadcastInDim S1x16384 ![1] bcast_S16384_S1x16384_1 : (⟨S16384, .f32⟩ : BufTy).Contents (Elt F) → (⟨S1x16384, .f32⟩ : BufTy).Contents (Elt F)),
    unary main_v47 main_v48 (broadcastInDim S2048x16384 ![0, 1] bcast_S1x16384_S2048x16384_0_1 : (⟨S1x16384, .f32⟩ : BufTy).Contents (Elt F) → (⟨S2048x16384, .f32⟩ : BufTy).Contents (Elt F)),
    binary main_v37 main_v48 main_v49 (subf : (⟨S2048x16384, .f32⟩ : BufTy).Contents (Elt F) → (⟨S2048x16384, .f32⟩ : BufTy).Contents (Elt F) → (⟨S2048x16384, .f32⟩ : BufTy).Contents (Elt F)),
    nullary main_cst_9 (constant S_ .f32 0x00000000#32),
    unary main_cst_9 main_call4_v0 (id : (⟨S_, .f32⟩ : BufTy).Contents (Elt F) → (⟨S_, .f32⟩ : BufTy).Contents (Elt F)),
    unary main_call4_v0 main_call4_v1 (broadcastInDim S2048x16384 ![] bcast_S_S2048x16384 : (⟨S_, .f32⟩ : BufTy).Contents (Elt F) → (⟨S2048x16384, .f32⟩ : BufTy).Contents (Elt F)),
    ternary main_v46 main_v49 main_call4_v1 main_v50 (select : (⟨S2048x16384, .i1⟩ : BufTy).Contents (Elt F) → (⟨S2048x16384, .f32⟩ : BufTy).Contents (Elt F) → (⟨S2048x16384, .f32⟩ : BufTy).Contents (Elt F) → (⟨S2048x16384, .f32⟩ : BufTy).Contents (Elt F)),
    nullary main_cst_10 (constant S_ .f32 0x00000000#32),
    unary main_cst_10 main_call5_v0 (id : (⟨S_, .f32⟩ : BufTy).Contents (Elt F) → (⟨S_, .f32⟩ : BufTy).Contents (Elt F)),
    unary main_call5_v0 main_call5_v1 (broadcastInDim S2048x16384 ![] bcast_S_S2048x16384 : (⟨S_, .f32⟩ : BufTy).Contents (Elt F) → (⟨S2048x16384, .f32⟩ : BufTy).Contents (Elt F)),
    ternary main_v46 main_v29 main_call5_v1 main_v51 (select : (⟨S2048x16384, .i1⟩ : BufTy).Contents (Elt F) → (⟨S2048x16384, .f32⟩ : BufTy).Contents (Elt F) → (⟨S2048x16384, .f32⟩ : BufTy).Contents (Elt F) → (⟨S2048x16384, .f32⟩ : BufTy).Contents (Elt F)),
    binary main_v50 main_v51 main_v52 (mulf : (⟨S2048x16384, .f32⟩ : BufTy).Contents (Elt F) → (⟨S2048x16384, .f32⟩ : BufTy).Contents (Elt F) → (⟨S2048x16384, .f32⟩ : BufTy).Contents (Elt F)),
    nullary main_cst_11 (constant S_ .f32 0x00000000#32),
    binary main_v52 main_cst_11 main_v53 ((fun x v => Host.reduceAdd x v reducesTo_S2048x16384_S2048_d1 h_S_) : (⟨S2048x16384, .f32⟩ : BufTy).Contents (Elt F) → (⟨S_, .f32⟩ : BufTy).Contents (Elt F) → (⟨S2048, .f32⟩ : BufTy).Contents (Elt F)),
    unary main_v51 main_v54 (Host.absf : (⟨S2048x16384, .f32⟩ : BufTy).Contents (Elt F) → (⟨S2048x16384, .f32⟩ : BufTy).Contents (Elt F)),
    nullary main_cst_12 (constant S_ .f32 0x00000000#32),
    binary main_v54 main_cst_12 main_v55 ((fun x v => Host.reduceAdd x v reducesTo_S2048x16384_S2048_d1 h_S_) : (⟨S2048x16384, .f32⟩ : BufTy).Contents (Elt F) → (⟨S_, .f32⟩ : BufTy).Contents (Elt F) → (⟨S2048, .f32⟩ : BufTy).Contents (Elt F)),
    nullary main_cst_13 (constant S_ .f32 0x00000000#32),
    unary main_cst_13 main_v56 (broadcastInDim S2048 ![] bcast_S_S2048 : (⟨S_, .f32⟩ : BufTy).Contents (Elt F) → (⟨S2048, .f32⟩ : BufTy).Contents (Elt F)),
    binary main_v55 main_v56 main_v57 (cmpf .oeq : (⟨S2048, .f32⟩ : BufTy).Contents (Elt F) → (⟨S2048, .f32⟩ : BufTy).Contents (Elt F) → (⟨S2048, .i1⟩ : BufTy).Contents (Elt F)),
    nullary main_cst_14 (constant S_ .f32 0x3F800000#32),
    unary main_cst_14 main_call6_v0 (id : (⟨S_, .f32⟩ : BufTy).Contents (Elt F) → (⟨S_, .f32⟩ : BufTy).Contents (Elt F)),
    unary main_call6_v0 main_call6_v1 (broadcastInDim S2048 ![] bcast_S_S2048 : (⟨S_, .f32⟩ : BufTy).Contents (Elt F) → (⟨S2048, .f32⟩ : BufTy).Contents (Elt F)),
    ternary main_v57 main_call6_v1 main_v55 main_v58 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)) ]

/-- Operations %59 to %70: the query user's own average gathered, and the last selection. -/
abbrev opsE : List (HloOp τ sig (Elt F)) :=
  [ nullary main_c_15 (constantI S_ 32 0#32),
    unary main_c_15 main_v59 (broadcastInDim S2048 ![] bcast_S_S2048 : (⟨S_, .i32⟩ : BufTy).Contents (Elt F) → (⟨S2048, .i32⟩ : BufTy).Contents (Elt F)),
    binary main_arg2 main_v59 main_v60 (cmpi .slt : (⟨S2048, .i32⟩ : BufTy).Contents (Elt F) → (⟨S2048, .i32⟩ : BufTy).Contents (Elt F) → (⟨S2048, .i1⟩ : BufTy).Contents (Elt F)),
    nullary main_c_16 (constantI S_ 32 16384#32),
    unary main_c_16 main_v61 (broadcastInDim S2048 ![] bcast_S_S2048 : (⟨S_, .i32⟩ : BufTy).Contents (Elt F) → (⟨S2048, .i32⟩ : BufTy).Contents (Elt F)),
    binary main_arg2 main_v61 main_v62 (addi : (⟨S2048, .i32⟩ : BufTy).Contents (Elt F) → (⟨S2048, .i32⟩ : BufTy).Contents (Elt F) → (⟨S2048, .i32⟩ : BufTy).Contents (Elt F)),
    ternary main_v60 main_v62 main_arg2 main_v63 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v63 main_v64 (broadcastInDim S2048x1 ![0] bcast_S2048_S2048x1_0 : (⟨S2048, .i32⟩ : BufTy).Contents (Elt F) → (⟨S2048x1, .i32⟩ : BufTy).Contents (Elt F)),
    binary main_v12 main_v64 main_v65 ((fun x i => Host.gather gather_S16384_S2048x1_S2048_n_0_n_n_0_1_1 x i) : (⟨S16384, .f32⟩ : BufTy).Contents (Elt F) → (⟨S2048x1, .i32⟩ : BufTy).Contents (Elt F) → (⟨S2048, .f32⟩ : BufTy).Contents (Elt F)),
    nullary main_cst_17 (constant S_ .f32 0x00000000#32),
    unary main_cst_17 main_v66 (broadcastInDim S2048 ![] bcast_S_S2048 : (⟨S_, .f32⟩ : BufTy).Contents (Elt F) → (⟨S2048, .f32⟩ : BufTy).Contents (Elt F)),
    binary main_v55 main_v66 main_v67 (cmpf .oeq : (⟨S2048, .f32⟩ : BufTy).Contents (Elt F) → (⟨S2048, .f32⟩ : BufTy).Contents (Elt F) → (⟨S2048, .i1⟩ : BufTy).Contents (Elt F)),
    binary main_v53 main_v58 main_v68 (Host.divf : (⟨S2048, .f32⟩ : BufTy).Contents (Elt F) → (⟨S2048, .f32⟩ : BufTy).Contents (Elt F) → (⟨S2048, .f32⟩ : BufTy).Contents (Elt F)),
    binary main_v65 main_v68 main_v69 (addf : (⟨S2048, .f32⟩ : BufTy).Contents (Elt F) → (⟨S2048, .f32⟩ : BufTy).Contents (Elt F) → (⟨S2048, .f32⟩ : BufTy).Contents (Elt F)),
    ternary main_v67 main_v65 main_v69 main_v70 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)) ]

/-- The program's list is the five stretches in a row. -/
theorem ops_cut : (ops : List (HloOp τ sig (Elt F))) = opsA ++ (opsB ++ (opsC ++ (opsD ++ opsE))) := rfl

/-! ## Stretch A: the per-user average -/

theorem stA (W : Valuation τ sig (Elt F)) :
    after opsA W (Proc.devRef .tc main_v12) = val_main_v12 (F := F) (W (Proc.devRef .tc main_arg0)) := by
  after_results_simp
  rfl
theorem frA0 (W : Valuation τ sig (Elt F)) : after opsA W (Proc.devRef .tc main_arg0) = W (Proc.devRef .tc main_arg0) := by
  after_results_simp <;> rfl
theorem frA1 (W : Valuation τ sig (Elt F)) : after opsA W (Proc.devRef .tc main_arg1) = W (Proc.devRef .tc main_arg1) := by
  after_results_simp <;> rfl
theorem frA2 (W : Valuation τ sig (Elt F)) : after opsA W (Proc.devRef .tc main_arg2) = W (Proc.devRef .tc main_arg2) := by
  after_results_simp <;> rfl
theorem frA3 (W : Valuation τ sig (Elt F)) : after opsA W (Proc.devRef .tc main_arg3) = W (Proc.devRef .tc main_arg3) := by
  after_results_simp <;> rfl

/-! ## Stretch B: the similarity -/

theorem stB (W : Valuation τ sig (Elt F)) :
    after opsB W (Proc.devRef .tc main_v29)
      = val_main_v29 (F := F) (W (Proc.devRef .tc main_arg1)) (W (Proc.devRef .tc main_arg2)) := by
  after_results_simp
  rfl
theorem frB12 (W : Valuation τ sig (Elt F)) : after opsB W (Proc.devRef .tc main_v12) = W (Proc.devRef .tc main_v12) := by
  after_results_simp <;> rfl
theorem frB0 (W : Valuation τ sig (Elt F)) : after opsB W (Proc.devRef .tc main_arg0) = W (Proc.devRef .tc main_arg0) := by
  after_results_simp <;> rfl
theorem frB2 (W : Valuation τ sig (Elt F)) : after opsB W (Proc.devRef .tc main_arg2) = W (Proc.devRef .tc main_arg2) := by
  after_results_simp <;> rfl
theorem frB3 (W : Valuation τ sig (Elt F)) : after opsB W (Proc.devRef .tc main_arg3) = W (Proc.devRef .tc main_arg3) := by
  after_results_simp <;> rfl

/-! ## Stretch C: the gathered column and the mask -/

theorem stC37 (W : Valuation τ sig (Elt F)) :
    after opsC W (Proc.devRef .tc main_v37)
      = val_main_v37 (F := F) (W (Proc.devRef .tc main_arg0)) (W (Proc.devRef .tc main_arg3)) := by
  after_results_simp
  rfl
theorem stC46 (W : Valuation τ sig (Elt F)) :
    after opsC W (Proc.devRef .tc main_v46)
      = val_main_v46 (F := F) (W (Proc.devRef .tc main_arg0)) (W (Proc.devRef .tc main_arg2)) (W (Proc.devRef .tc main_arg3)) := by
  after_results_simp
  rfl
theorem frC12 (W : Valuation τ sig (Elt F)) : after opsC W (Proc.devRef .tc main_v12) = W (Proc.devRef .tc main_v12) := by
  after_results_simp <;> rfl
theorem frC29 (W : Valuation τ sig (Elt F)) : after opsC W (Proc.devRef .tc main_v29) = W (Proc.devRef .tc main_v29) := by
  after_results_simp <;> rfl
theorem frC2 (W : Valuation τ sig (Elt F)) : after opsC W (Proc.devRef .tc main_arg2) = W (Proc.devRef .tc main_arg2) := by
  after_results_simp <;> rfl

/-! ## Stretch D: numerator, denominator, safe denominator -/

section
variable (W : Valuation τ sig (Elt F))
  (x0 : (⟨S16384x4096, .f32⟩ : BufTy).Contents (Elt F)) (x1 : (⟨S16384x64, .f32⟩ : BufTy).Contents (Elt F))
  (x2 x3 : (⟨S2048, .i32⟩ : BufTy).Contents (Elt F))

theorem stD53 (h12 : W (Proc.devRef .tc main_v12) = val_main_v12 (F := F) x0)
    (h29 : W (Proc.devRef .tc main_v29) = val_main_v29 (F := F) x1 x2)
    (h37 : W (Proc.devRef .tc main_v37) = val_main_v37 (F := F) x0 x3)
    (h46 : W (Proc.devRef .tc main_v46) = val_main_v46 (F := F) x0 x2 x3) :
    after opsD W (Proc.devRef .tc main_v53) = val_main_v53 (F := F) x0 x1 x2 x3 := by
  after_results_simp
  rw [h12, h29, h37, h46]
  rfl
theorem stD55 (h29 : W (Proc.devRef .tc main_v29) = val_main_v29 (F := F) x1 x2)
    (h46 : W (Proc.devRef .tc main_v46) = val_main_v46 (F := F) x0 x2 x3) :
    after opsD W (Proc.devRef .tc main_v55) = val_main_v55 (F := F) x0 x1 x2 x3 := by
  after_results_simp
  rw [h29, h46]
  rfl
theorem stD58 (h29 : W (Proc.devRef .tc main_v29) = val_main_v29 (F := F) x1 x2)
    (h46 : W (Proc.devRef .tc main_v46) = val_main_v46 (F := F) x0 x2 x3) :
    after opsD W (Proc.devRef .tc main_v58) = val_main_v58 (F := F) x0 x1 x2 x3 := by
  after_results_simp
  rw [h29, h46]
  rfl
theorem frD12 : after opsD W (Proc.devRef .tc main_v12) = W (Proc.devRef .tc main_v12) := by
  after_results_simp <;> rfl
theorem frD2 : after opsD W (Proc.devRef .tc main_arg2) = W (Proc.devRef .tc main_arg2) := by
  after_results_simp <;> rfl

/-! ## Stretch E: the result -/

theorem stE (h12 : W (Proc.devRef .tc main_v12) = val_main_v12 (F := F) x0)
    (h53 : W (Proc.devRef .tc main_v53) = val_main_v53 (F := F) x0 x1 x2 x3)
    (h55 : W (Proc.devRef .tc main_v55) = val_main_v55 (F := F) x0 x1 x2 x3)
    (h58 : W (Proc.devRef .tc main_v58) = val_main_v58 (F := F) x0 x1 x2 x3)
    (h2 : W (Proc.devRef .tc main_arg2) = x2) :
    after opsE W (Proc.devRef .tc main_v70) = val_main_v70 (F := F) x0 x1 x2 x3 := by
  after_results_simp
  rw [h12, h53, h55, h58, h2]
  rfl

end

/-! ## The five in a row -/

/-- From any contents V, the fold of all 108 operations leaves in main_v70 the last stage of V's four arguments. -/
theorem stage70 (V : Valuation τ sig (Elt F)) :
    after ops V (Proc.devRef .tc main_v70)
      = val_main_v70 (F := F) (V (Proc.devRef .tc main_arg0)) (V (Proc.devRef .tc main_arg1))
          (V (Proc.devRef .tc main_arg2)) (V (Proc.devRef .tc main_arg3)) := by
  rw [ops_cut, StableHlo.after_append, StableHlo.after_append, StableHlo.after_append, StableHlo.after_append]
  -- after A
  have a12 := stA V
  have a0 := frA0 V
  have a1 := frA1 V
  have a2 := frA2 V
  have a3 := frA3 V
  generalize after opsA V = V1 at a12 a0 a1 a2 a3 ⊢
  -- after B
  have b29 := stB V1
  rw [a1, a2] at b29
  have b12 := (frB12 V1).trans a12
  have b0 := (frB0 V1).trans a0
  have b2 := (frB2 V1).trans a2
  have b3 := (frB3 V1).trans a3
  generalize after opsB V1 = V2 at b29 b12 b0 b2 b3 ⊢
  -- after C
  have c37 := stC37 V2
  rw [b0, b3] at c37
  have c46 := stC46 V2
  rw [b0, b2, b3] at c46
  have c12 := (frC12 V2).trans b12
  have c29 := (frC29 V2).trans b29
  have c2 := (frC2 V2).trans b2
  generalize after opsC V2 = V3 at c37 c46 c12 c29 c2 ⊢
  -- after D
  have d53 := stD53 V3 _ _ _ _ c12 c29 c37 c46
  have d55 := stD55 V3 _ _ _ _ c29 c46
  have d58 := stD58 V3 _ _ _ _ c29 c46
  have d12 := (frD12 V3).trans c12
  have d2 := (frD2 V3).trans c2
  generalize after opsD V3 = V4 at d53 d55 d58 d12 d2 ⊢
  -- E
  exact stE V4 _ _ _ _ d12 d53 d55 d58 d2

/-! ## The run -/

set_option maxRecDepth 8192 in
set_option maxHeartbeats 4000000 in
/-- On every device, for any float values, from any memory with zero counters: every weakly fair execution of @main
    terminates with main_v70 at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = val_main_v70 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v70).trans (stage70 _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.CFRefRun

end
-- ==== Proof.lean ====
/-
  Memory-based collaborative filtering, a kernel against its plain reference, on the extended reals.

  For 2048 queries (a user word and an item word each) over 16384 users with 64-dimensional embeddings and a 16384 × 4096 rating matrix, both
  programs predict, for each query, the query user's average rating plus a similarity-weighted mean of the other users' deviations from
  their own averages at the query's item:  avg(u) + (∑ₙ [n ≠ u] (R[n, item] − avg n) · sim(n, u)) / (∑ₙ |[n ≠ u] sim(n, u)|), or avg(u) alone
  when the denominator is 0. The reference computes this over whole arrays. The kernel walks the users in 32 tiles of 512 rows, writes per
  tile the three partial sums (numerator, denominator, and "the average of the row that is the query's own user"), and the host adds the
  tiles and applies the last step.

  On the extended reals no entry is a NaN, so every rating counts and a row's average is its sum over 4096. The two programs then differ
  only in the grouping of sums over users (tiles of 512 against all 16384: sums in a commutative monoid regroup freely), in the order of
  the factors of an inner product, and in how the query user's own average is read: the reference gathers it at the user word, the kernel
  sums "average if the row's number is the user word, else 0" over all rows. These agree exactly when the user word names a user, and the
  two programs' gathers of the ratings column agree exactly when the item word names an item (the kernel's take fills out-of-range
  columns, the reference's indexing clamps them): hence the precondition's two range conjuncts, and only they are used; finiteness of the
  float inputs is not.

  The two word-level and idealized kernel frames are the class-A frame certificates (the generated text, with the grid coordinate bound).
  The reference's run is read stage by stage. `preserves` is trivial: the ideal pass rewrote nothing.
-/
import proofs.«412138_j37194416783750_3_alg».proof.Defs
import proofs.«412138_j37194416783750_3_alg».proof.Proof.Gen.Kernel
import proofs.«412138_j37194416783750_3_alg».proof.Proof.Gen.KernelIdeal
import proofs.«412138_j37194416783750_3_alg».proof.Proof.Gen.ReferenceIdeal
import proofs.«412138_j37194416783750_3_alg».proof.Proof.Gen.Pre_finite_inputs
import proofs.«412138_j37194416783750_3_alg».proof.Proof.FrameK
import proofs.«412138_j37194416783750_3_alg».proof.Proof.FrameKI
import proofs.«412138_j37194416783750_3_alg».proof.Proof.KValue
import proofs.«412138_j37194416783750_3_alg».proof.Proof.RefJoin
import proofs.«412138_j37194416783750_3_alg».proof.Proof.RefRunHand
import proofs.«412138_j37194416783750_3_alg».proof.Proof.PreFacts
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.CFRefRun.run (F := Ideal) m ρ)

/-- The ideal pass rewrote no operation. -/
theorem preserves : Cert.preserves_Kernel_KernelIdeal := trivial

/-- From memories agreeing on the arguments both programs end with the specification's prediction in their result buffers: the
    precondition gives the two index ranges, under which the kernel's run and the reference's last stage are both that prediction. -/
theorem algebraic : Cert.algebraic_KernelIdeal_ReferenceIdeal := by
  intro m ρ m' ρ' hpre hagree
  have hr : ∀ c : Dev Cert.KernelIdeal.nD, (∀ j, (Cert.CFK.argU m c j).toNat < 16384) ∧ (∀ j, (Cert.CFK.argI m c j).toNat < 4096) :=
    fun c => Cert.CFPre.idx_ranges _ _ _ _ (hpre c)
  refine ⟨fun c => Cert.CFK.result m c, Cert.CFK.run_value m ρ hr, ?_⟩
  refine (θ_run Cert.ReferenceIdeal.defs _ _).mono (fun _ h c => ⟨(h c).1.trans ?_, (h c).2⟩) (Cert.CFRefRun.run (F := Ideal) m' ρ')
  rw [(hagree c).1, (hagree c).2.1, (hagree c).2.2.1, (hagree c).2.2.2]
  funext j
  exact Cert.CFRef.ref_out _ _ _ _ (hr c).1 (hr c).2 j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
